-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S128x128x128x16 : Shape := ⟨4, ![128, 128, 128, 16]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S128x128x128x16 : S_.BroadcastsInDim S128x128x128x16 (![] : Fin 0 → Fin S128x128x128x16.rank)
  reducesTo_S128x128x128x16_S_d0_1_2_3 : S128x128x128x16.ReducesTo [0, 1, 2, 3] S_

variable [Facts]

def fn {F : FTy → Type} [FloatOps F] (main_arg0 : FVec F S2000000x3 .f32) (main_arg1 : FVec F S128x128x128x16 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S128x128x128x16 .f32 := Host.absf main_arg1
  let main_cst_0 : FVec F S_ .f32 := constant S_ .f32 0x7F800000#32
  let main_v5 : FVec F S128x128x128x16 .f32 := broadcastInDim S128x128x128x16 ![] bcast_S_S128x128x128x16 main_cst_0
  let main_v6 : IVec S128x128x128x16 1 := cmpf .olt main_v4 main_v5
  let main_c_1 : IVec S_ 1 := constantI S_ 1 1#1
  let main_v7 : IVec S_ 1 := (fun x v => Host.reduce IntOp.andi x v reducesTo_S128x128x128x16_S_d0_1_2_3 h_S_) main_v6 main_c_1
  let main_v8 : IVec S_ 1 := andi main_v3 main_v7
  main_v8
-- ==== Kernel.lean ====
abbrev S2000000x3 : Shape := ⟨2, ![2000000, 3]⟩
abbrev S128x128x128x16 : Shape := ⟨4, ![128, 128, 128, 16]⟩
abbrev S_ : Shape := ⟨0, ![]⟩
abbrev S2000000x1 : Shape := ⟨2, ![2000000, 1]⟩
abbrev S2000000 : Shape := ⟨1, ![2000000]⟩
abbrev S2000000x8 : Shape := ⟨2, ![2000000, 8]⟩
abbrev S2002944x8 : Shape := ⟨2, ![2002944, 8]⟩
abbrev S2002944x3 : Shape := ⟨2, ![2002944, 3]⟩
abbrev S2097152x16 : Shape := ⟨2, ![2097152, 16]⟩
abbrev S2002944x8x1 : Shape := ⟨3, ![2002944, 8, 1]⟩
abbrev S1 : Shape := ⟨1, ![1]⟩
abbrev S1x1x1 : Shape := ⟨3, ![1, 1, 1]⟩
abbrev S2002944x8x16 : Shape := ⟨3, ![2002944, 8, 16]⟩
abbrev S2002944x128 : Shape := ⟨2, ![2002944, 128]⟩
abbrev S2002944x16 : Shape := ⟨2, ![2002944, 16]⟩
abbrev S4096x128 : Shape := ⟨2, ![4096, 128]⟩
abbrev S4096x3 : Shape := ⟨2, ![4096, 3]⟩
abbrev S4096x16 : Shape := ⟨2, ![4096, 16]⟩
abbrev S4096x1 : Shape := ⟨2, ![4096, 1]⟩
abbrev S2000000x16 : Shape := ⟨2, ![2000000, 16]⟩

abbrev nBuf : Space → Nat
  | .hbm => 190
  | .vmem => 6
  | .smem => 0
  | _ => 0

abbrev hbmTy0_0 (i : Nat) : BufTy := match i % 128 with
  | 0 => ⟨S2000000x3, .f32⟩
  | 1 => ⟨S128x128x128x16, .f32⟩
  | 2 => ⟨S_, .f32⟩
  | 3 => ⟨S2000000x3, .f32⟩
  | 4 => ⟨S2000000x3, .f32⟩
  | 5 => ⟨S2000000x1, .f32⟩
  | 6 => ⟨S2000000, .f32⟩
  | 7 => ⟨S2000000x1, .f32⟩
  | 8 => ⟨S2000000, .f32⟩
  | 9 => ⟨S2000000x1, .f32⟩
  | 10 => ⟨S2000000, .f32⟩
  | 11 => ⟨S2000000, .f32⟩
  | 12 => ⟨S2000000, .i32⟩
  | 13 => ⟨S_, .i32⟩
  | 14 => ⟨S_, .i32⟩
  | 15 => ⟨S_, .i32⟩
  | 16 => ⟨S2000000, .i32⟩
  | 17 => ⟨S2000000, .i32⟩
  | 18 => ⟨S_, .i32⟩
  | 19 => ⟨S2000000, .i32⟩
  | 20 => ⟨S2000000, .i32⟩
  | 21 => ⟨S2000000, .f32⟩
  | 22 => ⟨S2000000, .i32⟩
  | 23 => ⟨S_, .i32⟩
  | 24 => ⟨S_, .i32⟩
  | 25 => ⟨S_, .i32⟩
  | 26 => ⟨S2000000, .i32⟩
  | 27 => ⟨S2000000, .i32⟩
  | 28 => ⟨S_, .i32⟩
  | 29 => ⟨S2000000, .i32⟩
  | 30 => ⟨S2000000, .i32⟩
  | 31 => ⟨S2000000, .f32⟩
  | 32 => ⟨S2000000, .i32⟩
  | 33 => ⟨S_, .i32⟩
  | 34 => ⟨S_, .i32⟩
  | 35 => ⟨S_, .i32⟩
  | 36 => ⟨S2000000, .i32⟩
  | 37 => ⟨S2000000, .i32⟩
  | 38 => ⟨S_, .i32⟩
  | 39 => ⟨S2000000, .i32⟩
  | 40 => ⟨S2000000, .i32⟩
  | 41 => ⟨S_, .i32⟩
  | 42 => ⟨S2000000, .i32⟩
  | 43 => ⟨S2000000, .i32⟩
  | 44 => ⟨S_, .i32⟩
  | 45 => ⟨S_, .i32⟩
  | 46 => ⟨S_, .i32⟩
  | 47 => ⟨S2000000, .i32⟩
  | 48 => ⟨S2000000, .i32⟩
  | 49 => ⟨S_, .i32⟩
  | 50 => ⟨S2000000, .i32⟩
  | 51 => ⟨S2000000, .i32⟩
  | 52 => ⟨S_, .i32⟩
  | 53 => ⟨S2000000, .i32⟩
  | 54 => ⟨S2000000, .i32⟩
  | 55 => ⟨S_, .i32⟩
  | 56 => ⟨S_, .i32⟩
  | 57 => ⟨S_, .i32⟩
  | 58 => ⟨S2000000, .i32⟩
  | 59 => ⟨S2000000, .i32⟩
  | 60 => ⟨S_, .i32⟩
  | 61 => ⟨S2000000, .i32⟩
  | 62 => ⟨S2000000, .i32⟩
  | 63 => ⟨S_, .i32⟩
  | 64 => ⟨S2000000, .i32⟩
  | 65 => ⟨S2000000, .i32⟩
  | 66 => ⟨S_, .i32⟩
  | 67 => ⟨S_, .i32⟩
  | 68 => ⟨S_, .i32⟩
  | 69 => ⟨S2000000, .i32⟩
  | 70 => ⟨S2000000, .i32⟩
  | 71 => ⟨S_, .i32⟩
  | 72 => ⟨S2000000, .i32⟩
  | 73 => ⟨S2000000, .i32⟩
  | 74 => ⟨S2000000, .f32⟩
  | 75 => ⟨S2000000, .f32⟩
  | 76 => ⟨S2000000, .f32⟩
  | 77 => ⟨S2000000, .f32⟩
  | 78 => ⟨S2000000, .f32⟩
  | 79 => ⟨S2000000, .f32⟩
  | 80 => ⟨S_, .i32⟩
  | 81 => ⟨S2000000, .i32⟩
  | 82 => ⟨S2000000, .i32⟩
  | 83 => ⟨S2000000, .i32⟩
  | 84 => ⟨S_, .i32⟩
  | 85 => ⟨S2000000, .i32⟩
  | 86 => ⟨S2000000, .i32⟩
  | 87 => ⟨S2000000, .i32⟩
  | 88 => ⟨S_, .i32⟩
  | 89 => ⟨S2000000, .i32⟩
  | 90 => ⟨S2000000, .i32⟩
  | 91 => ⟨S2000000, .i32⟩
  | 92 => ⟨S_, .i32⟩
  | 93 => ⟨S2000000, .i32⟩
  | 94 => ⟨S2000000, .i32⟩
  | 95 => ⟨S2000000, .i32⟩
  | 96 => ⟨S_, .i32⟩
  | 97 => ⟨S2000000, .i32⟩
  | 98 => ⟨S2000000, .i32⟩
  | 99 => ⟨S2000000, .i32⟩
  | 100 => ⟨S_, .i32⟩
  | 101 => ⟨S2000000, .i32⟩
  | 102 => ⟨S2000000, .i32⟩
  | 103 => ⟨S2000000, .i32⟩
  | 104 => ⟨S_, .i32⟩
  | 105 => ⟨S2000000, .i32⟩
  | 106 => ⟨S2000000, .i32⟩
  | 107 => ⟨S2000000, .i32⟩
  | 108 => ⟨S_, .i32⟩
  | 109 => ⟨S2000000, .i32⟩
  | 110 => ⟨S2000000, .i32⟩
  | 111 => ⟨S2000000, .i32⟩
  | 112 => ⟨S_, .i32⟩
  | 113 => ⟨S2000000, .i32⟩
  | 114 => ⟨S2000000, .i32⟩
  | 115 => ⟨S2000000, .i32⟩
  | 116 => ⟨S_, .i32⟩
  | 117 => ⟨S2000000, .i32⟩
  | 118 => ⟨S2000000, .i32⟩
  | 119 => ⟨S2000000, .i32⟩
  | 120 => ⟨S_, .i32⟩
  | 121 => ⟨S2000000, .i32⟩
  | 122 => ⟨S2000000, .i32⟩
  | 123 => ⟨S2000000, .i32⟩
  | 124 => ⟨S_, .i32⟩
  | 125 => ⟨S2000000, .i32⟩
  | 126 => ⟨S2000000, .i32⟩
  | 127 => ⟨S2000000, .i32⟩
  | _ => ⟨S2000000x3, .f32⟩

abbrev hbmTy0_1 (i : Nat) : BufTy := match i % 128 with
  | 0 => ⟨S_, .i32⟩
  | 1 => ⟨S2000000, .i32⟩
  | 2 => ⟨S2000000, .i32⟩
  | 3 => ⟨S2000000, .i32⟩
  | 4 => ⟨S_, .i32⟩
  | 5 => ⟨S2000000, .i32⟩
  | 6 => ⟨S2000000, .i32⟩
  | 7 => ⟨S2000000, .i32⟩
  | 8 => ⟨S_, .i32⟩
  | 9 => ⟨S2000000, .i32⟩
  | 10 => ⟨S2000000, .i32⟩
  | 11 => ⟨S2000000, .i32⟩
  | 12 => ⟨S_, .i32⟩
  | 13 => ⟨S2000000, .i32⟩
  | 14 => ⟨S2000000, .i32⟩
  | 15 => ⟨S2000000, .i32⟩
  | 16 => ⟨S2000000x1, .i32⟩
  | 17 => ⟨S2000000x1, .i32⟩
  | 18 => ⟨S2000000x1, .i32⟩
  | 19 => ⟨S2000000x1, .i32⟩
  | 20 => ⟨S2000000x1, .i32⟩
  | 21 => ⟨S2000000x1, .i32⟩
  | 22 => ⟨S2000000x1, .i32⟩
  | 23 => ⟨S2000000x1, .i32⟩
  | 24 => ⟨S2000000x8, .i32⟩
  | 25 => ⟨S2000000x1, .f32⟩
  | 26 => ⟨S2000000x1, .f32⟩
  | 27 => ⟨S2000000x1, .f32⟩
  | 28 => ⟨S2000000x3, .f32⟩
  | 29 => ⟨S_, .i32⟩
  | 30 => ⟨S_, .i32⟩
  | 31 => ⟨S2002944x8, .i32⟩
  | 32 => ⟨S_, .i32⟩
  | 33 => ⟨S_, .f32⟩
  | 34 => ⟨S2002944x3, .f32⟩
  | 35 => ⟨S2097152x16, .f32⟩
  | 36 => ⟨S_, .i32⟩
  | 37 => ⟨S2002944x8, .i32⟩
  | 38 => ⟨S2002944x8, .i1⟩
  | 39 => ⟨S_, .i32⟩
  | 40 => ⟨S2002944x8, .i32⟩
  | 41 => ⟨S2002944x8, .i32⟩
  | 42 => ⟨S2002944x8, .i32⟩
  | 43 => ⟨S2002944x8x1, .i32⟩
  | 44 => ⟨S1, .i32⟩
  | 45 => ⟨S_, .i32⟩
  | 46 => ⟨S2002944x8x1, .i32⟩
  | 47 => ⟨S2002944x8x1, .i1⟩
  | 48 => ⟨S1x1x1, .i32⟩
  | 49 => ⟨S2002944x8x1, .i32⟩
  | 50 => ⟨S2002944x8x1, .i1⟩
  | 51 => ⟨S2002944x8x1, .i1⟩
  | 52 => ⟨S_, .i1⟩
  | 53 => ⟨S2002944x8, .i1⟩
  | 54 => ⟨S2002944x8x16, .f32⟩
  | 55 => ⟨S2002944x8x16, .i1⟩
  | 56 => ⟨S_, .f32⟩
  | 57 => ⟨S2002944x8x16, .f32⟩
  | 58 => ⟨S2002944x8x16, .f32⟩
  | 59 => ⟨S2002944x128, .f32⟩
  | 60 => ⟨S2002944x16, .f32⟩
  | 61 => ⟨S2000000x16, .f32⟩
  | _ => ⟨S2000000x3, .f32⟩

abbrev hbmTy (i : Nat) : BufTy := match i / 128 with
  | 0 => hbmTy0_0 i
  | 1 => hbmTy0_1 i
  | _ => ⟨S2000000x3, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x3, .f32⟩
  | .local _ .vmem, ⟨3, _⟩ => ⟨S4096x3, .f32⟩
  | .local _ .vmem, ⟨4, _⟩ => ⟨S4096x16, .f32⟩
  | .local _ .vmem, ⟨5, _⟩ => ⟨S4096x16, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_c_4 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_v18 : Ref sig .tc := ⟨.hbm, 43, rfl⟩
abbrev main_c_6 : Ref sig .tc := ⟨.hbm, 44, rfl⟩
abbrev main_c_7 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v19 : Ref sig .tc := ⟨.hbm, 51, rfl⟩
abbrev main_c_8 : Ref sig .tc := ⟨.hbm, 52, rfl⟩
abbrev main_v20 : Ref sig .tc := ⟨.hbm, 53, rfl⟩
abbrev main_v21 : Ref sig .tc := ⟨.hbm, 54, rfl⟩
abbrev main_c_9 : Ref sig .tc := ⟨.hbm, 55, rfl⟩
abbrev main_c_10 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_v22 : Ref sig .tc := ⟨.hbm, 62, rfl⟩
abbrev main_c_11 : Ref sig .tc := ⟨.hbm, 63, rfl⟩
abbrev main_v23 : Ref sig .tc := ⟨.hbm, 64, rfl⟩
abbrev main_v24 : Ref sig .tc := ⟨.hbm, 65, rfl⟩
abbrev main_c_12 : Ref sig .tc := ⟨.hbm, 66, rfl⟩
abbrev main_c_13 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_c_14 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_c_15 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_c_16 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_c_17 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_c_18 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_c_19 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_c_20 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_c_21 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_c_22 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_c_23 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_c_24 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_c_25 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_c_26 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_c_27 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_c_28 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_c_29 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_c_30 : Ref sig .tc := ⟨.hbm, 157, rfl⟩
abbrev main_call6_v0 : Ref sig .tc := ⟨.hbm, 158, rfl⟩
abbrev main_v93 : Ref sig .tc := ⟨.hbm, 159, rfl⟩
abbrev main_c_31 : Ref sig .tc := ⟨.hbm, 160, rfl⟩
abbrev main_call7_v0 : Ref sig .tc := ⟨.hbm, 161, rfl⟩
abbrev main_v94 : Ref sig .tc := ⟨.hbm, 162, rfl⟩
abbrev main_v95 : Ref sig .tc := ⟨.hbm, 163, rfl⟩
abbrev main_call8_c : Ref sig .tc := ⟨.hbm, 164, rfl⟩
abbrev main_call8_v0 : Ref sig .tc := ⟨.hbm, 165, rfl⟩
abbrev main_call8_v1 : Ref sig .tc := ⟨.hbm, 166, rfl⟩
abbrev main_call8_c_0 : Ref sig .tc := ⟨.hbm, 167, rfl⟩
abbrev main_call8_v2 : Ref sig .tc := ⟨.hbm, 168, rfl⟩
abbrev main_call8_v3 : Ref sig .tc := ⟨.hbm, 169, rfl⟩
abbrev main_call8_v4 : Ref sig .tc := ⟨.hbm, 170, rfl⟩
abbrev main_call8_v5 : Ref sig .tc := ⟨.hbm, 171, rfl⟩
abbrev main_call8_c_1 : Ref sig .tc := ⟨.hbm, 172, rfl⟩
abbrev main_call8_c_2 : Ref sig .tc := ⟨.hbm, 173, rfl⟩
abbrev main_call8_v6 : Ref sig .tc := ⟨.hbm, 174, rfl⟩
abbrev main_call8_v7 : Ref sig .tc := ⟨.hbm, 175, rfl⟩
abbrev main_call8_v8 : Ref sig .tc := ⟨.hbm, 176, rfl⟩
abbrev main_call8_v9 : Ref sig .tc := ⟨.hbm, 177, rfl⟩
abbrev main_call8_v10 : Ref sig .tc := ⟨.hbm, 178, rfl⟩
abbrev main_call8_v11 : Ref sig .tc := ⟨.hbm, 179, rfl⟩
abbrev main_call8_c_3 : Ref sig .tc := ⟨.hbm, 180, rfl⟩
abbrev main_call8_v12 : Ref sig .tc := ⟨.hbm, 181, rfl⟩
abbrev main_call8_v13 : Ref sig .tc := ⟨.hbm, 182, rfl⟩
abbrev main_call8_v14 : Ref sig .tc := ⟨.hbm, 183, rfl⟩
abbrev main_call8_cst : Ref sig .tc := ⟨.hbm, 184, rfl⟩
abbrev main_call8_v15 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2000000x3 : S_.BroadcastsInDim S2000000x3 (![] : Fin 0 → Fin S2000000x3.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x1_S2000000x1_S2000000x1_S2000000x1_S2000000x1_S2000000x8_d1 : Shape.Concatenates [S2000000x1, S2000000x1, S2000000x1, S2000000x1, S2000000x1, S2000000x1, S2000000x1, S2000000x1] S2000000x8 1
  concatenates_S2000000x1_S2000000x1_S2000000x1_S2000000x3_d1 : Shape.Concatenates [S2000000x1, S2000000x1, S2000000x1] S2000000x3 1
  pads_S2000000x8_S2002944x8_029440_000 : S2000000x8.Pads (![0, 0] : Fin 2 → Nat) ![2944, 0] ![0, 0] S2002944x8
  h_S_ : 0 < S_.numel
  pads_S2000000x3_S2002944x3_029440_000 : S2000000x3.Pads (![0, 0] : Fin 2 → Nat) ![2944, 0] ![0, 0] S2002944x3
  shapeCasts_S128x128x128x16_S2097152x16 : S128x128x128x16.ShapeCasts S2097152x16
  bcast_S_S2002944x8 : S_.BroadcastsInDim S2002944x8 (![] : Fin 0 → Fin S2002944x8.rank)
  bcast_S2002944x8_S2002944x8x1_0_1 : S2002944x8.BroadcastsInDim S2002944x8x1 (![0, 1] : Fin 2 → Fin S2002944x8x1.rank)
  bcast_S_S2002944x8x1 : S_.BroadcastsInDim S2002944x8x1 (![] : Fin 0 → Fin S2002944x8x1.rank)
  bcast_S1_S1x1x1_2 : S1.BroadcastsInDim S1x1x1 (![2] : Fin 1 → Fin S1x1x1.rank)
  bcast_S1x1x1_S2002944x8x1_0_1_2 : S1x1x1.BroadcastsInDim S2002944x8x1 (![0, 1, 2] : Fin 3 → Fin S2002944x8x1.rank)
  reducesTo_S2002944x8x1_S2002944x8_d2 : S2002944x8x1.ReducesTo [2] S2002944x8
  bcast_S2002944x8_S2002944x8x16_0_1 : S2002944x8.BroadcastsInDim S2002944x8x16 (![0, 1] : Fin 2 → Fin S2002944x8x16.rank)
  bcast_S_S2002944x8x16 : S_.BroadcastsInDim S2002944x8x16 (![] : Fin 0 → Fin S2002944x8x16.rank)
  shapeCasts_S2002944x8x16_S2002944x128 : S2002944x8x16.ShapeCasts S2002944x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  slices_S4096x128_o0_0_S4096x16 : S4096x128.Slices ![0, 0] S4096x16
  slices_S4096x128_o0_16_S4096x16 : S4096x128.Slices ![0, 16] S4096x16
  slices_S4096x128_o0_32_S4096x16 : S4096x128.Slices ![0, 32] S4096x16
  slices_S4096x128_o0_48_S4096x16 : S4096x128.Slices ![0, 48] S4096x16
  slices_S4096x128_o0_64_S4096x16 : S4096x128.Slices ![0, 64] S4096x16
  slices_S4096x128_o0_80_S4096x16 : S4096x128.Slices ![0, 80] S4096x16
  slices_S4096x128_o0_96_S4096x16 : S4096x128.Slices ![0, 96] S4096x16
  slices_S4096x128_o0_112_S4096x16 : S4096x128.Slices ![0, 112] S4096x16
  broadcasts_S4096x1_S4096x16 : S4096x1.Broadcasts S4096x16
  inb_S4096x16_S4096x16_0_0 : ∀ a, (![0, 0] : Fin 2 → Nat) a + S4096x16.size a ≤ S4096x16.size a
  h_S4096x16 : 0 < S4096x16.numel
  slices_S2002944x16_S2000000x16_0_0 : S2002944x16.Slices ![0, 0] S2000000x16
  gather_S2097152x16_S2002944x8x1_S2002944x8x16_2_0_n_n_0_2_116_wf : GatherDims.WF S2097152x16 S2002944x8x1 S2002944x8x16 [2] [0] [] [0] [] 2 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S2002944x128.size a
  hwx0_0 : ∀ i : grid0.Coords, EltTy.bits .f32 = 32 ∨ (Rect.block (s := S2002944x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S2002944x3.size a
  hwx0_1 : ∀ i : grid0.Coords, EltTy.bits .f32 = 32 ∨ (Rect.block (s := S2002944x3) S4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S2002944x16.size a
  hwx0_2 : ∀ i : grid0.Coords, EltTy.bits .f32 = 32 ∨ (Rect.block (s := S2002944x16) S4096x16.size (cc0_transform_2 i) (hinb0_2 i)).WholeWords (EltTy.packing .f32)

variable [Facts₀]

def gather_S2097152x16_S2002944x8x1_S2002944x8x16_2_0_n_n_0_2_116 : GatherDims S2097152x16 S2002944x8x1 S2002944x8x16 where
  offsetDims := [2]
  collapsedSliceDims := [0]
  operandBatchingDims := []
  startIndicesBatchingDims := []
  startIndexMap := [0]
  indexVectorDim := 2
  sliceSizes := ![1, 16]
  wf := gather_S2097152x16_S2002944x8x1_S2002944x8x16_2_0_n_n_0_2_116_wf

abbrev win0_0 : Pipeline.Window sig grid0 :=
  Pipeline.Window.ofSpec (Memref.whole main_v97) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v94) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v98) S4096x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S128x128x128x16 : Shape := ⟨4, ![128, 128, 128, 16]⟩
abbrev S_ : Shape := ⟨0, ![]⟩
abbrev S2000000x1 : Shape := ⟨2, ![2000000, 1]⟩
abbrev S2000000 : Shape := ⟨1, ![2000000]⟩
abbrev S2097152x16 : Shape := ⟨2, ![2097152, 16]⟩
abbrev S1 : Shape := ⟨1, ![1]⟩
abbrev S1x1 : Shape := ⟨2, ![1, 1]⟩
abbrev S2000000x16 : Shape := ⟨2, ![2000000, 16]⟩

abbrev nBuf : Space → Nat
  | .hbm => 388
  | .vmem => 0
  | .smem => 0
  | _ => 0

abbrev hbmTy0_0 (i : Nat) : BufTy := match i % 128 with
  | 0 => ⟨S2000000x3, .f32⟩
  | 1 => ⟨S128x128x128x16, .f32⟩
  | 2 => ⟨S_, .f32⟩
  | 3 => ⟨S2000000x3, .f32⟩
  | 4 => ⟨S2000000x3, .f32⟩
  | 5 => ⟨S2000000x1, .f32⟩
  | 6 => ⟨S2000000, .f32⟩
  | 7 => ⟨S2000000x1, .f32⟩
  | 8 => ⟨S2000000, .f32⟩
  | 9 => ⟨S2000000x1, .f32⟩
  | 10 => ⟨S2000000, .f32⟩
  | 11 => ⟨S2000000, .f32⟩
  | 12 => ⟨S2000000, .i32⟩
  | 13 => ⟨S_, .i32⟩
  | 14 => ⟨S_, .i32⟩
  | 15 => ⟨S_, .i32⟩
  | 16 => ⟨S2000000, .i32⟩
  | 17 => ⟨S2000000, .i32⟩
  | 18 => ⟨S_, .i32⟩
  | 19 => ⟨S2000000, .i32⟩
  | 20 => ⟨S2000000, .i32⟩
  | 21 => ⟨S2000000, .f32⟩
  | 22 => ⟨S2000000, .i32⟩
  | 23 => ⟨S_, .i32⟩
  | 24 => ⟨S_, .i32⟩
  | 25 => ⟨S_, .i32⟩
  | 26 => ⟨S2000000, .i32⟩
  | 27 => ⟨S2000000, .i32⟩
  | 28 => ⟨S_, .i32⟩
  | 29 => ⟨S2000000, .i32⟩
  | 30 => ⟨S2000000, .i32⟩
  | 31 => ⟨S2000000, .f32⟩
  | 32 => ⟨S2000000, .i32⟩
  | 33 => ⟨S_, .i32⟩
  | 34 => ⟨S_, .i32⟩
  | 35 => ⟨S_, .i32⟩
  | 36 => ⟨S2000000, .i32⟩
  | 37 => ⟨S2000000, .i32⟩
  | 38 => ⟨S_, .i32⟩
  | 39 => ⟨S2000000, .i32⟩
  | 40 => ⟨S2000000, .i32⟩
  | 41 => ⟨S_, .i32⟩
  | 42 => ⟨S2000000, .i32⟩
  | 43 => ⟨S2000000, .i32⟩
  | 44 => ⟨S_, .i32⟩
  | 45 => ⟨S_, .i32⟩
  | 46 => ⟨S_, .i32⟩
  | 47 => ⟨S2000000, .i32⟩
  | 48 => ⟨S2000000, .i32⟩
  | 49 => ⟨S_, .i32⟩
  | 50 => ⟨S2000000, .i32⟩
  | 51 => ⟨S2000000, .i32⟩
  | 52 => ⟨S_, .i32⟩
  | 53 => ⟨S2000000, .i32⟩
  | 54 => ⟨S2000000, .i32⟩
  | 55 => ⟨S_, .i32⟩
  | 56 => ⟨S_, .i32⟩
  | 57 => ⟨S_, .i32⟩
  | 58 => ⟨S2000000, .i32⟩
  | 59 => ⟨S2000000, .i32⟩
  | 60 => ⟨S_, .i32⟩
  | 61 => ⟨S2000000, .i32⟩
  | 62 => ⟨S2000000, .i32⟩
  | 63 => ⟨S_, .i32⟩
  | 64 => ⟨S2000000, .i32⟩
  | 65 => ⟨S2000000, .i32⟩
  | 66 => ⟨S_, .i32⟩
  | 67 => ⟨S_, .i32⟩
  | 68 => ⟨S_, .i32⟩
  | 69 => ⟨S2000000, .i32⟩
  | 70 => ⟨S2000000, .i32⟩
  | 71 => ⟨S_, .i32⟩
  | 72 => ⟨S2000000, .i32⟩
  | 73 => ⟨S2000000, .i32⟩
  | 74 => ⟨S2000000, .f32⟩
  | 75 => ⟨S2000000, .f32⟩
  | 76 => ⟨S2000000x1, .f32⟩
  | 77 => ⟨S2000000, .f32⟩
  | 78 => ⟨S2000000, .f32⟩
  | 79 => ⟨S2000000x1, .f32⟩
  | 80 => ⟨S2000000, .f32⟩
  | 81 => ⟨S2000000, .f32⟩
  | 82 => ⟨S2000000x1, .f32⟩
  | 83 => ⟨S2097152x16, .f32⟩
  | 84 => ⟨S_, .i32⟩
  | 85 => ⟨S2000000, .i32⟩
  | 86 => ⟨S2000000, .i32⟩
  | 87 => ⟨S2000000, .i32⟩
  | 88 => ⟨S_, .i32⟩
  | 89 => ⟨S2000000, .i32⟩
  | 90 => ⟨S2000000, .i32⟩
  | 91 => ⟨S2000000, .i32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S2000000x1, .i32⟩
  | 100 => ⟨S1, .i32⟩
  | 101 => ⟨S_, .i32⟩
  | 102 => ⟨S2000000x1, .i32⟩
  | 103 => ⟨S2000000x1, .i1⟩
  | 104 => ⟨S1x1, .i32⟩
  | 105 => ⟨S2000000x1, .i32⟩
  | 106 => ⟨S2000000x1, .i1⟩
  | 107 => ⟨S2000000x1, .i1⟩
  | 108 => ⟨S_, .i1⟩
  | 109 => ⟨S2000000, .i1⟩
  | 110 => ⟨S2000000x16, .f32⟩
  | 111 => ⟨S2000000x16, .i1⟩
  | 112 => ⟨S_, .f32⟩
  | 113 => ⟨S2000000x16, .f32⟩
  | 114 => ⟨S2000000x16, .f32⟩
  | 115 => ⟨S_, .i32⟩
  | 116 => ⟨S2000000, .i32⟩
  | 117 => ⟨S2000000, .i32⟩
  | 118 => ⟨S2000000, .i32⟩
  | 119 => ⟨S_, .i32⟩
  | 120 => ⟨S2000000, .i32⟩
  | 121 => ⟨S2000000, .i32⟩
  | 122 => ⟨S2000000, .i32⟩
  | 123 => ⟨S_, .i32⟩
  | 124 => ⟨S2000000, .i32⟩
  | 125 => ⟨S2000000, .i1⟩
  | 126 => ⟨S_, .i32⟩
  | 127 => ⟨S2000000, .i32⟩
  | _ => ⟨S2000000x3, .f32⟩

abbrev hbmTy0_1 (i : Nat) : BufTy := match i % 128 with
  | 0 => ⟨S2000000, .i32⟩
  | 1 => ⟨S2000000, .i32⟩
  | 2 => ⟨S2000000x1, .i32⟩
  | 3 => ⟨S1, .i32⟩
  | 4 => ⟨S_, .i32⟩
  | 5 => ⟨S2000000x1, .i32⟩
  | 6 => ⟨S2000000x1, .i1⟩
  | 7 => ⟨S1x1, .i32⟩
  | 8 => ⟨S2000000x1, .i32⟩
  | 9 => ⟨S2000000x1, .i1⟩
  | 10 => ⟨S2000000x1, .i1⟩
  | 11 => ⟨S_, .i1⟩
  | 12 => ⟨S2000000, .i1⟩
  | 13 => ⟨S2000000x16, .f32⟩
  | 14 => ⟨S2000000x16, .i1⟩
  | 15 => ⟨S_, .f32⟩
  | 16 => ⟨S2000000x16, .f32⟩
  | 17 => ⟨S2000000x16, .f32⟩
  | 18 => ⟨S_, .i32⟩
  | 19 => ⟨S2000000, .i32⟩
  | 20 => ⟨S2000000, .i32⟩
  | 21 => ⟨S2000000, .i32⟩
  | 22 => ⟨S_, .i32⟩
  | 23 => ⟨S2000000, .i32⟩
  | 24 => ⟨S2000000, .i32⟩
  | 25 => ⟨S2000000, .i32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S1, .i32⟩
  | 35 => ⟨S_, .i32⟩
  | 36 => ⟨S2000000x1, .i32⟩
  | 37 => ⟨S2000000x1, .i1⟩
  | 38 => ⟨S1x1, .i32⟩
  | 39 => ⟨S2000000x1, .i32⟩
  | 40 => ⟨S2000000x1, .i1⟩
  | 41 => ⟨S2000000x1, .i1⟩
  | 42 => ⟨S_, .i1⟩
  | 43 => ⟨S2000000, .i1⟩
  | 44 => ⟨S2000000x16, .f32⟩
  | 45 => ⟨S2000000x16, .i1⟩
  | 46 => ⟨S_, .f32⟩
  | 47 => ⟨S2000000x16, .f32⟩
  | 48 => ⟨S2000000x16, .f32⟩
  | 49 => ⟨S_, .i32⟩
  | 50 => ⟨S2000000, .i32⟩
  | 51 => ⟨S2000000, .i32⟩
  | 52 => ⟨S2000000, .i32⟩
  | 53 => ⟨S_, .i32⟩
  | 54 => ⟨S2000000, .i32⟩
  | 55 => ⟨S2000000, .i32⟩
  | 56 => ⟨S2000000, .i32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i32⟩
  | 63 => ⟨S2000000, .i32⟩
  | 64 => ⟨S2000000x1, .i32⟩
  | 65 => ⟨S1, .i32⟩
  | 66 => ⟨S_, .i32⟩
  | 67 => ⟨S2000000x1, .i32⟩
  | 68 => ⟨S2000000x1, .i1⟩
  | 69 => ⟨S1x1, .i32⟩
  | 70 => ⟨S2000000x1, .i32⟩
  | 71 => ⟨S2000000x1, .i1⟩
  | 72 => ⟨S2000000x1, .i1⟩
  | 73 => ⟨S_, .i1⟩
  | 74 => ⟨S2000000, .i1⟩
  | 75 => ⟨S2000000x16, .f32⟩
  | 76 => ⟨S2000000x16, .i1⟩
  | 77 => ⟨S_, .f32⟩
  | 78 => ⟨S2000000x16, .f32⟩
  | 79 => ⟨S2000000x16, .f32⟩
  | 80 => ⟨S_, .i32⟩
  | 81 => ⟨S2000000, .i32⟩
  | 82 => ⟨S2000000, .i32⟩
  | 83 => ⟨S2000000, .i32⟩
  | 84 => ⟨S_, .i32⟩
  | 85 => ⟨S2000000, .i32⟩
  | 86 => ⟨S2000000, .i32⟩
  | 87 => ⟨S2000000, .i32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S1, .i32⟩
  | 97 => ⟨S_, .i32⟩
  | 98 => ⟨S2000000x1, .i32⟩
  | 99 => ⟨S2000000x1, .i1⟩
  | 100 => ⟨S1x1, .i32⟩
  | 101 => ⟨S2000000x1, .i32⟩
  | 102 => ⟨S2000000x1, .i1⟩
  | 103 => ⟨S2000000x1, .i1⟩
  | 104 => ⟨S_, .i1⟩
  | 105 => ⟨S2000000, .i1⟩
  | 106 => ⟨S2000000x16, .f32⟩
  | 107 => ⟨S2000000x16, .i1⟩
  | 108 => ⟨S_, .f32⟩
  | 109 => ⟨S2000000x16, .f32⟩
  | 110 => ⟨S2000000x16, .f32⟩
  | 111 => ⟨S_, .i32⟩
  | 112 => ⟨S2000000, .i32⟩
  | 113 => ⟨S2000000, .i32⟩
  | 114 => ⟨S2000000, .i32⟩
  | 115 => ⟨S_, .i32⟩
  | 116 => ⟨S2000000, .i32⟩
  | 117 => ⟨S2000000, .i32⟩
  | 118 => ⟨S2000000, .i32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S1, .i32⟩
  | _ => ⟨S2000000x3, .f32⟩

abbrev hbmTy0_2 (i : Nat) : BufTy := match i % 128 with
  | 0 => ⟨S_, .i32⟩
  | 1 => ⟨S2000000x1, .i32⟩
  | 2 => ⟨S2000000x1, .i1⟩
  | 3 => ⟨S1x1, .i32⟩
  | 4 => ⟨S2000000x1, .i32⟩
  | 5 => ⟨S2000000x1, .i1⟩
  | 6 => ⟨S2000000x1, .i1⟩
  | 7 => ⟨S_, .i1⟩
  | 8 => ⟨S2000000, .i1⟩
  | 9 => ⟨S2000000x16, .f32⟩
  | 10 => ⟨S2000000x16, .i1⟩
  | 11 => ⟨S_, .f32⟩
  | 12 => ⟨S2000000x16, .f32⟩
  | 13 => ⟨S2000000x16, .f32⟩
  | 14 => ⟨S_, .i32⟩
  | 15 => ⟨S2000000, .i32⟩
  | 16 => ⟨S2000000, .i32⟩
  | 17 => ⟨S2000000, .i32⟩
  | 18 => ⟨S_, .i32⟩
  | 19 => ⟨S2000000, .i32⟩
  | 20 => ⟨S2000000, .i32⟩
  | 21 => ⟨S2000000, .i32⟩
  | 22 => ⟨S_, .i32⟩
  | 23 => ⟨S2000000, .i32⟩
  | 24 => ⟨S2000000, .i1⟩
  | 25 => ⟨S_, .i32⟩
  | 26 => ⟨S2000000, .i32⟩
  | 27 => ⟨S2000000, .i32⟩
  | 28 => ⟨S2000000, .i32⟩
  | 29 => ⟨S2000000x1, .i32⟩
  | 30 => ⟨S1, .i32⟩
  | 31 => ⟨S_, .i32⟩
  | 32 => ⟨S2000000x1, .i32⟩
  | 33 => ⟨S2000000x1, .i1⟩
  | 34 => ⟨S1x1, .i32⟩
  | 35 => ⟨S2000000x1, .i32⟩
  | 36 => ⟨S2000000x1, .i1⟩
  | 37 => ⟨S2000000x1, .i1⟩
  | 38 => ⟨S_, .i1⟩
  | 39 => ⟨S2000000, .i1⟩
  | 40 => ⟨S2000000x16, .f32⟩
  | 41 => ⟨S2000000x16, .i1⟩
  | 42 => ⟨S_, .f32⟩
  | 43 => ⟨S2000000x16, .f32⟩
  | 44 => ⟨S2000000x16, .f32⟩
  | 45 => ⟨S_, .i32⟩
  | 46 => ⟨S2000000, .i32⟩
  | 47 => ⟨S2000000, .i32⟩
  | 48 => ⟨S2000000, .i32⟩
  | 49 => ⟨S_, .i32⟩
  | 50 => ⟨S2000000, .i32⟩
  | 51 => ⟨S2000000, .i32⟩
  | 52 => ⟨S2000000, .i32⟩
  | 53 => ⟨S_, .i32⟩
  | 54 => ⟨S2000000, .i32⟩
  | 55 => ⟨S2000000, .i1⟩
  | 56 => ⟨S_, .i32⟩
  | 57 => ⟨S2000000, .i32⟩
  | 58 => ⟨S2000000, .i32⟩
  | 59 => ⟨S2000000, .i32⟩
  | 60 => ⟨S2000000x1, .i32⟩
  | 61 => ⟨S1, .i32⟩
  | 62 => ⟨S_, .i32⟩
  | 63 => ⟨S2000000x1, .i32⟩
  | 64 => ⟨S2000000x1, .i1⟩
  | 65 => ⟨S1x1, .i32⟩
  | 66 => ⟨S2000000x1, .i32⟩
  | 67 => ⟨S2000000x1, .i1⟩
  | 68 => ⟨S2000000x1, .i1⟩
  | 69 => ⟨S_, .i1⟩
  | 70 => ⟨S2000000, .i1⟩
  | 71 => ⟨S2000000x16, .f32⟩
  | 72 => ⟨S2000000x16, .i1⟩
  | 73 => ⟨S_, .f32⟩
  | 74 => ⟨S2000000x16, .f32⟩
  | 75 => ⟨S2000000x16, .f32⟩
  | 76 => ⟨S_, .f32⟩
  | 77 => ⟨S2000000x1, .f32⟩
  | 78 => ⟨S2000000x1, .f32⟩
  | 79 => ⟨S2000000x16, .f32⟩
  | 80 => ⟨S2000000x16, .f32⟩
  | 81 => ⟨S2000000x16, .f32⟩
  | 82 => ⟨S2000000x16, .f32⟩
  | 83 => ⟨S2000000x16, .f32⟩
  | 84 => ⟨S_, .f32⟩
  | 85 => ⟨S2000000x1, .f32⟩
  | 86 => ⟨S2000000x1, .f32⟩
  | 87 => ⟨S2000000x16, .f32⟩
  | 88 => ⟨S2000000x16, .f32⟩
  | 89 => ⟨S2000000x16, .f32⟩
  | 90 => ⟨S2000000x16, .f32⟩
  | 91 => ⟨S2000000x16, .f32⟩
  | 92 => ⟨S_, .f32⟩
  | 93 => ⟨S2000000x1, .f32⟩
  | 94 => ⟨S2000000x1, .f32⟩
  | 95 => ⟨S2000000x16, .f32⟩
  | 96 => ⟨S2000000x16, .f32⟩
  | 97 => ⟨S2000000x16, .f32⟩
  | 98 => ⟨S2000000x16, .f32⟩
  | 99 => ⟨S2000000x16, .f32⟩
  | 100 => ⟨S_, .f32⟩
  | 101 => ⟨S2000000x1, .f32⟩
  | 102 => ⟨S2000000x1, .f32⟩
  | 103 => ⟨S2000000x16, .f32⟩
  | 104 => ⟨S2000000x16, .f32⟩
  | 105 => ⟨S2000000x16, .f32⟩
  | 106 => ⟨S2000000x16, .f32⟩
  | 107 => ⟨S2000000x16, .f32⟩
  | 108 => ⟨S_, .f32⟩
  | 109 => ⟨S2000000x1, .f32⟩
  | 110 => ⟨S2000000x1, .f32⟩
  | 111 => ⟨S2000000x16, .f32⟩
  | 112 => ⟨S2000000x16, .f32⟩
  | 113 => ⟨S2000000x16, .f32⟩
  | 114 => ⟨S2000000x16, .f32⟩
  | 115 => ⟨S2000000x16, .f32⟩
  | 116 => ⟨S_, .f32⟩
  | 117 => ⟨S2000000x1, .f32⟩
  | 118 => ⟨S2000000x1, .f32⟩
  | 119 => ⟨S2000000x16, .f32⟩
  | 120 => ⟨S2000000x16, .f32⟩
  | 121 => ⟨S2000000x16, .f32⟩
  | 122 => ⟨S2000000x16, .f32⟩
  | 123 => ⟨S2000000x16, .f32⟩
  | 124 => ⟨S_, .f32⟩
  | 125 => ⟨S2000000x1, .f32⟩
  | 126 => ⟨S2000000x1, .f32⟩
  | 127 => ⟨S2000000x16, .f32⟩
  | _ => ⟨S2000000x3, .f32⟩

abbrev hbmTy0_3 (i : Nat) : BufTy := match i % 128 with
  | 0 => ⟨S2000000x16, .f32⟩
  | 1 => ⟨S2000000x16, .f32⟩
  | 2 => ⟨S2000000x16, .f32⟩
  | 3 => ⟨S2000000x16, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_c_4 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_v18 : Ref sig .tc := ⟨.hbm, 43, rfl⟩
abbrev main_c_6 : Ref sig .tc := ⟨.hbm, 44, rfl⟩
abbrev main_c_7 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v19 : Ref sig .tc := ⟨.hbm, 51, rfl⟩
abbrev main_c_8 : Ref sig .tc := ⟨.hbm, 52, rfl⟩
abbrev main_v20 : Ref sig .tc := ⟨.hbm, 53, rfl⟩
abbrev main_v21 : Ref sig .tc := ⟨.hbm, 54, rfl⟩
abbrev main_c_9 : Ref sig .tc := ⟨.hbm, 55, rfl⟩
abbrev main_c_10 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_v22 : Ref sig .tc := ⟨.hbm, 62, rfl⟩
abbrev main_c_11 : Ref sig .tc := ⟨.hbm, 63, rfl⟩
abbrev main_v23 : Ref sig .tc := ⟨.hbm, 64, rfl⟩
abbrev main_v24 : Ref sig .tc := ⟨.hbm, 65, rfl⟩
abbrev main_c_12 : Ref sig .tc := ⟨.hbm, 66, rfl⟩
abbrev main_c_13 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_c_14 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_c_15 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_call6_c : Ref sig .tc := ⟨.hbm, 92, rfl⟩
abbrev main_call6_v0 : Ref sig .tc := ⟨.hbm, 93, rfl⟩
abbrev main_call6_v1 : Ref sig .tc := ⟨.hbm, 94, rfl⟩
abbrev main_call6_c_0 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_v5 : Ref sig .tc := ⟨.hbm, 99, rfl⟩
abbrev main_call6_c_1 : Ref sig .tc := ⟨.hbm, 100, rfl⟩
abbrev main_call6_c_2 : Ref sig .tc := ⟨.hbm, 101, rfl⟩
abbrev main_call6_v6 : Ref sig .tc := ⟨.hbm, 102, rfl⟩
abbrev main_call6_v7 : Ref sig .tc := ⟨.hbm, 103, rfl⟩
abbrev main_call6_v8 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_c_3 : Ref sig .tc := ⟨.hbm, 108, rfl⟩
abbrev main_call6_v12 : Ref sig .tc := ⟨.hbm, 109, rfl⟩
abbrev main_call6_v13 : Ref sig .tc := ⟨.hbm, 110, rfl⟩
abbrev main_call6_v14 : Ref sig .tc := ⟨.hbm, 111, rfl⟩
abbrev main_call6_cst : Ref sig .tc := ⟨.hbm, 112, rfl⟩
abbrev main_call6_v15 : Ref sig .tc := ⟨.hbm, 113, rfl⟩
abbrev main_v42 : Ref sig .tc := ⟨.hbm, 114, rfl⟩
abbrev main_c_16 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_c_17 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_call7_c : Ref sig .tc := ⟨.hbm, 123, rfl⟩
abbrev main_call7_v0 : Ref sig .tc := ⟨.hbm, 124, rfl⟩
abbrev main_call7_v1 : Ref sig .tc := ⟨.hbm, 125, rfl⟩
abbrev main_call7_c_0 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_call7_v5 : Ref sig .tc := ⟨.hbm, 130, rfl⟩
abbrev main_call7_c_1 : Ref sig .tc := ⟨.hbm, 131, rfl⟩
abbrev main_call7_c_2 : Ref sig .tc := ⟨.hbm, 132, rfl⟩
abbrev main_call7_v6 : Ref sig .tc := ⟨.hbm, 133, rfl⟩
abbrev main_call7_v7 : Ref sig .tc := ⟨.hbm, 134, rfl⟩
abbrev main_call7_v8 : Ref sig .tc := ⟨.hbm, 135, rfl⟩
abbrev main_call7_v9 : Ref sig .tc := ⟨.hbm, 136, rfl⟩
abbrev main_call7_v10 : Ref sig .tc := ⟨.hbm, 137, rfl⟩
abbrev main_call7_v11 : Ref sig .tc := ⟨.hbm, 138, rfl⟩
abbrev main_call7_c_3 : Ref sig .tc := ⟨.hbm, 139, rfl⟩
abbrev main_call7_v12 : Ref sig .tc := ⟨.hbm, 140, rfl⟩
abbrev main_call7_v13 : Ref sig .tc := ⟨.hbm, 141, rfl⟩
abbrev main_call7_v14 : Ref sig .tc := ⟨.hbm, 142, rfl⟩
abbrev main_call7_cst : Ref sig .tc := ⟨.hbm, 143, rfl⟩
abbrev main_call7_v15 : Ref sig .tc := ⟨.hbm, 144, rfl⟩
abbrev main_v49 : Ref sig .tc := ⟨.hbm, 145, rfl⟩
abbrev main_c_18 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_c_19 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_call8_c : Ref sig .tc := ⟨.hbm, 154, rfl⟩
abbrev main_call8_v0 : Ref sig .tc := ⟨.hbm, 155, rfl⟩
abbrev main_call8_v1 : Ref sig .tc := ⟨.hbm, 156, rfl⟩
abbrev main_call8_c_0 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_call8_v5 : Ref sig .tc := ⟨.hbm, 161, rfl⟩
abbrev main_call8_c_1 : Ref sig .tc := ⟨.hbm, 162, rfl⟩
abbrev main_call8_c_2 : Ref sig .tc := ⟨.hbm, 163, rfl⟩
abbrev main_call8_v6 : Ref sig .tc := ⟨.hbm, 164, rfl⟩
abbrev main_call8_v7 : Ref sig .tc := ⟨.hbm, 165, rfl⟩
abbrev main_call8_v8 : Ref sig .tc := ⟨.hbm, 166, rfl⟩
abbrev main_call8_v9 : Ref sig .tc := ⟨.hbm, 167, rfl⟩
abbrev main_call8_v10 : Ref sig .tc := ⟨.hbm, 168, rfl⟩
abbrev main_call8_v11 : Ref sig .tc := ⟨.hbm, 169, rfl⟩
abbrev main_call8_c_3 : Ref sig .tc := ⟨.hbm, 170, rfl⟩
abbrev main_call8_v12 : Ref sig .tc := ⟨.hbm, 171, rfl⟩
abbrev main_call8_v13 : Ref sig .tc := ⟨.hbm, 172, rfl⟩
abbrev main_call8_v14 : Ref sig .tc := ⟨.hbm, 173, rfl⟩
abbrev main_call8_cst : Ref sig .tc := ⟨.hbm, 174, rfl⟩
abbrev main_call8_v15 : Ref sig .tc := ⟨.hbm, 175, rfl⟩
abbrev main_v56 : Ref sig .tc := ⟨.hbm, 176, rfl⟩
abbrev main_c_20 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_c_21 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_call9_c : Ref sig .tc := ⟨.hbm, 185, rfl⟩
abbrev main_call9_v0 : Ref sig .tc := ⟨.hbm, 186, rfl⟩
abbrev main_call9_v1 : Ref sig .tc := ⟨.hbm, 187, rfl⟩
abbrev main_call9_c_0 : Ref sig .tc := ⟨.hbm, 188, rfl⟩
abbrev main_call9_v2 : Ref sig .tc := ⟨.hbm, 189, rfl⟩
abbrev main_call9_v3 : Ref sig .tc := ⟨.hbm, 190, rfl⟩
abbrev main_call9_v4 : Ref sig .tc := ⟨.hbm, 191, rfl⟩
abbrev main_call9_v5 : Ref sig .tc := ⟨.hbm, 192, rfl⟩
abbrev main_call9_c_1 : Ref sig .tc := ⟨.hbm, 193, rfl⟩
abbrev main_call9_c_2 : Ref sig .tc := ⟨.hbm, 194, rfl⟩
abbrev main_call9_v6 : Ref sig .tc := ⟨.hbm, 195, rfl⟩
abbrev main_call9_v7 : Ref sig .tc := ⟨.hbm, 196, rfl⟩
abbrev main_call9_v8 : Ref sig .tc := ⟨.hbm, 197, rfl⟩
abbrev main_call9_v9 : Ref sig .tc := ⟨.hbm, 198, rfl⟩
abbrev main_call9_v10 : Ref sig .tc := ⟨.hbm, 199, rfl⟩
abbrev main_call9_v11 : Ref sig .tc := ⟨.hbm, 200, rfl⟩
abbrev main_call9_c_3 : Ref sig .tc := ⟨.hbm, 201, rfl⟩
abbrev main_call9_v12 : Ref sig .tc := ⟨.hbm, 202, rfl⟩
abbrev main_call9_v13 : Ref sig .tc := ⟨.hbm, 203, rfl⟩
abbrev main_call9_v14 : Ref sig .tc := ⟨.hbm, 204, rfl⟩
abbrev main_call9_cst : Ref sig .tc := ⟨.hbm, 205, rfl⟩
abbrev main_call9_v15 : Ref sig .tc := ⟨.hbm, 206, rfl⟩
abbrev main_v63 : Ref sig .tc := ⟨.hbm, 207, rfl⟩
abbrev main_c_22 : Ref sig .tc := ⟨.hbm, 208, rfl⟩
abbrev main_v64 : Ref sig .tc := ⟨.hbm, 209, rfl⟩
abbrev main_v65 : Ref sig .tc := ⟨.hbm, 210, rfl⟩
abbrev main_v66 : Ref sig .tc := ⟨.hbm, 211, rfl⟩
abbrev main_c_23 : Ref sig .tc := ⟨.hbm, 212, rfl⟩
abbrev main_v67 : Ref sig .tc := ⟨.hbm, 213, rfl⟩
abbrev main_v68 : Ref sig .tc := ⟨.hbm, 214, rfl⟩
abbrev main_v69 : Ref sig .tc := ⟨.hbm, 215, rfl⟩
abbrev main_call10_c : Ref sig .tc := ⟨.hbm, 216, rfl⟩
abbrev main_call10_v0 : Ref sig .tc := ⟨.hbm, 217, rfl⟩
abbrev main_call10_v1 : Ref sig .tc := ⟨.hbm, 218, rfl⟩
abbrev main_call10_c_0 : Ref sig .tc := ⟨.hbm, 219, rfl⟩
abbrev main_call10_v2 : Ref sig .tc := ⟨.hbm, 220, rfl⟩
abbrev main_call10_v3 : Ref sig .tc := ⟨.hbm, 221, rfl⟩
abbrev main_call10_v4 : Ref sig .tc := ⟨.hbm, 222, rfl⟩
abbrev main_call10_v5 : Ref sig .tc := ⟨.hbm, 223, rfl⟩
abbrev main_call10_c_1 : Ref sig .tc := ⟨.hbm, 224, rfl⟩
abbrev main_call10_c_2 : Ref sig .tc := ⟨.hbm, 225, rfl⟩
abbrev main_call10_v6 : Ref sig .tc := ⟨.hbm, 226, rfl⟩
abbrev main_call10_v7 : Ref sig .tc := ⟨.hbm, 227, rfl⟩
abbrev main_call10_v8 : Ref sig .tc := ⟨.hbm, 228, rfl⟩
abbrev main_call10_v9 : Ref sig .tc := ⟨.hbm, 229, rfl⟩
abbrev main_call10_v10 : Ref sig .tc := ⟨.hbm, 230, rfl⟩
abbrev main_call10_v11 : Ref sig .tc := ⟨.hbm, 231, rfl⟩
abbrev main_call10_c_3 : Ref sig .tc := ⟨.hbm, 232, rfl⟩
abbrev main_call10_v12 : Ref sig .tc := ⟨.hbm, 233, rfl⟩
abbrev main_call10_v13 : Ref sig .tc := ⟨.hbm, 234, rfl⟩
abbrev main_call10_v14 : Ref sig .tc := ⟨.hbm, 235, rfl⟩
abbrev main_call10_cst : Ref sig .tc := ⟨.hbm, 236, rfl⟩
abbrev main_call10_v15 : Ref sig .tc := ⟨.hbm, 237, rfl⟩
abbrev main_v70 : Ref sig .tc := ⟨.hbm, 238, rfl⟩
abbrev main_c_24 : Ref sig .tc := ⟨.hbm, 239, rfl⟩
abbrev main_v71 : Ref sig .tc := ⟨.hbm, 240, rfl⟩
abbrev main_v72 : Ref sig .tc := ⟨.hbm, 241, rfl⟩
abbrev main_v73 : Ref sig .tc := ⟨.hbm, 242, rfl⟩
abbrev main_c_25 : Ref sig .tc := ⟨.hbm, 243, rfl⟩
abbrev main_v74 : Ref sig .tc := ⟨.hbm, 244, rfl⟩
abbrev main_v75 : Ref sig .tc := ⟨.hbm, 245, rfl⟩
abbrev main_v76 : Ref sig .tc := ⟨.hbm, 246, rfl⟩
abbrev main_call11_c : Ref sig .tc := ⟨.hbm, 247, rfl⟩
abbrev main_call11_v0 : Ref sig .tc := ⟨.hbm, 248, rfl⟩
abbrev main_call11_v1 : Ref sig .tc := ⟨.hbm, 249, rfl⟩
abbrev main_call11_c_0 : Ref sig .tc := ⟨.hbm, 250, rfl⟩
abbrev main_call11_v2 : Ref sig .tc := ⟨.hbm, 251, rfl⟩
abbrev main_call11_v3 : Ref sig .tc := ⟨.hbm, 252, rfl⟩
abbrev main_call11_v4 : Ref sig .tc := ⟨.hbm, 253, rfl⟩
abbrev main_call11_v5 : Ref sig .tc := ⟨.hbm, 254, rfl⟩
abbrev main_call11_c_1 : Ref sig .tc := ⟨.hbm, 255, rfl⟩
abbrev main_call11_c_2 : Ref sig .tc := ⟨.hbm, 256, rfl⟩
abbrev main_call11_v6 : Ref sig .tc := ⟨.hbm, 257, rfl⟩
abbrev main_call11_v7 : Ref sig .tc := ⟨.hbm, 258, rfl⟩
abbrev main_call11_v8 : Ref sig .tc := ⟨.hbm, 259, rfl⟩
abbrev main_call11_v9 : Ref sig .tc := ⟨.hbm, 260, rfl⟩
abbrev main_call11_v10 : Ref sig .tc := ⟨.hbm, 261, rfl⟩
abbrev main_call11_v11 : Ref sig .tc := ⟨.hbm, 262, rfl⟩
abbrev main_call11_c_3 : Ref sig .tc := ⟨.hbm, 263, rfl⟩
abbrev main_call11_v12 : Ref sig .tc := ⟨.hbm, 264, rfl⟩
abbrev main_call11_v13 : Ref sig .tc := ⟨.hbm, 265, rfl⟩
abbrev main_call11_v14 : Ref sig .tc := ⟨.hbm, 266, rfl⟩
abbrev main_call11_cst : Ref sig .tc := ⟨.hbm, 267, rfl⟩
abbrev main_call11_v15 : Ref sig .tc := ⟨.hbm, 268, rfl⟩
abbrev main_v77 : Ref sig .tc := ⟨.hbm, 269, rfl⟩
abbrev main_c_26 : Ref sig .tc := ⟨.hbm, 270, rfl⟩
abbrev main_v78 : Ref sig .tc := ⟨.hbm, 271, rfl⟩
abbrev main_v79 : Ref sig .tc := ⟨.hbm, 272, rfl⟩
abbrev main_v80 : Ref sig .tc := ⟨.hbm, 273, rfl⟩
abbrev main_c_27 : Ref sig .tc := ⟨.hbm, 274, rfl⟩
abbrev main_v81 : Ref sig .tc := ⟨.hbm, 275, rfl⟩
abbrev main_v82 : Ref sig .tc := ⟨.hbm, 276, rfl⟩
abbrev main_v83 : Ref sig .tc := ⟨.hbm, 277, rfl⟩
abbrev main_call12_c : Ref sig .tc := ⟨.hbm, 278, rfl⟩
abbrev main_call12_v0 : Ref sig .tc := ⟨.hbm, 279, rfl⟩
abbrev main_call12_v1 : Ref sig .tc := ⟨.hbm, 280, rfl⟩
abbrev main_call12_c_0 : Ref sig .tc := ⟨.hbm, 281, rfl⟩
abbrev main_call12_v2 : Ref sig .tc := ⟨.hbm, 282, rfl⟩
abbrev main_call12_v3 : Ref sig .tc := ⟨.hbm, 283, rfl⟩
abbrev main_call12_v4 : Ref sig .tc := ⟨.hbm, 284, rfl⟩
abbrev main_call12_v5 : Ref sig .tc := ⟨.hbm, 285, rfl⟩
abbrev main_call12_c_1 : Ref sig .tc := ⟨.hbm, 286, rfl⟩
abbrev main_call12_c_2 : Ref sig .tc := ⟨.hbm, 287, rfl⟩
abbrev main_call12_v6 : Ref sig .tc := ⟨.hbm, 288, rfl⟩
abbrev main_call12_v7 : Ref sig .tc := ⟨.hbm, 289, rfl⟩
abbrev main_call12_v8 : Ref sig .tc := ⟨.hbm, 290, rfl⟩
abbrev main_call12_v9 : Ref sig .tc := ⟨.hbm, 291, rfl⟩
abbrev main_call12_v10 : Ref sig .tc := ⟨.hbm, 292, rfl⟩
abbrev main_call12_v11 : Ref sig .tc := ⟨.hbm, 293, rfl⟩
abbrev main_call12_c_3 : Ref sig .tc := ⟨.hbm, 294, rfl⟩
abbrev main_call12_v12 : Ref sig .tc := ⟨.hbm, 295, rfl⟩
abbrev main_call12_v13 : Ref sig .tc := ⟨.hbm, 296, rfl⟩
abbrev main_call12_v14 : Ref sig .tc := ⟨.hbm, 297, rfl⟩
abbrev main_call12_cst : Ref sig .tc := ⟨.hbm, 298, rfl⟩
abbrev main_call12_v15 : Ref sig .tc := ⟨.hbm, 299, rfl⟩
abbrev main_v84 : Ref sig .tc := ⟨.hbm, 300, rfl⟩
abbrev main_c_28 : Ref sig .tc := ⟨.hbm, 301, rfl⟩
abbrev main_v85 : Ref sig .tc := ⟨.hbm, 302, rfl⟩
abbrev main_v86 : Ref sig .tc := ⟨.hbm, 303, rfl⟩
abbrev main_v87 : Ref sig .tc := ⟨.hbm, 304, rfl⟩
abbrev main_c_29 : Ref sig .tc := ⟨.hbm, 305, rfl⟩
abbrev main_v88 : Ref sig .tc := ⟨.hbm, 306, rfl⟩
abbrev main_v89 : Ref sig .tc := ⟨.hbm, 307, rfl⟩
abbrev main_v90 : Ref sig .tc := ⟨.hbm, 308, rfl⟩
abbrev main_call13_c : Ref sig .tc := ⟨.hbm, 309, rfl⟩
abbrev main_call13_v0 : Ref sig .tc := ⟨.hbm, 310, rfl⟩
abbrev main_call13_v1 : Ref sig .tc := ⟨.hbm, 311, rfl⟩
abbrev main_call13_c_0 : Ref sig .tc := ⟨.hbm, 312, rfl⟩
abbrev main_call13_v2 : Ref sig .tc := ⟨.hbm, 313, rfl⟩
abbrev main_call13_v3 : Ref sig .tc := ⟨.hbm, 314, rfl⟩
abbrev main_call13_v4 : Ref sig .tc := ⟨.hbm, 315, rfl⟩
abbrev main_call13_v5 : Ref sig .tc := ⟨.hbm, 316, rfl⟩
abbrev main_call13_c_1 : Ref sig .tc := ⟨.hbm, 317, rfl⟩
abbrev main_call13_c_2 : Ref sig .tc := ⟨.hbm, 318, rfl⟩
abbrev main_call13_v6 : Ref sig .tc := ⟨.hbm, 319, rfl⟩
abbrev main_call13_v7 : Ref sig .tc := ⟨.hbm, 320, rfl⟩
abbrev main_call13_v8 : Ref sig .tc := ⟨.hbm, 321, rfl⟩
abbrev main_call13_v9 : Ref sig .tc := ⟨.hbm, 322, rfl⟩
abbrev main_call13_v10 : Ref sig .tc := ⟨.hbm, 323, rfl⟩
abbrev main_call13_v11 : Ref sig .tc := ⟨.hbm, 324, rfl⟩
abbrev main_call13_c_3 : Ref sig .tc := ⟨.hbm, 325, rfl⟩
abbrev main_call13_v12 : Ref sig .tc := ⟨.hbm, 326, rfl⟩
abbrev main_call13_v13 : Ref sig .tc := ⟨.hbm, 327, rfl⟩
abbrev main_call13_v14 : Ref sig .tc := ⟨.hbm, 328, rfl⟩
abbrev main_call13_cst : Ref sig .tc := ⟨.hbm, 329, rfl⟩
abbrev main_call13_v15 : Ref sig .tc := ⟨.hbm, 330, rfl⟩
abbrev main_v91 : Ref sig .tc := ⟨.hbm, 331, rfl⟩
abbrev main_cst_30 : Ref sig .tc := ⟨.hbm, 332, rfl⟩
abbrev main_v92 : Ref sig .tc := ⟨.hbm, 333, rfl⟩
abbrev main_v93 : Ref sig .tc := ⟨.hbm, 334, rfl⟩
abbrev main_v94 : Ref sig .tc := ⟨.hbm, 335, rfl⟩
abbrev main_v95 : Ref sig .tc := ⟨.hbm, 336, rfl⟩
abbrev main_v96 : Ref sig .tc := ⟨.hbm, 337, rfl⟩
abbrev main_v97 : Ref sig .tc := ⟨.hbm, 338, rfl⟩
abbrev main_v98 : Ref sig .tc := ⟨.hbm, 339, rfl⟩
abbrev main_cst_31 : Ref sig .tc := ⟨.hbm, 340, rfl⟩
abbrev main_v99 : Ref sig .tc := ⟨.hbm, 341, rfl⟩
abbrev main_v100 : Ref sig .tc := ⟨.hbm, 342, rfl⟩
abbrev main_v101 : Ref sig .tc := ⟨.hbm, 343, rfl⟩
abbrev main_v102 : Ref sig .tc := ⟨.hbm, 344, rfl⟩
abbrev main_v103 : Ref sig .tc := ⟨.hbm, 345, rfl⟩
abbrev main_v104 : Ref sig .tc := ⟨.hbm, 346, rfl⟩
abbrev main_v105 : Ref sig .tc := ⟨.hbm, 347, rfl⟩
abbrev main_cst_32 : Ref sig .tc := ⟨.hbm, 348, rfl⟩
abbrev main_v106 : Ref sig .tc := ⟨.hbm, 349, rfl⟩
abbrev main_v107 : Ref sig .tc := ⟨.hbm, 350, rfl⟩
abbrev main_v108 : Ref sig .tc := ⟨.hbm, 351, rfl⟩
abbrev main_v109 : Ref sig .tc := ⟨.hbm, 352, rfl⟩
abbrev main_v110 : Ref sig .tc := ⟨.hbm, 353, rfl⟩
abbrev main_v111 : Ref sig .tc := ⟨.hbm, 354, rfl⟩
abbrev main_v112 : Ref sig .tc := ⟨.hbm, 355, rfl⟩
abbrev main_cst_33 : Ref sig .tc := ⟨.hbm, 356, rfl⟩
abbrev main_v113 : Ref sig .tc := ⟨.hbm, 357, rfl⟩
abbrev main_v114 : Ref sig .tc := ⟨.hbm, 358, rfl⟩
abbrev main_v115 : Ref sig .tc := ⟨.hbm, 359, rfl⟩
abbrev main_v116 : Ref sig .tc := ⟨.hbm, 360, rfl⟩
abbrev main_v117 : Ref sig .tc := ⟨.hbm, 361, rfl⟩
abbrev main_v118 : Ref sig .tc := ⟨.hbm, 362, rfl⟩
abbrev main_v119 : Ref sig .tc := ⟨.hbm, 363, rfl⟩
abbrev main_cst_34 : Ref sig .tc := ⟨.hbm, 364, rfl⟩
abbrev main_v120 : Ref sig .tc := ⟨.hbm, 365, rfl⟩
abbrev main_v121 : Ref sig .tc := ⟨.hbm, 366, rfl⟩
abbrev main_v122 : Ref sig .tc := ⟨.hbm, 367, rfl⟩
abbrev main_v123 : Ref sig .tc := ⟨.hbm, 368, rfl⟩
abbrev main_v124 : Ref sig .tc := ⟨.hbm, 369, rfl⟩
abbrev main_v125 : Ref sig .tc := ⟨.hbm, 370, rfl⟩
abbrev main_v126 : Ref sig .tc := ⟨.hbm, 371, rfl⟩
abbrev main_cst_35 : Ref sig .tc := ⟨.hbm, 372, rfl⟩
abbrev main_v127 : Ref sig .tc := ⟨.hbm, 373, rfl⟩
abbrev main_v128 : Ref sig .tc := ⟨.hbm, 374, rfl⟩
abbrev main_v129 : Ref sig .tc := ⟨.hbm, 375, rfl⟩
abbrev main_v130 : Ref sig .tc := ⟨.hbm, 376, rfl⟩
abbrev main_v131 : Ref sig .tc := ⟨.hbm, 377, rfl⟩
abbrev main_v132 : Ref sig .tc := ⟨.hbm, 378, rfl⟩
abbrev main_v133 : Ref sig .tc := ⟨.hbm, 379, rfl⟩
abbrev main_cst_36 : Ref sig .tc := ⟨.hbm, 380, rfl⟩
abbrev main_v134 : Ref sig .tc := ⟨.hbm, 381, rfl⟩
abbrev main_v135 : Ref sig .tc := ⟨.hbm, 382, rfl⟩
abbrev main_v136 : Ref sig .tc := ⟨.hbm, 383, rfl⟩
abbrev main_v137 : Ref sig .tc := ⟨.hbm, 384, rfl⟩
abbrev main_v138 : Ref sig .tc := ⟨.hbm, 385, rfl⟩
abbrev main_v139 : Ref sig .tc := ⟨.hbm, 386, rfl⟩
abbrev main_v140 : Ref sig .tc := ⟨.hbm, 387, rfl⟩

abbrev nD : Nat := 1
abbrev τ : Topo := Topo.v7x

variable {F : FTy → Type} [FloatOps F]

class Facts₀ : Prop where
  bcast_S_S2000000x3 : S_.BroadcastsInDim S2000000x3 (![] : Fin 0 → Fin S2000000x3.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S128x128x128x16_S2097152x16 : S128x128x128x16.ShapeCasts S2097152x16
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x16_0 : S2000000.BroadcastsInDim S2000000x16 (![0] : Fin 1 → Fin S2000000x16.rank)
  bcast_S_S2000000x16 : S_.BroadcastsInDim S2000000x16 (![] : Fin 0 → Fin S2000000x16.rank)
  bcast_S2000000x1_S2000000x16_0_1 : S2000000x1.BroadcastsInDim S2000000x16 (![0, 1] : Fin 2 → Fin S2000000x16.rank)
  gather_S2097152x16_S2000000x1_S2000000x16_1_0_n_n_0_1_116_wf : GatherDims.WF S2097152x16 S2000000x1 S2000000x16 [1] [0] [] [0] [] 1 ![1, 16]

variable [Facts₀]

def gather_S2097152x16_S2000000x1_S2000000x16_1_0_n_n_0_1_116 : GatherDims S2097152x16 S2000000x1 S2000000x16 where
  offsetDims := [1]
  collapsedSliceDims := [0]
  operandBatchingDims := []
  startIndicesBatchingDims := []
  startIndexMap := [0]
  indexVectorDim := 1
  sliceSizes := ![1, 16]
  wf := gather_S2097152x16_S2000000x1_S2000000x16_1_0_n_n_0_1_116_wf

class Facts : Prop extends Facts₀ where

variable [Facts]
-- ==== Proof.KernelFrame.lean ====
/-
  The frame of the word-level kernel program, and its run with every array named.

  @main is 130 host operations, one launch of the blend kernel on a grid of 489 row blocks, and one closing slice.
  The host operations before the launch write fresh buffers only, so the launch finds the two argument arrays as
  they were given (`V_main_arg0`, `V_main_arg1`). At a grid point the body reads its two input blocks whole
  (4096 rows of the 128 gathered lanes, 4096 rows of the 3 offsets) and stores one 4096 × 16 block: `out2`, the
  blend of the lanes by the offsets. The blocks tile the padded output, so after the last point the output array is
  what the proof data (`dats`) says, and the closing slice reads its first 2,000,000 rows (`run_main`).
  Nothing here writes an argument array: `frame`.
-/
import proofs.«429497_j74809740362345_4_alg».proof.Proof.Gen.Kernel.Launch
import proofs.«429497_j74809740362345_4_alg».proof.Proof.Gen.Kernel.Skeleton
import proofs.«429497_j74809740362345_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The host operations before the launch, stretch by stretch (a called function's body is a stretch of its own). -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Core `c`'s buffer contents when the launch is reached. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

/-- No host operation allocates: each stretch before the launch, and the closing slice. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the nineteen stretches, the launch, and the closing slice: it reduces to the launch continued by the slice. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- The closing slice touches the output array and its own fresh result only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- And it writes none of the launch's three arrays (it writes its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.unary_writes, Finset.mem_singleton] <;> exact StableHlo.devRef_ne_of_ne (by decide)

/-- The result buffers of the host operations before the launch are all fresh names: neither argument array is among
    them. Stated once for both arrays, over the stretches. -/
theorem pre_writes_no_arg (r : Ref sig .tc) (hr : r = main_arg0 ∨ r = main_arg1) :
    (pre (F := F)).Forall fun ops => ops.Forall fun op => Proc.devRef (τ := τ) .tc r ∉ op.writes := by
  rcases hr with rfl | rfl
  all_goals
    simp only [List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)

/-- A reference no stretch writes is found by the launch as it was given. -/
theorem V_of_not_written (c : Dev nD) (r : Ref sig .tc)
    (h : (pre (F := F)).Forall fun ops => ops.Forall fun op => Proc.devRef (τ := τ) .tc r ∉ op.writes) :
    V m c r = m ((c : Thread nD τ).loc r) :=
  StableHlo.after_of_forall_not_mem (b := Proc.devRef .tc r) _ _ fun op hop => by
    obtain ⟨ops, hops, ho⟩ := List.mem_flatten.mp hop
    exact (List.forall_iff_forall_mem.mp ((List.forall_iff_forall_mem.mp h) ops hops)) op ho

/-- No host operation before the launch writes the points: the launch finds them as given. -/
theorem V_main_arg0 (c : Dev nD) : V m c main_arg0 = m ((c : Thread nD τ).loc main_arg0) := by
  exact V_of_not_written m c main_arg0 (pre_writes_no_arg main_arg0 (Or.inl rfl))
/-- Nor the table. -/
theorem V_main_arg1 (c : Dev nD) : V m c main_arg1 = m ((c : Thread nD τ).loc main_arg1) := by
  exact V_of_not_written m c main_arg1 (pre_writes_no_arg main_arg1 (Or.inr rfl))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

abbrev rA : Rect S4096x128 := Rect.unit (s := S4096x128) ![0, 0] S4096x128.size inb_S4096x128_S4096x128_0_0
abbrev rB : Rect S4096x3 := Rect.unit (s := S4096x3) ![0, 0] S4096x3.size inb_S4096x3_S4096x3_0_0
abbrev rC : Rect S4096x16 := Rect.unit (s := S4096x16) ![0, 0] S4096x16.size inb_S4096x16_S4096x16_0_0

/-- The output block after the body, from the two input blocks: the one store's value, the blend of the eight
    16-lane groups of `x0` by the three columns of `x1`. -/
def out2 (x0 : Vec F S4096x128 .f32) (x1 : Vec F S4096x3 .f32) : Vec F S4096x16 .f32 :=
  View.canon [⟨rC, k0_pay1 (k0_pay5 (View.ld x1 rB)) (k0_pay6 (View.ld x1 rB)) (k0_pay7 (View.ld x0 rA) (View.ld x1 rB))
    (k0_pay8 (View.ld x0 rA) (View.ld x1 rB)) (k0_pay9 (View.ld x0 rA) (View.ld x1 rB))⟩]

/-! ## The launch's proof data -/

/-- After the body at point `t` each input buffer holds its block and the output buffer `out2` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]

/-! ## The input blocks are in the staging buffers at every point -/

/-- Lane block of window 0: held in its current staging buffer at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- Offset block of window 1: the same. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body's triple -/

/-- The one store is of the whole 4096 × 16 block, so it covers it. -/
theorem cover_out (p0 : Vec F S4096x16 .f32) (y : S4096x16.Idx) :
    ∃ pc ∈ ([⟨rC, p0⟩] : List (View.Piece (Elt F) S4096x16 .f32)), y ∈ pc.1.set :=
  View.cover_of_tiled [⟨rC, p0⟩] S4096x16.size (by rfl) y

set_option maxHeartbeats 1000000 in
/-- The body on whole staging memrefs, the two inputs at `x0`, `x1` and the output at anything: the two whole loads,
    the (unused) load of the output buffer, and the whole store of the blend leave the inputs as they were and the
    output at `out2 x0 x1`. -/
theorem sound_kernel (c : Dev nD) (E : Set ℕ) (i : grid0.Coords)
    (arg1 : Memref sig .tc .vmem S4096x128 .f32) (harg1 : arg1.IsWhole)
    (arg2 : Memref sig .tc .vmem S4096x3 .f32) (harg2 : arg2.IsWhole)
    (arg3 : Memref sig .tc .vmem S4096x16 .f32) (harg3 : arg3.IsWhole)
    (x0 : Vec F S4096x128 .f32) (x1 : Vec F S4096x3 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc0__lerp_kernel i arg1 harg1 arg2 harg2 arg3 harg3) K := by
  simp only [cc0__lerp_kernel_eq_skeleton]; unfold cc0__lerp_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The body obligation -/

/-- What the body is called with at point `t`, the three windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each array of the launch ends at what the proof data says and
    every other buffer at what the closing slice leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => Entails.refl _) (hout := fun _ => Entails.refl _)

/-- An argument array is no array of the launch and not the slice's result: after the slice it is as the launch found it. -/
theorem afterTail_of_arg (c : Dev nD) (r : Ref sig .tc) (hr : r = main_arg0 ∨ r = main_arg1) :
    Pipeline.afterTail₀ cfgs (dats m) 0 (V0 m) [hostOps1] c r = V m c r := by
  unfold Pipeline.afterTail₀
  rw [StableHlo.after_of_forall_not_mem _ _ fun op hop => ?_,
    Pipeline.withArrays_of_ne _ c (V0 m c) _ r (by rcases hr with rfl | rfl <;> decide)]
  simp only [List.flatten_cons, List.flatten_nil, List.append_nil, hostOps1, List.mem_cons, List.mem_nil_iff, or_false] at hop
  subst hop
  simp only [StableHlo.unary_writes, Finset.mem_singleton]
  rcases hr with rfl | rfl <;> exact StableHlo.devRef_ne_of_ne (by decide)

/-- The program runs to the end and leaves both argument arrays as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans
        ((afterTail_of_arg m c main_arg0 (Or.inl rfl)).trans (V_main_arg0 m c)),
      ((h c).2 main_arg1 (Pipeline.mem_restRefs_of main_arg1 (by decide) (by decide))).trans
        ((afterTail_of_arg m c main_arg1 (Or.inr rfl)).trans (V_main_arg1 m c))⟩) (run_main m ρ)

end Cert.Kernel.Hand

end
-- ==== Proof.KernelIdealFrame.lean ====
/-
  The frame of the idealized kernel program, and its run with every array named.

  @main is 130 host operations, one launch of the blend kernel on a grid of 489 row blocks, and one closing slice.
  The host operations before the launch write fresh buffers only, so the launch finds the two argument arrays as
  they were given (`V_main_arg0`, `V_main_arg1`). At a grid point the body reads its two input blocks whole
  (4096 rows of the 128 gathered lanes, 4096 rows of the 3 offsets) and stores one 4096 × 16 block: `out2`, the
  blend of the lanes by the offsets. The blocks tile the padded output, so after the last point the output array is
  what the proof data (`dats`) says, and the closing slice reads its first 2,000,000 rows (`run_main`).
  Nothing here writes an argument array: `frame`.
-/
import proofs.«429497_j74809740362345_4_alg».proof.Proof.Gen.KernelIdeal.Launch
import proofs.«429497_j74809740362345_4_alg».proof.Proof.Gen.KernelIdeal.Skeleton
import proofs.«429497_j74809740362345_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The host operations before the launch, stretch by stretch (a called function's body is a stretch of its own). -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Core `c`'s buffer contents when the launch is reached. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

/-- No host operation allocates: each stretch before the launch, and the closing slice. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the nineteen stretches, the launch, and the closing slice: it reduces to the launch continued by the slice. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- The closing slice touches the output array and its own fresh result only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- And it writes none of the launch's three arrays (it writes its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.unary_writes, Finset.mem_singleton] <;> exact StableHlo.devRef_ne_of_ne (by decide)

/-- The result buffers of the host operations before the launch are all fresh names: neither argument array is among
    them. Stated once for both arrays, over the stretches. -/
theorem pre_writes_no_arg (r : Ref sig .tc) (hr : r = main_arg0 ∨ r = main_arg1) :
    (pre (F := F)).Forall fun ops => ops.Forall fun op => Proc.devRef (τ := τ) .tc r ∉ op.writes := by
  rcases hr with rfl | rfl
  all_goals
    simp only [List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)

/-- A reference no stretch writes is found by the launch as it was given. -/
theorem V_of_not_written (c : Dev nD) (r : Ref sig .tc)
    (h : (pre (F := F)).Forall fun ops => ops.Forall fun op => Proc.devRef (τ := τ) .tc r ∉ op.writes) :
    V m c r = m ((c : Thread nD τ).loc r) :=
  StableHlo.after_of_forall_not_mem (b := Proc.devRef .tc r) _ _ fun op hop => by
    obtain ⟨ops, hops, ho⟩ := List.mem_flatten.mp hop
    exact (List.forall_iff_forall_mem.mp ((List.forall_iff_forall_mem.mp h) ops hops)) op ho

/-- No host operation before the launch writes the points: the launch finds them as given. -/
theorem V_main_arg0 (c : Dev nD) : V m c main_arg0 = m ((c : Thread nD τ).loc main_arg0) := by
  exact V_of_not_written m c main_arg0 (pre_writes_no_arg main_arg0 (Or.inl rfl))
/-- Nor the table. -/
theorem V_main_arg1 (c : Dev nD) : V m c main_arg1 = m ((c : Thread nD τ).loc main_arg1) := by
  exact V_of_not_written m c main_arg1 (pre_writes_no_arg main_arg1 (Or.inr rfl))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

abbrev rA : Rect S4096x128 := Rect.unit (s := S4096x128) ![0, 0] S4096x128.size inb_S4096x128_S4096x128_0_0
abbrev rB : Rect S4096x3 := Rect.unit (s := S4096x3) ![0, 0] S4096x3.size inb_S4096x3_S4096x3_0_0
abbrev rC : Rect S4096x16 := Rect.unit (s := S4096x16) ![0, 0] S4096x16.size inb_S4096x16_S4096x16_0_0

/-- The output block after the body, from the two input blocks: the one store's value, the blend of the eight
    16-lane groups of `x0` by the three columns of `x1`. -/
def out2 (x0 : Vec F S4096x128 .f32) (x1 : Vec F S4096x3 .f32) : Vec F S4096x16 .f32 :=
  View.canon [⟨rC, k0_pay1 (k0_pay5 (View.ld x1 rB)) (k0_pay6 (View.ld x1 rB)) (k0_pay7 (View.ld x0 rA) (View.ld x1 rB))
    (k0_pay8 (View.ld x0 rA) (View.ld x1 rB)) (k0_pay9 (View.ld x0 rA) (View.ld x1 rB))⟩]

/-! ## The launch's proof data -/

/-- After the body at point `t` each input buffer holds its block and the output buffer `out2` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]

/-! ## The input blocks are in the staging buffers at every point -/

/-- Lane block of window 0: held in its current staging buffer at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- Offset block of window 1: the same. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body's triple -/

/-- The one store is of the whole 4096 × 16 block, so it covers it. -/
theorem cover_out (p0 : Vec F S4096x16 .f32) (y : S4096x16.Idx) :
    ∃ pc ∈ ([⟨rC, p0⟩] : List (View.Piece (Elt F) S4096x16 .f32)), y ∈ pc.1.set :=
  View.cover_of_tiled [⟨rC, p0⟩] S4096x16.size (by rfl) y

set_option maxHeartbeats 1000000 in
/-- The body on whole staging memrefs, the two inputs at `x0`, `x1` and the output at anything: the two whole loads,
    the (unused) load of the output buffer, and the whole store of the blend leave the inputs as they were and the
    output at `out2 x0 x1`. -/
theorem sound_kernel (c : Dev nD) (E : Set ℕ) (i : grid0.Coords)
    (arg1 : Memref sig .tc .vmem S4096x128 .f32) (harg1 : arg1.IsWhole)
    (arg2 : Memref sig .tc .vmem S4096x3 .f32) (harg2 : arg2.IsWhole)
    (arg3 : Memref sig .tc .vmem S4096x16 .f32) (harg3 : arg3.IsWhole)
    (x0 : Vec F S4096x128 .f32) (x1 : Vec F S4096x3 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc0__lerp_kernel i arg1 harg1 arg2 harg2 arg3 harg3) K := by
  simp only [cc0__lerp_kernel_eq_skeleton]; unfold cc0__lerp_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The body obligation -/

/-- What the body is called with at point `t`, the three windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each array of the launch ends at what the proof data says and
    every other buffer at what the closing slice leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => Entails.refl _) (hout := fun _ => Entails.refl _)

/-- An argument array is no array of the launch and not the slice's result: after the slice it is as the launch found it. -/
theorem afterTail_of_arg (c : Dev nD) (r : Ref sig .tc) (hr : r = main_arg0 ∨ r = main_arg1) :
    Pipeline.afterTail₀ cfgs (dats m) 0 (V0 m) [hostOps1] c r = V m c r := by
  unfold Pipeline.afterTail₀
  rw [StableHlo.after_of_forall_not_mem _ _ fun op hop => ?_,
    Pipeline.withArrays_of_ne _ c (V0 m c) _ r (by rcases hr with rfl | rfl <;> decide)]
  simp only [List.flatten_cons, List.flatten_nil, List.append_nil, hostOps1, List.mem_cons, List.mem_nil_iff, or_false] at hop
  subst hop
  simp only [StableHlo.unary_writes, Finset.mem_singleton]
  rcases hr with rfl | rfl <;> exact StableHlo.devRef_ne_of_ne (by decide)

/-- The program runs to the end and leaves both argument arrays as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans
        ((afterTail_of_arg m c main_arg0 (Or.inl rfl)).trans (V_main_arg0 m c)),
      ((h c).2 main_arg1 (Pipeline.mem_restRefs_of main_arg1 (by decide) (by decide))).trans
        ((afterTail_of_arg m c main_arg1 (Or.inr rfl)).trans (V_main_arg1 m c))⟩) (run_main m ρ)

end Cert.KernelIdeal.Hand

end
-- ==== Proof.Spec.lean ====
/-
  The mathematics both programs compute, stated once over whole arrays and with no program imported.

  For a point `n` with world coordinates `points[n, ·]`, the grid coordinate is `g = points / 0.05`; on each axis
  `lo = clip(⌊g⌋, 0, 127)`, `hi = clip(lo + 1, 0, 127)` and the fractional offset is `fr = g − lo` (against the CLIPPED
  floor). The eight corners of the voxel are the rows `(a·128 + b)·128 + c` of the table `values` flattened to
  `[128³, 16]`, with `a, b, c` each `lo` or `hi` of its axis; a row is taken with jnp's `take` (an index below zero
  wraps once, an index still out of range reads NaN, the start is clamped). The result is the trilinear blend of
  the eight rows by the three offsets: along x, then y, then z, each blend `u·(1 − d) + v·d`.

  The kernel program stacks the eight row indices into one `[N, 8]` array, pads it (and the `[N, 3]` offsets) to a
  multiple of the block, takes all rows at once and lays them out as `[N', 128]` (`corners`); the reference takes
  eight `[N, 16]` arrays one by one and blends them as whole arrays (`blend`).
-/
import Idealize.ShloMosaic.PureOps
import Idealize.ShloMosaic.PureOps.Ideal

noncomputable section

namespace Cert.Spec

open Idealize.ShloMosaic

abbrev SP : Shape := ⟨2, ![2000000, 3]⟩
abbrev SV : Shape := ⟨4, ![128, 128, 128, 16]⟩
abbrev S0 : Shape := ⟨0, ![]⟩
abbrev SN1 : Shape := ⟨2, ![2000000, 1]⟩
abbrev SN : Shape := ⟨1, ![2000000]⟩
abbrev SN8 : Shape := ⟨2, ![2000000, 8]⟩
abbrev SM8 : Shape := ⟨2, ![2002944, 8]⟩
abbrev SM3 : Shape := ⟨2, ![2002944, 3]⟩
abbrev SF : Shape := ⟨2, ![2097152, 16]⟩
abbrev SM81 : Shape := ⟨3, ![2002944, 8, 1]⟩
abbrev S1 : Shape := ⟨1, ![1]⟩
abbrev S111 : Shape := ⟨3, ![1, 1, 1]⟩
abbrev SM8C : Shape := ⟨3, ![2002944, 8, 16]⟩
abbrev SM128 : Shape := ⟨2, ![2002944, 128]⟩
abbrev SO : Shape := ⟨2, ![2000000, 16]⟩

variable {F : FTy → Type} [FloatOps F]

/-! ## The chain both programs share: grid coordinates, clipped floors, offsets, row indices -/

/-- `points / 0.05`. -/
def gc (P : FVec F SP .f32) : FVec F SP .f32 :=
  Host.divf P (broadcastInDim SP ![] (by decide) (constant S0 .f32 0x3D4CCCCD#32))

/-- Column `k` of the grid coordinates as a vector over the points. -/
def col (k : Nat) (hk : SP.Slices ![0, k] SN1) (P : FVec F SP .f32) : FVec F SN .f32 :=
  shapeCast SN (extractStridedSlice SN1 ![0, k] (gc P) hk) (by decide)

/-- jnp.clip to `[0, 127]`: the larger of `0` and the value, then the smaller of `127` and that. -/
def clip (x : IVec SN 32) : IVec SN 32 :=
  minsi (broadcastInDim SN ![] (by decide) (id (constantI S0 32 127#32)))
    (maxsi (broadcastInDim SN ![] (by decide) (id (constantI S0 32 0#32))) x)

/-- The clipped floor of column `k`. -/
def lo (k : Nat) (hk : SP.Slices ![0, k] SN1) (P : FVec F SP .f32) : IVec SN 32 :=
  clip (fptosi 32 (Host.floor (col k hk P)))

/-- Its clipped successor. -/
def hi (k : Nat) (hk : SP.Slices ![0, k] SN1) (P : FVec F SP .f32) : IVec SN 32 :=
  clip (addi (lo k hk P) (broadcastInDim SN ![] (by decide) (constantI S0 32 1#32)))

/-- The offset of column `k` from its clipped floor. -/
def fr (k : Nat) (hk : SP.Slices ![0, k] SN1) (P : FVec F SP .f32) : FVec F SN .f32 :=
  subf (col k hk P) (sitofp .f32 (lo k hk P))

/-- The row `(a·128 + b)·128 + c` of the flattened table. -/
def lin (a b c : IVec SN 32) : IVec SN 32 :=
  addi (muli (addi (muli a (broadcastInDim SN ![] (by decide) (constantI S0 32 128#32))) b)
    (broadcastInDim SN ![] (by decide) (constantI S0 32 128#32))) c

theorem hk0 : SP.Slices ![0, 0] SN1 := by decide
theorem hk1 : SP.Slices ![0, 1] SN1 := by decide
theorem hk2 : SP.Slices ![0, 2] SN1 := by decide

/-- The eight corners' rows, in the order the kernel stacks them: corner `k` takes `hi` on x, y, z where bit 2, 1, 0
    of `k` is set. -/
def L (P : FVec F SP .f32) : Fin 8 → IVec SN 32
  | 0 => lin (lo 0 hk0 P) (lo 1 hk1 P) (lo 2 hk2 P)
  | 1 => lin (lo 0 hk0 P) (lo 1 hk1 P) (hi 2 hk2 P)
  | 2 => lin (lo 0 hk0 P) (hi 1 hk1 P) (lo 2 hk2 P)
  | 3 => lin (lo 0 hk0 P) (hi 1 hk1 P) (hi 2 hk2 P)
  | 4 => lin (hi 0 hk0 P) (lo 1 hk1 P) (lo 2 hk2 P)
  | 5 => lin (hi 0 hk0 P) (lo 1 hk1 P) (hi 2 hk2 P)
  | 6 => lin (hi 0 hk0 P) (hi 1 hk1 P) (lo 2 hk2 P)
  | 7 => lin (hi 0 hk0 P) (hi 1 hk1 P) (hi 2 hk2 P)

/-- The table flattened to `[128³, 16]`. -/
def flat (V : FVec F SV .f32) : FVec F SF .f32 := shapeCast SF V (by decide)

/-- A vector over the points as a one-column matrix. -/
def colOf {α : Type} (x : SN.Idx → α) : SN1.Idx → α := broadcastInDim SN1 ![0] (by decide) x

/-! ## Rows taken from the table (jnp.take, fill mode) -/

/-- Gather of whole 16-wide rows at an `[M, 8, 1]` array of row numbers. -/
def gd8 : GatherDims SF SM81 SM8C where
  offsetDims := [2]
  collapsedSliceDims := [0]
  operandBatchingDims := []
  startIndicesBatchingDims := []
  startIndexMap := [0]
  indexVectorDim := 2
  sliceSizes := ![1, 16]
  wf := by decide

/-- Gather of whole 16-wide rows at an `[N, 1]` array of row numbers. -/
def gd1 : GatherDims SF SN1 SO where
  offsetDims := [1]
  collapsedSliceDims := [0]
  operandBatchingDims := []
  startIndicesBatchingDims := []
  startIndexMap := [0]
  indexVectorDim := 1
  sliceSizes := ![1, 16]
  wf := by decide

/-- A negative row number wraps once (`i + 128³`). -/
def wrap8 (I : IVec SM8 32) : IVec SM8 32 :=
  select (cmpi .slt I (broadcastInDim SM8 ![] (by decide) (constantI S0 32 0#32)))
    (addi I (broadcastInDim SM8 ![] (by decide) (constantI S0 32 2097152#32))) I

/-- The wrapped row numbers as the gather's start indices. -/
def start8 (I : IVec SM8 32) : IVec SM81 32 := broadcastInDim SM81 ![0, 1] (by decide) (wrap8 I)

theorem hred8 : SM81.ReducesTo [2] SM8 := by decide
theorem hred1 : SN1.ReducesTo [1] SN := by decide
theorem hcat8 : Shape.Concatenates [SN1, SN1, SN1, SN1, SN1, SN1, SN1, SN1] SN8 1 := by decide
theorem hcat3 : Shape.Concatenates [SN1, SN1, SN1] SP 1 := by decide

/-- Whether a wrapped row number is a row of the table. -/
def ok8 (I : IVec SM8 32) : IVec SM8 1 :=
  Host.reduce IntOp.andi
    (andi (cmpi .sge (start8 I) (broadcastInDim SM81 ![] (by decide) (constantI S0 32 0#32)))
      (cmpi .sle (start8 I) (broadcastInDim SM81 ![0, 1, 2] (by decide)
        (broadcastInDim S111 ![2] (by decide) (constantI S1 32 2097151#32)))))
    (constantI S0 1 1#1) hred8 (by decide)

/-- The rows of `T` at the `[M, 8]` row numbers `I`: NaN where the wrapped number is no row. -/
def take8 (T : FVec F SF .f32) (I : IVec SM8 32) : FVec F SM8C .f32 :=
  select (broadcastInDim SM8C ![0, 1] (by decide) (ok8 I)) (Host.gather gd8 T (start8 I))
    (broadcastInDim SM8C ![] (by decide) (constant S0 .f32 0x7FC00000#32))

abbrev S11 : Shape := ⟨2, ![1, 1]⟩

def wrap1 (I : IVec SN 32) : IVec SN 32 :=
  select (cmpi .slt I (broadcastInDim SN ![] (by decide) (constantI S0 32 0#32)))
    (addi I (broadcastInDim SN ![] (by decide) (constantI S0 32 2097152#32))) I

def start1 (I : IVec SN 32) : IVec SN1 32 := broadcastInDim SN1 ![0] (by decide) (wrap1 I)

def ok1 (I : IVec SN 32) : IVec SN 1 :=
  Host.reduce IntOp.andi
    (andi (cmpi .sge (start1 I) (broadcastInDim SN1 ![] (by decide) (constantI S0 32 0#32)))
      (cmpi .sle (start1 I) (broadcastInDim SN1 ![0, 1] (by decide)
        (broadcastInDim S11 ![1] (by decide) (constantI S1 32 2097151#32)))))
    (constantI S0 1 1#1) hred1 (by decide)

/-- The rows of `T` at the `[N]` row numbers `I`. -/
def take1 (T : FVec F SF .f32) (I : IVec SN 32) : FVec F SO .f32 :=
  select (broadcastInDim SO ![0] (by decide) (ok1 I)) (Host.gather gd1 T (start1 I))
    (broadcastInDim SO ![] (by decide) (constant S0 .f32 0x7FC00000#32))

/-! ## The kernel program's two launch operands -/

/-- The eight row numbers side by side, padded with zero rows to 489 blocks of 4096. -/
def idx8 (P : FVec F SP .f32) : IVec SM8 32 :=
  pad SM8 ![0, 0] ![2944, 0] ![0, 0]
    (concatenate SN8 1 [⟨SN1, colOf (L P 0)⟩, ⟨SN1, colOf (L P 1)⟩, ⟨SN1, colOf (L P 2)⟩, ⟨SN1, colOf (L P 3)⟩,
      ⟨SN1, colOf (L P 4)⟩, ⟨SN1, colOf (L P 5)⟩, ⟨SN1, colOf (L P 6)⟩, ⟨SN1, colOf (L P 7)⟩] hcat8)
    (id (constantI S0 32 0#32)) (by decide) (by decide)

/-- The three offsets side by side, padded with zero rows likewise. -/
def frac3 (P : FVec F SP .f32) : FVec F SM3 .f32 :=
  pad SM3 ![0, 0] ![2944, 0] ![0, 0]
    (concatenate SP 1 [⟨SN1, colOf (fr 0 hk0 P)⟩, ⟨SN1, colOf (fr 1 hk1 P)⟩, ⟨SN1, colOf (fr 2 hk2 P)⟩] hcat3)
    (sitofp .f32 (constantI S0 32 0#32)) (by decide) (by decide)

/-- All eight corners of every (padded) point, a point's 8 × 16 values along one row of 128 lanes. -/
def corners (P : FVec F SP .f32) (V : FVec F SV .f32) : FVec F SM128 .f32 :=
  shapeCast SM128 (take8 (flat V) (idx8 P)) (by decide)

/-! ## The blend -/

/-- `u·(1 − d) + v·d` over whole arrays, `d` a column. -/
def mix (u v : FVec F SO .f32) (d : FVec F SN1 .f32) : FVec F SO .f32 :=
  addf (mulf u (broadcastInDim SO ![0, 1] (by decide)
      (subf (broadcastInDim SN1 ![] (by decide) (constant S0 .f32 0x3F800000#32)) d)))
    (mulf v (broadcastInDim SO ![0, 1] (by decide) d))

/-- The reference's result: the eight taken arrays blended along x, then y, then z. -/
def blend (t : Fin 8 → FVec F SO .f32) (xd yd zd : FVec F SN1 .f32) : FVec F SO .f32 :=
  mix (mix (mix (t 0) (t 4) xd) (mix (t 2) (t 6) xd) yd) (mix (mix (t 1) (t 5) xd) (mix (t 3) (t 7) xd) yd) zd

/-- The reference's whole result as a function of the two argument arrays. -/
def refResult (P : FVec F SP .f32) (V : FVec F SV .f32) : FVec F SO .f32 :=
  blend (fun k => take1 (flat V) (L P k)) (colOf (fr 0 hk0 P)) (colOf (fr 1 hk1 P)) (colOf (fr 2 hk2 P))

/-- `u·(1 − d) + v·d` on single values, with the operations an array operation applies element by element. -/
def mixE (u v d : F .f32) : F .f32 :=
  FloatOps.addf (FloatOps.mulf u (FloatOps.subf (FloatOps.ofBits .f32 0x3F800000#32) d)) (FloatOps.mulf v d)

/-- The trilinear blend of eight values by three offsets: along x (corners `k` and `k + 4`), then y, then z. -/
def lerpE (t : Fin 8 → F .f32) (xd yd zd : F .f32) : F .f32 :=
  mixE (mixE (mixE (t 0) (t 4) xd) (mixE (t 2) (t 6) xd) yd) (mixE (mixE (t 1) (t 5) xd) (mixE (t 3) (t 7) xd) yd) zd

end Cert.Spec

end
-- ==== Proof.KernelOperands.lean ====
/-
  What the launch finds in its two input arrays, as functions of the two argument arrays.

  The 130 host operations before the launch compute, from the points, the grid coordinates, the clipped floors and
  their successors, the three offsets and the eight row numbers; stack, pad and take; and lay the taken rows out
  128 lanes to a point. Folding the operations' results gives exactly the specification's `corners` and `frac3`.
-/
import proofs.«429497_j74809740362345_4_alg».proof.Proof.KernelIdealFrame
import proofs.«429497_j74809740362345_4_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## Tools: a fold over an untouched buffer, and the result of a concatenate of three or of eight operands -/

/-- A buffer none of the operations writes keeps its contents. -/
theorem after_keep (ops : List (HloOp τ sig (Elt F))) (W : Valuation τ sig (Elt F)) (r : Ref sig .tc)
    (h : ops.Forall fun op => Proc.devRef (τ := τ) .tc r ∉ op.writes) :
    after ops W (Proc.devRef .tc r) = W (Proc.devRef .tc r) :=
  after_of_forall_not_mem ops W (List.forall_iff_forall_mem.mp h)

section Nary
variable {Val : EltTy → Type} {x0 x1 x2 x3 x4 x5 x6 x7 y : Ref sig .tc}

/-- A three-operand operation's result, each operand's contents read at its own reference. -/
theorem nary3_result'
    (f : ((k : Fin 3) → ((![x0, x1, x2] : Fin 3 → Ref sig .tc) k).ty.Contents Val) → y.ty.Contents Val) (hxs hy)
    (G : Valuation τ sig Val) :
    (nary (τ := τ) ![x0, x1, x2] y f hxs hy).result G (no_index (Proc.devRef .tc y))
      = f (Fin.cons (G (Proc.devRef .tc x0)) (Fin.cons (G (Proc.devRef .tc x1)) (Fin.cons (G (Proc.devRef .tc x2)) (fun i => i.elim0)))) := by
  rw [nary_result]; congr 1; funext k; fin_cases k <;> rfl

/-- An eight-operand operation's result, likewise. -/
theorem nary8_result'
    (f : ((k : Fin 8) → ((![x0, x1, x2, x3, x4, x5, x6, x7] : Fin 8 → Ref sig .tc) k).ty.Contents Val) → y.ty.Contents Val) (hxs hy)
    (G : Valuation τ sig Val) :
    (nary (τ := τ) ![x0, x1, x2, x3, x4, x5, x6, x7] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) := by
  rw [nary_result]; congr 1; funext k; fin_cases k <;> rfl
end Nary

/-- The operations' results in one pass, the two concatenates' operands each at its own reference. -/
macro "fold_results" : tactic =>
  `(tactic| (simp (disch := decide) only [after_cons, after_nil, nary3_result', nary8_result',
      nullary_result', unary_result', binary_result', ternary_result', quaternary_result', reshape_result',
      nullary_result_ne', unary_result_ne', binary_result_ne', ternary_result_ne', quaternary_result_ne', reshape_result_ne',
      nary_result_ne']))

/-- Contents moved to a buffer's own type and back are the contents. -/
theorem ofBuf_toBuf {T : BufTy} (x : TRef sig T) (v : T.Contents (Elt F)) : x.ofBuf (x.toBuf v) = v := by
  obtain ⟨r, rfl, h1, h2⟩ := x
  rfl

/-! ## The first six stretches: the three columns of the grid coordinates and their clipped floors -/

variable (W : Valuation τ sig (Elt F))

/-- Column 0 of the grid coordinates. -/
theorem g1_v3 :
    ((after hostOps0_5 (after hostOps0_4 (after hostOps0_3 (after hostOps0_2 (after hostOps0_1 (after hostOps0 W)))))) (Proc.devRef .tc main_v3) : S2000000.Idx → F .f32)
      = Cert.Spec.col 0 Cert.Spec.hk0 (W (Proc.devRef .tc main_arg0)) := by
  fold_results
  rfl

/-- Column 1 of the grid coordinates. -/
theorem g1_v5 :
    ((after hostOps0_5 (after hostOps0_4 (after hostOps0_3 (after hostOps0_2 (after hostOps0_1 (after hostOps0 W)))))) (Proc.devRef .tc main_v5) : S2000000.Idx → F .f32)
      = Cert.Spec.col 1 Cert.Spec.hk1 (W (Proc.devRef .tc main_arg0)) := by
  fold_results
  rfl

/-- Column 2 of the grid coordinates. -/
theorem g1_v7 :
    ((after hostOps0_5 (after hostOps0_4 (after hostOps0_3 (after hostOps0_2 (after hostOps0_1 (after hostOps0 W)))))) (Proc.devRef .tc main_v7) : S2000000.Idx → F .f32)
      = Cert.Spec.col 2 Cert.Spec.hk2 (W (Proc.devRef .tc main_arg0)) := by
  fold_results
  rfl

/-- The clipped floor of column 0. -/
theorem g1_v10 :
    ((after hostOps0_5 (after hostOps0_4 (after hostOps0_3 (after hostOps0_2 (after hostOps0_1 (after hostOps0 W)))))) (Proc.devRef .tc main_v10) : S2000000.Idx → BitVec 32)
      = Cert.Spec.lo 0 Cert.Spec.hk0 (W (Proc.devRef .tc main_arg0)) := by
  fold_results
  rfl

/-- The clipped floor of column 1. -/
theorem g1_v13 :
    ((after hostOps0_5 (after hostOps0_4 (after hostOps0_3 (after hostOps0_2 (after hostOps0_1 (after hostOps0 W)))))) (Proc.devRef .tc main_v13) : S2000000.Idx → BitVec 32)
      = Cert.Spec.lo 1 Cert.Spec.hk1 (W (Proc.devRef .tc main_arg0)) := by
  fold_results
  rfl

/-- The clipped floor of column 2. -/
theorem g1_v16 :
    ((after hostOps0_5 (after hostOps0_4 (after hostOps0_3 (after hostOps0_2 (after hostOps0_1 (after hostOps0 W)))))) (Proc.devRef .tc main_v16) : S2000000.Idx → BitVec 32)
      = Cert.Spec.lo 2 Cert.Spec.hk2 (W (Proc.devRef .tc main_arg0)) := by
  fold_results
  rfl

/-! ## The next six stretches: the clipped successors; the columns and the floors are left as they were -/

/-- The clipped successor on axis 0, from the clipped floor. -/
theorem g2_v19 :
    ((after hostOps0_11 (after hostOps0_10 (after hostOps0_9 (after hostOps0_8 (after hostOps0_7 (after hostOps0_6 W)))))) (Proc.devRef .tc main_v19) : S2000000.Idx → BitVec 32)
      = Cert.Spec.clip (addi (W (Proc.devRef .tc main_v10)) (broadcastInDim S2000000 ![] bcast_S_S2000000 (constantI S_ 32 1#32))) := by
  fold_results
  rfl

/-- The clipped successor on axis 1, from the clipped floor. -/
theorem g2_v22 :
    ((after hostOps0_11 (after hostOps0_10 (after hostOps0_9 (after hostOps0_8 (after hostOps0_7 (after hostOps0_6 W)))))) (Proc.devRef .tc main_v22) : S2000000.Idx → BitVec 32)
      = Cert.Spec.clip (addi (W (Proc.devRef .tc main_v13)) (broadcastInDim S2000000 ![] bcast_S_S2000000 (constantI S_ 32 1#32))) := by
  fold_results
  rfl

/-- The clipped successor on axis 2, from the clipped floor. -/
theorem g2_v25 :
    ((after hostOps0_11 (after hostOps0_10 (after hostOps0_9 (after hostOps0_8 (after hostOps0_7 (after hostOps0_6 W)))))) (Proc.devRef .tc main_v25) : S2000000.Idx → BitVec 32)
      = Cert.Spec.clip (addi (W (Proc.devRef .tc main_v16)) (broadcastInDim S2000000 ![] bcast_S_S2000000 (constantI S_ 32 1#32))) := by
  fold_results
  rfl

/-- These six stretches do not write main_v3. -/
theorem g2_keep_v3 : (after hostOps0_11 (after hostOps0_10 (after hostOps0_9 (after hostOps0_8 (after hostOps0_7 (after hostOps0_6 W)))))) (Proc.devRef .tc main_v3) = W (Proc.devRef .tc main_v3) := by
  fold_results

/-- These six stretches do not write main_v5. -/
theorem g2_keep_v5 : (after hostOps0_11 (after hostOps0_10 (after hostOps0_9 (after hostOps0_8 (after hostOps0_7 (after hostOps0_6 W)))))) (Proc.devRef .tc main_v5) = W (Proc.devRef .tc main_v5) := by
  fold_results

/-- These six stretches do not write main_v7. -/
theorem g2_keep_v7 : (after hostOps0_11 (after hostOps0_10 (after hostOps0_9 (after hostOps0_8 (after hostOps0_7 (after hostOps0_6 W)))))) (Proc.devRef .tc main_v7) = W (Proc.devRef .tc main_v7) := by
  fold_results

/-- These six stretches do not write main_v10. -/
theorem g2_keep_v10 : (after hostOps0_11 (after hostOps0_10 (after hostOps0_9 (after hostOps0_8 (after hostOps0_7 (after hostOps0_6 W)))))) (Proc.devRef .tc main_v10) = W (Proc.devRef .tc main_v10) := by
  fold_results

/-- These six stretches do not write main_v13. -/
theorem g2_keep_v13 : (after hostOps0_11 (after hostOps0_10 (after hostOps0_9 (after hostOps0_8 (after hostOps0_7 (after hostOps0_6 W)))))) (Proc.devRef .tc main_v13) = W (Proc.devRef .tc main_v13) := by
  fold_results

/-- These six stretches do not write main_v16. -/
theorem g2_keep_v16 : (after hostOps0_11 (after hostOps0_10 (after hostOps0_9 (after hostOps0_8 (after hostOps0_7 (after hostOps0_6 W)))))) (Proc.devRef .tc main_v16) = W (Proc.devRef .tc main_v16) := by
  fold_results

/-! ## The long stretch: the eight row numbers side by side, the three offsets side by side -/

/-- The eight row numbers from the floors and successors, one column each. -/
theorem g3_v88 :
    (after hostOps0_12 W (Proc.devRef .tc main_v88) : S2000000x8.Idx → BitVec 32)
      = concatenate S2000000x8 1
          [⟨S2000000x1, Cert.Spec.colOf (Cert.Spec.lin (W (Proc.devRef .tc main_v10)) (W (Proc.devRef .tc main_v13)) (W (Proc.devRef .tc main_v16)))⟩,
           ⟨S2000000x1, Cert.Spec.colOf (Cert.Spec.lin (W (Proc.devRef .tc main_v10)) (W (Proc.devRef .tc main_v13)) (W (Proc.devRef .tc main_v25)))⟩,
           ⟨S2000000x1, Cert.Spec.colOf (Cert.Spec.lin (W (Proc.devRef .tc main_v10)) (W (Proc.devRef .tc main_v22)) (W (Proc.devRef .tc main_v16)))⟩,
           ⟨S2000000x1, Cert.Spec.colOf (Cert.Spec.lin (W (Proc.devRef .tc main_v10)) (W (Proc.devRef .tc main_v22)) (W (Proc.devRef .tc main_v25)))⟩,
           ⟨S2000000x1, Cert.Spec.colOf (Cert.Spec.lin (W (Proc.devRef .tc main_v19)) (W (Proc.devRef .tc main_v13)) (W (Proc.devRef .tc main_v16)))⟩,
           ⟨S2000000x1, Cert.Spec.colOf (Cert.Spec.lin (W (Proc.devRef .tc main_v19)) (W (Proc.devRef .tc main_v13)) (W (Proc.devRef .tc main_v25)))⟩,
           ⟨S2000000x1, Cert.Spec.colOf (Cert.Spec.lin (W (Proc.devRef .tc main_v19)) (W (Proc.devRef .tc main_v22)) (W (Proc.devRef .tc main_v16)))⟩,
           ⟨S2000000x1, Cert.Spec.colOf (Cert.Spec.lin (W (Proc.devRef .tc main_v19)) (W (Proc.devRef .tc main_v22)) (W (Proc.devRef .tc main_v25)))⟩]
          concatenates_S2000000x1_S2000000x1_S2000000x1_S2000000x1_S2000000x1_S2000000x1_S2000000x1_S2000000x1_S2000000x8_d1 := by
  fold_results
  rfl

/-- The three offsets from the columns and the floors, one column each. -/
theorem g3_v92 :
    (after hostOps0_12 W (Proc.devRef .tc main_v92) : S2000000x3.Idx → F .f32)
      = concatenate S2000000x3 1
          [⟨S2000000x1, Cert.Spec.colOf (subf (W (Proc.devRef .tc main_v3)) (sitofp .f32 (W (Proc.devRef .tc main_v10))))⟩,
           ⟨S2000000x1, Cert.Spec.colOf (subf (W (Proc.devRef .tc main_v5)) (sitofp .f32 (W (Proc.devRef .tc main_v13))))⟩,
           ⟨S2000000x1, Cert.Spec.colOf (subf (W (Proc.devRef .tc main_v7)) (sitofp .f32 (W (Proc.devRef .tc main_v16))))⟩]
          concatenates_S2000000x1_S2000000x1_S2000000x1_S2000000x3_d1 := by
  fold_results
  rfl

/-- The padding value of the row numbers. -/
theorem g3_c30 :
    (after hostOps0_12 W (Proc.devRef .tc main_c_30) : S_.Idx → BitVec 32) = constantI S_ 32 0#32 := by
  fold_results

/-! ## The two pads -/

/-- The row numbers padded with zero rows. -/
theorem g4_v93 :
    ((after hostOps0_15 (after hostOps0_14 (after hostOps0_13 W))) (Proc.devRef .tc main_v93) : S2002944x8.Idx → BitVec 32)
      = pad S2002944x8 ![0, 0] ![2944, 0] ![0, 0] (W (Proc.devRef .tc main_v88)) (id (W (Proc.devRef .tc main_c_30))) pads_S2000000x8_S2002944x8_029440_000 h_S_ := by
  fold_results
  rfl

/-- The offsets padded with zero rows. -/
theorem g4_v94 :
    ((after hostOps0_15 (after hostOps0_14 (after hostOps0_13 W))) (Proc.devRef .tc main_v94) : S2002944x3.Idx → F .f32)
      = pad S2002944x3 ![0, 0] ![2944, 0] ![0, 0] (W (Proc.devRef .tc main_v92)) (sitofp .f32 (constantI S_ 32 0#32)) pads_S2000000x3_S2002944x3_029440_000 h_S_ := by
  fold_results
  rfl

/-! ## The take and its layout; the padded offsets are left as they were -/

/-- The rows of the flattened table at the padded row numbers, 128 lanes to a point: the table is flattened, the
    row numbers wrapped once and checked against the table's rows, the rows gathered and masked, and the result
    laid out. The typed references' moves to and from a buffer's own type cancel in pairs first; the lone ones at
    the stretch's inputs and result are identities. -/
theorem g5_v97 :
    ((after hostOps0_18 (after hostOps0_17 (after hostOps0_16 W))) (Proc.devRef .tc main_v97) : S2002944x128.Idx → F .f32)
      = shapeCast S2002944x128 (Cert.Spec.take8 (Cert.Spec.flat (W (Proc.devRef .tc main_arg1))) (W (Proc.devRef .tc main_v93))) shapeCasts_S2002944x8x16_S2002944x128 := by
  fold_results
  simp only [ofBuf_toBuf]
  simp only [TRef.ofBuf, TRef.toBuf, cast_eq]
  rfl

/-- The last three stretches do not write the padded offsets. -/
theorem g5_keep_v94 : (after hostOps0_18 (after hostOps0_17 (after hostOps0_16 W))) (Proc.devRef .tc main_v94) = W (Proc.devRef .tc main_v94) := by
  fold_results

/-! ## The table is not written before the take -/

/-- None of the first sixteen stretches writes the table. -/
theorem keep_arg1 :
    (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 W)))))))))))))))) (Proc.devRef .tc main_arg1) = W (Proc.devRef .tc main_arg1) := by
  obtain ⟨h0, h1, h2, h3, h4, h5, h6, h7, h8, h9, h10, h11, h12, h13, h14, h15, -⟩ :=
    pre_writes_no_arg (F := F) main_arg1 (Or.inr rfl)
  rw [after_keep _ _ _ h15, after_keep _ _ _ h14, after_keep _ _ _ h13, after_keep _ _ _ h12, after_keep _ _ _ h11,
    after_keep _ _ _ h10, after_keep _ _ _ h9, after_keep _ _ _ h8, after_keep _ _ _ h7, after_keep _ _ _ h6,
    after_keep _ _ _ h5, after_keep _ _ _ h4, after_keep _ _ _ h3, after_keep _ _ _ h2, after_keep _ _ _ h1,
    after_keep _ _ _ h0]

/-! ## The two operands -/

variable (m : (ℓ : Loc nD τ sig) → Buf (Elt F) ℓ)

/-- The nineteen stretches run one after the other. -/
theorem V0_eq (c : Dev nD) :
    V0 m c = (after hostOps0_18 (after hostOps0_17 (after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 (fun b => m (c, b))))))))))))))))))))) := by
  simp only [V0, pre, List.flatten_cons, List.flatten_nil, List.append_nil, StableHlo.after_append]

/-- The launch's first operand: all eight corners of every padded point. -/
theorem V_main_v97 (c : Dev nD) :
    (V m c main_v97 : S2002944x128.Idx → F .f32)
      = Cert.Spec.corners (m ((c : Thread nD τ).loc main_arg0)) (m ((c : Thread nD τ).loc main_arg1)) := by
  show V0 m c (Proc.devRef .tc main_v97) = _
  rw [V0_eq, g5_v97, keep_arg1, g4_v93, g3_v88, g3_c30,
    g2_keep_v10, g2_keep_v13, g2_keep_v16, g2_v19, g2_v22, g2_v25, g1_v10, g1_v13, g1_v16]
  rfl

/-- The launch's second operand: the three offsets of every padded point. -/
theorem V_main_v94 (c : Dev nD) :
    (V m c main_v94 : S2002944x3.Idx → F .f32) = Cert.Spec.frac3 (m ((c : Thread nD τ).loc main_arg0)) := by
  show V0 m c (Proc.devRef .tc main_v94) = _
  rw [V0_eq, g5_keep_v94, g4_v94, g3_v92,
    g2_keep_v3, g2_keep_v5, g2_keep_v7, g2_keep_v10, g2_keep_v13, g2_keep_v16, g1_v3, g1_v5, g1_v7, g1_v10, g1_v13, g1_v16]
  rfl

end Cert.KernelIdeal.Hand

end
-- ==== Proof.IndexLemmas.lean ====
/-
  The two programs' array operations read at one index.

  A taken value: for a row number `l` (wrapped once if negative) and a channel `c`, the table's entry at the clamped
  row and `c`, or NaN when the wrapped number is no row (`takeElt`). Both take forms read it: the `[M, 8]` form at
  `(n, k, c)` with `l = I (n, k)`, the `[N]` form at `(n, c)` with `l = I n`. The padded operands read, on the
  first 2,000,000 rows, the unpadded columns; `corners` at lane `16·k + c` of row `n` is the `[M, 8]` take at
  `(n, k, c)` (a row-major relabelling). The reference's whole-array blend at `(n, c)` is the element blend of the
  eight taken values by the three offsets at `n`: `G`.
-/
import proofs.«429497_j74809740362345_4_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Reduce

noncomputable section

namespace Cert.Spec

open Idealize.ShloMosaic Idealize.ShloMosaic.ValueIdx

variable {F : FTy → Type} [FloatOps F]

/-- A row number wrapped once if negative. -/
def wrapE (l : BitVec 32) : BitVec 32 := Scalar.select (Scalar.cmpi .slt l 0#32) (Scalar.addi l 2097152#32) l

/-- One taken value: row `l` (wrapped, clamped into the table), channel `c`; NaN if the wrapped number is no row. -/
def takeElt (T : FVec F SF .f32) (l : BitVec 32) (c : Fin 16) : F .f32 :=
  Scalar.select (IntOp.andi 1#1 (Scalar.andi (Scalar.cmpi .sge (wrapE l) 0#32) (Scalar.cmpi .sle (wrapE l) 2097151#32)))
    (T (ix2 (⟨min (wrapE l).toInt.toNat 2097151, by omega⟩ : Fin 2097152) c))
    (Scalar.ofBits .f32 0x7FC00000#32)

/-- The [M, 8, 16] gather read at (n, k, c): operand row = the start index at (n, k, 0) read signed and clamped into
    the table, operand column = c. -/
theorem gather8_apply {α : Type} (T : SF.Idx → α) (S : IVec SM81 32) (n : Fin 2002944) (k : Fin 8) (c : Fin 16) :
    Host.gather gd8 T S (ix3 n k c)
      = T (ix2 (⟨min (S (ix3 n k (0 : Fin 1))).toInt.toNat 2097151, by omega⟩ : Fin 2097152) c) := by
  unfold Host.gather
  congr 1
  funext a
  refine Fin.ext ?_
  match a with
  | ⟨0, _⟩ =>
    show gd8.start (ix3 n k c) S 0 + gd8.batchCoord (ix3 n k c) 0 + gd8.offCoord (ix3 n k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd8.startIndexMap from List.mem_singleton.mpr rfl)]
    have hsi : gd8.siIdx (ix3 n k c) ⟨List.idxOf (0 : Fin 2) gd8.startIndexMap,
        List.idxOf_lt_length_iff.2 (List.mem_singleton.mpr rfl)⟩ = ix3 n k (0 : Fin 1) := by
      funext b; refine Fin.ext ?_
      match b with
      | ⟨0, _⟩ => rfl
      | ⟨1, _⟩ => rfl
      | ⟨2, _⟩ => rfl
    rw [hsi]
    rfl
  | ⟨1, _⟩ =>
    show gd8.start (ix3 n k c) S 1 + gd8.batchCoord (ix3 n k c) 1 + gd8.offCoord (ix3 n k c) 1 = c.val
    rw [GatherDims.batchCoord_eq_zero _ _ _ List.not_mem_nil]
    unfold GatherDims.start
    rw [dif_neg (show (1 : Fin 2) ∉ gd8.startIndexMap by decide)]
    have hmem : (1 : Fin 2) ∈ gd8.sKept := (GatherDims.mem_sKept _ _).mpr ⟨by decide, by decide⟩
    unfold GatherDims.offCoord
    rw [dif_pos hmem]
    simp only [Nat.zero_add]
    rfl

/-- The [N, 16] gather read at (n, c): operand row = the start index at (n, 0) read signed and clamped into the table,
    operand column = c. -/
theorem gather1_apply {α : Type} (T : SF.Idx → α) (S : IVec SN1 32) (n : Fin 2000000) (c : Fin 16) :
    Host.gather gd1 T S (ix2 n c)
      = T (ix2 (⟨min (S (ix2 n (0 : Fin 1))).toInt.toNat 2097151, by omega⟩ : Fin 2097152) c) := by
  unfold Host.gather
  congr 1
  funext a
  refine Fin.ext ?_
  match a with
  | ⟨0, _⟩ =>
    show gd1.start (ix2 n c) S 0 + gd1.batchCoord (ix2 n c) 0 + gd1.offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd1.startIndexMap from List.mem_singleton.mpr rfl)]
    have hsi : gd1.siIdx (ix2 n c) ⟨List.idxOf (0 : Fin 2) gd1.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gd1.start (ix2 n c) S 1 + gd1.batchCoord (ix2 n c) 1 + gd1.offCoord (ix2 n c) 1 = c.val
    rw [GatherDims.batchCoord_eq_zero _ _ _ List.not_mem_nil]
    unfold GatherDims.start
    rw [dif_neg (show (1 : Fin 2) ∉ gd1.startIndexMap by decide)]
    have hmem : (1 : Fin 2) ∈ gd1.sKept := (GatherDims.mem_sKept _ _).mpr ⟨by decide, by decide⟩
    unfold GatherDims.offCoord
    rw [dif_pos hmem]
    simp only [Nat.zero_add]
    rfl

/-- The same, the start index's value named. -/
theorem gather8_apply_at {α : Type} (T : SF.Idx → α) (S : IVec SM81 32) (n : Fin 2002944) (k : Fin 8) (c : Fin 16)
    (l : BitVec 32) (hl : S (ix3 n k (0 : Fin 1)) = l) :
    Host.gather gd8 T S (ix3 n k c) = T (ix2 (⟨min l.toInt.toNat 2097151, by omega⟩ : Fin 2097152) c) := by
  subst hl; exact gather8_apply T S n k c

/-- The same, the start index's value named. -/
theorem gather1_apply_at {α : Type} (T : SF.Idx → α) (S : IVec SN1 32) (n : Fin 2000000) (c : Fin 16)
    (l : BitVec 32) (hl : S (ix2 n (0 : Fin 1)) = l) :
    Host.gather gd1 T S (ix2 n c) = T (ix2 (⟨min l.toInt.toNat 2097151, by omega⟩ : Fin 2097152) c) := by
  subst hl; exact gather1_apply T S n c

/-! ### The [M, 8] take read at an index -/

/-- The wrapped row numbers read at an index are the element wrap. -/
theorem wrap8_apply (I : IVec SM8 32) (j : SM8.Idx) : wrap8 I j = wrapE (I j) := rfl

/-- The start indices at (n, k, z) are the wrapped row number at (n, k). -/
theorem start8_apply (I : IVec SM8 32) (n : Fin 2002944) (k : Fin 8) (z : Fin 1) :
    start8 I (ix3 n k z) = wrapE (I (ix2 n k)) := by
  unfold start8
  rw [broadcastInDim_apply _ _ _ (ix3 n k z) (ix2 n k) (fun a => by
    match a with
    | ⟨0, _⟩ => rfl
    | ⟨1, _⟩ => rfl)]
  rfl

theorem hR8 : SM81.Reduces [2] SM8 := by decide

/-- The only index of the start indices over (n, k). -/
theorem lift8 (n : Fin 2002944) (k : Fin 8) (z : Fin (SM81.size 2)) : hR8.lift (ix2 n k) z = ix3 n k (0 : Fin 1) := by
  funext c; refine Fin.ext ?_
  have hz : z.val = 0 := by have := z.isLt; change z.val < 1 at this; omega
  match c with
  | ⟨0, _⟩ => rfl
  | ⟨1, _⟩ => rfl
  | ⟨2, _⟩ => exact hz

/-- The in-range bit at (n, k): the and, from 1, of the one pair of comparisons over (n, k). -/
theorem ok8_apply (I : IVec SM8 32) (n : Fin 2002944) (k : Fin 8) :
    ok8 I (ix2 n k) = IntOp.andi 1#1 (Scalar.andi (Scalar.cmpi .sge (wrapE (I (ix2 n k))) 0#32)
      (Scalar.cmpi .sle (wrapE (I (ix2 n k))) 2097151#32)) := by
  unfold ok8
  rw [Host.reduce_eq_fold_single IntOp.andi _ _ hred8 hR8 (by decide) (ix2 n k)]
  have hu : (Finset.univ : Finset (Fin (SM81.size 2))) = {(⟨0, by decide⟩ : Fin (SM81.size 2))} := by
    ext z; simp only [Finset.mem_univ, Finset.mem_singleton, true_iff]
    refine Fin.ext ?_
    have := z.isLt; change z.val < 1 at this; show z.val = 0; omega
  rw [hu, Finset.fold_singleton, Function.comp_apply, lift8]
  show IntOp.andi (IntOp.andi (IntOp.cmpi .sge (start8 I (ix3 n k (0 : Fin 1))) 0#32)
      (IntOp.cmpi .sle (start8 I (ix3 n k (0 : Fin 1))) 2097151#32)) 1#1 = _
  rw [start8_apply]
  exact Std.Commutative.comm _ _

theorem take8_apply (T : FVec F SF .f32) (I : IVec SM8 32) (n : Fin 2002944) (k : Fin 8) (c : Fin 16) :
    take8 T I (ix3 n k c) = takeElt T (I (ix2 n k)) c := by
  unfold take8 takeElt
  rw [select_apply, gather8_apply_at T (start8 I) n k c _ (start8_apply I n k 0),
    broadcastInDim_apply _ _ (ok8 I) (ix3 n k c) (ix2 n k) (fun a => by
      match a with
      | ⟨0, _⟩ => rfl
      | ⟨1, _⟩ => rfl), ok8_apply]
  rfl

/-! ### The [N] take read at an index -/

/-- The wrapped row numbers read at an index are the element wrap. -/
theorem wrap1_apply (I : IVec SN 32) (j : SN.Idx) : wrap1 I j = wrapE (I j) := rfl

/-- The start indices at (n, z) are the wrapped row number at n. -/
theorem start1_apply (I : IVec SN 32) (n : Fin 2000000) (z : Fin 1) :
    start1 I (ix2 n z) = wrapE (I (ix1 n)) := by
  unfold start1
  rw [broadcastInDim_apply _ _ _ (ix2 n z) (ix1 n) (fun a => by
    match a with
    | ⟨0, _⟩ => rfl)]
  rfl

theorem hR1 : SN1.Reduces [1] SN := by decide

/-- The only index of the start indices over n. -/
theorem lift1 (n : Fin 2000000) (z : Fin (SN1.size 1)) : hR1.lift (ix1 n) z = ix2 n (0 : Fin 1) := by
  funext c; refine Fin.ext ?_
  have hz : z.val = 0 := by have := z.isLt; change z.val < 1 at this; omega
  match c with
  | ⟨0, _⟩ => rfl
  | ⟨1, _⟩ => exact hz

/-- The in-range bit at n: the and, from 1, of the one pair of comparisons over n. -/
theorem ok1_apply (I : IVec SN 32) (n : Fin 2000000) :
    ok1 I (ix1 n) = IntOp.andi 1#1 (Scalar.andi (Scalar.cmpi .sge (wrapE (I (ix1 n))) 0#32)
      (Scalar.cmpi .sle (wrapE (I (ix1 n))) 2097151#32)) := by
  unfold ok1
  rw [Host.reduce_eq_fold_single IntOp.andi _ _ hred1 hR1 (by decide) (ix1 n)]
  have hu : (Finset.univ : Finset (Fin (SN1.size 1))) = {(⟨0, by decide⟩ : Fin (SN1.size 1))} := by
    ext z; simp only [Finset.mem_univ, Finset.mem_singleton, true_iff]
    refine Fin.ext ?_
    have := z.isLt; change z.val < 1 at this; show z.val = 0; omega
  rw [hu, Finset.fold_singleton, Function.comp_apply, lift1]
  show IntOp.andi (IntOp.andi (IntOp.cmpi .sge (start1 I (ix2 n (0 : Fin 1))) 0#32)
      (IntOp.cmpi .sle (start1 I (ix2 n (0 : Fin 1))) 2097151#32)) 1#1 = _
  rw [start1_apply]
  exact Std.Commutative.comm _ _

theorem take1_apply (T : FVec F SF .f32) (I : IVec SN 32) (n : Fin 2000000) (c : Fin 16) :
    take1 T I (ix2 n c) = takeElt T (I (ix1 n)) c := by
  unfold take1 takeElt
  rw [select_apply, gather1_apply_at T (start1 I) n c _ (start1_apply I n 0),
    broadcastInDim_apply _ _ (ok1 I) (ix2 n c) (ix1 n) (fun a => by
      match a with
      | ⟨0, _⟩ => rfl), ok1_apply]
  rfl

/-! ### The two padded operands on an unpadded row -/

/-- A vector as a one-column matrix, read at (m, z). -/
theorem colOf_apply {α : Type} (x : SN.Idx → α) (m : Fin 2000000) (z : Fin 1) : colOf x (ix2 m z) = x (ix1 m) := by
  unfold colOf
  exact broadcastInDim_apply _ _ x (ix2 m z) (ix1 m) (fun a => by
    match a with
    | ⟨0, _⟩ => rfl)

/-- Piece `kk` of one-column pieces laid side by side into eight columns, read at column `kk` of row `m`. -/
theorem cat8_piece {α : Type} (xs : List ((s : Shape) × (s.Idx → α))) (h : Shape.Concatenates (xs.map (·.1)) SN8 1)
    (m : Fin 2000000) (kk : Nat) (hk8 : kk < 8) (hk : kk < xs.length) (g : SN1.Idx → α) (hxk : xs[kk] = ⟨SN1, g⟩)
    (hpre : (((xs.take kk).map (·.1)).map
      fun s => if h : s.rank = SN8.rank then s.size ((1 : Fin SN8.rank).cast h.symm) else 0).sum = kk) :
    concatenate SN8 1 xs h (ix2 m (⟨kk, hk8⟩ : Fin 8)) = g (ix2 m (0 : Fin 1)) :=
  concatenate_apply_piece (t := SN8) 1 xs h (ix2 m (⟨kk, hk8⟩ : Fin 8)) kk hk SN1 g hxk rfl kk hpre (ix2 m (0 : Fin 1))
    (fun b hb => by
      match b with
      | ⟨0, _⟩ => rfl
      | ⟨1, _⟩ => exact absurd rfl hb) rfl

/-- Eight one-column pieces side by side: column `k` of row `m` is piece `k` at `(m, 0)`. -/
theorem cat8_apply {α : Type} (f : Fin 8 → SN1.Idx → α) (m : Fin 2000000) (k : Fin 8) :
    concatenate SN8 1 [⟨SN1, f 0⟩, ⟨SN1, f 1⟩, ⟨SN1, f 2⟩, ⟨SN1, f 3⟩, ⟨SN1, f 4⟩, ⟨SN1, f 5⟩, ⟨SN1, f 6⟩, ⟨SN1, f 7⟩]
      hcat8 (ix2 m k) = f k (ix2 m (0 : Fin 1)) := by
  match k with
  | ⟨0, _⟩ => exact cat8_piece [⟨SN1, f 0⟩, ⟨SN1, f 1⟩, ⟨SN1, f 2⟩, ⟨SN1, f 3⟩, ⟨SN1, f 4⟩, ⟨SN1, f 5⟩, ⟨SN1, f 6⟩, ⟨SN1, f 7⟩] hcat8 m 0 (by decide) (by show (0 : Nat) < 8; omega) (f 0) rfl rfl
  | ⟨1, _⟩ => exact cat8_piece [⟨SN1, f 0⟩, ⟨SN1, f 1⟩, ⟨SN1, f 2⟩, ⟨SN1, f 3⟩, ⟨SN1, f 4⟩, ⟨SN1, f 5⟩, ⟨SN1, f 6⟩, ⟨SN1, f 7⟩] hcat8 m 1 (by decide) (by show (1 : Nat) < 8; omega) (f 1) rfl rfl
  | ⟨2, _⟩ => exact cat8_piece [⟨SN1, f 0⟩, ⟨SN1, f 1⟩, ⟨SN1, f 2⟩, ⟨SN1, f 3⟩, ⟨SN1, f 4⟩, ⟨SN1, f 5⟩, ⟨SN1, f 6⟩, ⟨SN1, f 7⟩] hcat8 m 2 (by decide) (by show (2 : Nat) < 8; omega) (f 2) rfl rfl
  | ⟨3, _⟩ => exact cat8_piece [⟨SN1, f 0⟩, ⟨SN1, f 1⟩, ⟨SN1, f 2⟩, ⟨SN1, f 3⟩, ⟨SN1, f 4⟩, ⟨SN1, f 5⟩, ⟨SN1, f 6⟩, ⟨SN1, f 7⟩] hcat8 m 3 (by decide) (by show (3 : Nat) < 8; omega) (f 3) rfl rfl
  | ⟨4, _⟩ => exact cat8_piece [⟨SN1, f 0⟩, ⟨SN1, f 1⟩, ⟨SN1, f 2⟩, ⟨SN1, f 3⟩, ⟨SN1, f 4⟩, ⟨SN1, f 5⟩, ⟨SN1, f 6⟩, ⟨SN1, f 7⟩] hcat8 m 4 (by decide) (by show (4 : Nat) < 8; omega) (f 4) rfl rfl
  | ⟨5, _⟩ => exact cat8_piece [⟨SN1, f 0⟩, ⟨SN1, f 1⟩, ⟨SN1, f 2⟩, ⟨SN1, f 3⟩, ⟨SN1, f 4⟩, ⟨SN1, f 5⟩, ⟨SN1, f 6⟩, ⟨SN1, f 7⟩] hcat8 m 5 (by decide) (by show (5 : Nat) < 8; omega) (f 5) rfl rfl
  | ⟨6, _⟩ => exact cat8_piece [⟨SN1, f 0⟩, ⟨SN1, f 1⟩, ⟨SN1, f 2⟩, ⟨SN1, f 3⟩, ⟨SN1, f 4⟩, ⟨SN1, f 5⟩, ⟨SN1, f 6⟩, ⟨SN1, f 7⟩] hcat8 m 6 (by decide) (by show (6 : Nat) < 8; omega) (f 6) rfl rfl
  | ⟨7, _⟩ => exact cat8_piece [⟨SN1, f 0⟩, ⟨SN1, f 1⟩, ⟨SN1, f 2⟩, ⟨SN1, f 3⟩, ⟨SN1, f 4⟩, ⟨SN1, f 5⟩, ⟨SN1, f 6⟩, ⟨SN1, f 7⟩] hcat8 m 7 (by decide) (by show (7 : Nat) < 8; omega) (f 7) rfl rfl

/-- Piece `jj` of one-column pieces laid side by side into three columns, read at column `jj` of row `m`. -/
theorem cat3_piece {α : Type} (xs : List ((s : Shape) × (s.Idx → α))) (h : Shape.Concatenates (xs.map (·.1)) SP 1)
    (m : Fin 2000000) (jj : Nat) (hj3 : jj < 3) (hj : jj < xs.length) (g : SN1.Idx → α) (hxj : xs[jj] = ⟨SN1, g⟩)
    (hpre : (((xs.take jj).map (·.1)).map
      fun s => if h : s.rank = SP.rank then s.size ((1 : Fin SP.rank).cast h.symm) else 0).sum = jj) :
    concatenate SP 1 xs h (ix2 m (⟨jj, hj3⟩ : Fin 3)) = g (ix2 m (0 : Fin 1)) :=
  concatenate_apply_piece (t := SP) 1 xs h (ix2 m (⟨jj, hj3⟩ : Fin 3)) jj hj SN1 g hxj rfl jj hpre (ix2 m (0 : Fin 1))
    (fun b hb => by
      match b with
      | ⟨0, _⟩ => rfl
      | ⟨1, _⟩ => exact absurd rfl hb) rfl

/-- Three one-column pieces side by side: column `j` of row `m` is piece `j` at `(m, 0)`. -/
theorem cat3_apply {α : Type} (f : Fin 3 → SN1.Idx → α) (m : Fin 2000000) (j : Fin 3) :
    concatenate SP 1 [⟨SN1, f 0⟩, ⟨SN1, f 1⟩, ⟨SN1, f 2⟩] hcat3 (ix2 m j) = f j (ix2 m (0 : Fin 1)) := by
  match j with
  | ⟨0, _⟩ => exact cat3_piece [⟨SN1, f 0⟩, ⟨SN1, f 1⟩, ⟨SN1, f 2⟩] hcat3 m 0 (by decide) (by show (0 : Nat) < 3; omega) (f 0) rfl rfl
  | ⟨1, _⟩ => exact cat3_piece [⟨SN1, f 0⟩, ⟨SN1, f 1⟩, ⟨SN1, f 2⟩] hcat3 m 1 (by decide) (by show (1 : Nat) < 3; omega) (f 1) rfl rfl
  | ⟨2, _⟩ => exact cat3_piece [⟨SN1, f 0⟩, ⟨SN1, f 1⟩, ⟨SN1, f 2⟩] hcat3 m 2 (by decide) (by show (2 : Nat) < 3; omega) (f 2) rfl rfl

/-- On an unpadded row the padded row numbers are the corners' row numbers. -/
theorem idx8_apply (P : FVec F SP .f32) (n : Fin 2002944) (hn : n.val < 2000000) (k : Fin 8) :
    idx8 P (ix2 n k) = L P k (ix1 (⟨n.val, hn⟩ : Fin 2000000)) := by
  unfold idx8
  rw [pad_apply_of_inside _ _ _ _ _ _ _ (ix2 n k) (ix2 (⟨n.val, hn⟩ : Fin 2000000) k) (fun a => by
    match a with
    | ⟨0, _⟩ => show n.val = 0 + n.val * (0 + 1); omega
    | ⟨1, _⟩ => show k.val = 0 + k.val * (0 + 1); omega)]
  rw [cat8_apply (fun kk => colOf (L P kk)) ⟨n.val, hn⟩ k]
  exact colOf_apply _ _ _

/-- Offset `j` of the three. -/
def frJ (P : FVec F SP .f32) : Fin 3 → FVec F SN .f32
  | 0 => fr 0 hk0 P
  | 1 => fr 1 hk1 P
  | 2 => fr 2 hk2 P

/-- On an unpadded row the padded offsets are the offsets. -/
theorem frac3_apply (P : FVec F SP .f32) (n : Fin 2002944) (hn : n.val < 2000000) (j : Fin 3) :
    frac3 P (ix2 n j) = frJ P j (ix1 (⟨n.val, hn⟩ : Fin 2000000)) := by
  unfold frac3
  rw [pad_apply_of_inside _ _ _ _ _ _ _ (ix2 n j) (ix2 (⟨n.val, hn⟩ : Fin 2000000) j) (fun a => by
    match a with
    | ⟨0, _⟩ => show n.val = 0 + n.val * (0 + 1); omega
    | ⟨1, _⟩ => show j.val = 0 + j.val * (0 + 1); omega)]
  have e : (concatenate SP 1 [⟨SN1, colOf (fr 0 hk0 P)⟩, ⟨SN1, colOf (fr 1 hk1 P)⟩, ⟨SN1, colOf (fr 2 hk2 P)⟩] hcat3 :
      SP.Idx → F .f32) = concatenate SP 1 [⟨SN1, (fun jj => colOf (frJ P jj)) 0⟩, ⟨SN1, (fun jj => colOf (frJ P jj)) 1⟩,
        ⟨SN1, (fun jj => colOf (frJ P jj)) 2⟩] hcat3 := rfl
  rw [e, cat3_apply (fun jj => colOf (frJ P jj)) ⟨n.val, hn⟩ j]
  exact colOf_apply _ _ _

/-- Lane `16·k + c` of row `n` of `corners` is corner `k`'s channel `c`. -/
theorem corners_apply (P : FVec F SP .f32) (V : FVec F SV .f32) (n : Fin 2002944) (k : Fin 8) (c : Fin 16) :
    corners P V (ix2 n (⟨16 * k.val + c.val, by omega⟩ : Fin 128)) = take8 (flat V) (idx8 P) (ix3 n k c) := by
  unfold corners
  refine shapeCast_apply _ _ _ (ix3 n k c) ?_
  rw [Shape.rowMajor_val_three, Shape.rowMajor_val_two]
  show (n.val * 8 + k.val) * 16 + c.val = n.val * 128 + (16 * k.val + c.val)
  omega

/-! ### The reference's whole-array blend read at an index -/

/-- A column laid along the 16 channels, read at (n, c). -/
theorem bcol_apply {α : Type} (h : SN1.BroadcastsInDim SO ![0, 1]) (x : SN1.Idx → α) (n : Fin 2000000) (c : Fin 16) :
    broadcastInDim SO ![0, 1] h x (ix2 n c) = x (ix2 n (0 : Fin 1)) :=
  broadcastInDim_apply _ _ x (ix2 n c) (ix2 n (0 : Fin 1)) (fun a => by
    match a with
    | ⟨0, _⟩ => rfl
    | ⟨1, _⟩ => rfl)

/-- The whole-array blend step at (n, c) is the element blend step, its weight read at (n, 0). -/
theorem mix_apply (u v : FVec F SO .f32) (d : FVec F SN1 .f32) (n : Fin 2000000) (c : Fin 16) :
    mix u v d (ix2 n c) = mixE (u (ix2 n c)) (v (ix2 n c)) (d (ix2 n (0 : Fin 1))) := by
  unfold mix mixE
  show FloatOps.addf (FloatOps.mulf (u (ix2 n c)) (broadcastInDim SO ![0, 1] _
      (subf (broadcastInDim SN1 ![] _ (constant S0 .f32 0x3F800000#32)) d) (ix2 n c)))
    (FloatOps.mulf (v (ix2 n c)) (broadcastInDim SO ![0, 1] _ d (ix2 n c))) = _
  rw [bcol_apply, bcol_apply]
  rfl

/-- THE VALUE both programs compute: at point `n` and channel `c`, the trilinear blend of the eight corner rows'
    channel `c` by the point's three offsets. -/
def G (P : FVec F SP .f32) (V : FVec F SV .f32) : FVec F SO .f32 := fun i =>
  lerpE (fun k => takeElt (flat V) (L P k (ix1 (i 0))) (i 1))
    (fr 0 hk0 P (ix1 (i 0))) (fr 1 hk1 P (ix1 (i 0))) (fr 2 hk2 P (ix1 (i 0)))

/-- The reference's whole-array blend is `G`. -/
theorem refResult_eq_G (P : FVec F SP .f32) (V : FVec F SV .f32) : refResult P V = G P V := by
  funext i
  obtain ⟨n, c, rfl⟩ : ∃ (n : Fin 2000000) (c : Fin 16), i = ix2 n c := ⟨i 0, i 1, eq_ix2 i⟩
  unfold refResult blend G lerpE
  simp only [mix_apply, take1_apply, colOf_apply]

end Cert.Spec

end
-- ==== Proof.KernelValue.lean ====
/-
  The value of the kernel program's result array.

  A grid point `t` stores into rows `4096·t … 4096·t + 4095` of the padded output the blend, row by row and channel by
  channel, of that row's 128 gathered lanes by its three offsets (`out2_apply`). The 489 blocks tile the padded
  output, so after the launch it is one function of the two operands (`Gpad`, `final2`). The closing slice keeps the
  first 2,000,000 rows; there the operands are the unpadded row numbers and offsets, and a lane group is a taken row:
  the result is the common value `Cert.Spec.G` of the two argument arrays (`run_value`).
-/
import proofs.«429497_j74809740362345_4_alg».proof.Proof.KernelIdealFrame
import proofs.«429497_j74809740362345_4_alg».proof.Proof.KernelOperands
import proofs.«429497_j74809740362345_4_alg».proof.Proof.IndexLemmas
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ) (ρ : Dev nD → PrngReg)

/-! ## The body's payloads at a row and a channel -/

theorem origin2_eq : (![0, 0] : Fin 2 → Nat) = fun _ => 0 := funext fun a => by fin_cases a <;> rfl

/-- Lane `16·k + ch` of a row. -/
abbrev lane (k : Fin 8) (ch : Fin 16) : Fin 128 := ⟨16 * k.val + ch.val, by omega⟩

/-- A column broadcast along the 16 channels reads the column at the row. -/
theorem colBroadcast_apply (v : FVec F S4096x1 .f32) (r : Fin 4096) (ch : Fin 16) :
    broadcastTo S4096x16 v broadcasts_S4096x1_S4096x16 (ix2 r ch) = v (ix2 r (0 : Fin 1)) := by
  refine broadcastTo_apply v _ (ix2 r ch) (ix2 r (0 : Fin 1)) fun ax => ?_
  match ax with
  | ⟨0, _⟩ => rfl
  | ⟨1, _⟩ => rfl

/-- The blend `u·(1 − d) + v·d` of two 16-channel blocks by a column, at a row and a channel. -/
theorem blendCol_apply (u v : FVec F S4096x16 .f32) (d : FVec F S4096x1 .f32) (r : Fin 4096) (ch : Fin 16) :
    addf (mulf u (broadcastTo S4096x16 (subf (broadcast S4096x1 (Scalar.ofBits .f32 0x3F800000#32)) d) broadcasts_S4096x1_S4096x16))
        (mulf v (broadcastTo S4096x16 d broadcasts_S4096x1_S4096x16)) (ix2 r ch)
      = Cert.Spec.mixE (u (ix2 r ch)) (v (ix2 r ch)) (d (ix2 r (0 : Fin 1))) := by
  show FloatOps.addf (FloatOps.mulf (u (ix2 r ch)) (broadcastTo S4096x16 _ broadcasts_S4096x1_S4096x16 (ix2 r ch)))
      (FloatOps.mulf (v (ix2 r ch)) (broadcastTo S4096x16 d broadcasts_S4096x1_S4096x16 (ix2 r ch))) = _
  rw [colBroadcast_apply, colBroadcast_apply]
  rfl

/-- The lane block as loaded is the block. -/
theorem pay2_eq (x0 : Vec F S4096x128 .f32) : k0_pay2 x0 = x0 := shapeCast_self x0 _
/-- The offset block as loaded is the block. -/
theorem pay3_eq (x1 : Vec F S4096x3 .f32) : k0_pay3 x1 = x1 := shapeCast_self x1 _

/-- The three offset columns at a row. -/
theorem pay4_apply (x1 : Vec F S4096x3 .f32) (r : Fin 4096) : k0_pay4 x1 (ix2 r (0 : Fin 1)) = x1 (ix2 r (0 : Fin 3)) := by
  unfold k0_pay4
  rw [pay3_eq]
  exact slice2_axis1_apply 0 x1 _ r (0 : Fin 1) (0 : Fin 3) rfl
theorem pay5_apply (x1 : Vec F S4096x3 .f32) (r : Fin 4096) : k0_pay5 x1 (ix2 r (0 : Fin 1)) = x1 (ix2 r (1 : Fin 3)) := by
  unfold k0_pay5
  rw [pay3_eq]
  exact slice2_axis1_apply 1 x1 _ r (0 : Fin 1) (1 : Fin 3) rfl
theorem pay6_apply (x1 : Vec F S4096x3 .f32) (r : Fin 4096) : k0_pay6 x1 (ix2 r (0 : Fin 1)) = x1 (ix2 r (2 : Fin 3)) := by
  unfold k0_pay6
  rw [pay3_eq]
  exact slice2_axis1_apply 2 x1 _ r (0 : Fin 1) (2 : Fin 3) rfl

/-- Lane group `k` of the lane block at a row and a channel. -/
theorem group_apply (x0 : Vec F S4096x128 .f32) (k : Fin 8) (o : Nat) (ho : o = 16 * k.val) (h : S4096x128.Slices ![0, o] S4096x16)
    (r : Fin 4096) (ch : Fin 16) :
    extractStridedSlice S4096x16 ![0, o] (k0_pay2 x0) h (ix2 r ch) = x0 (ix2 r (lane k ch)) := by
  rw [pay2_eq]
  exact slice2_axis1_apply o x0 h r ch (lane k ch) (by rw [ho])

/-- Groups 1 and 5 blended along x. -/
theorem pay7_apply (x0 : Vec F S4096x128 .f32) (x1 : Vec F S4096x3 .f32) (r : Fin 4096) (ch : Fin 16) :
    k0_pay7 x0 x1 (ix2 r ch)
      = Cert.Spec.mixE (x0 (ix2 r (lane 1 ch))) (x0 (ix2 r (lane 5 ch))) (x1 (ix2 r (0 : Fin 3))) := by
  unfold k0_pay7
  refine (blendCol_apply _ _ _ r ch).trans ?_
  rw [group_apply x0 1 16 rfl, group_apply x0 5 80 rfl, pay4_apply]

/-- Groups 3 and 7 blended along x. -/
theorem pay8_apply (x0 : Vec F S4096x128 .f32) (x1 : Vec F S4096x3 .f32) (r : Fin 4096) (ch : Fin 16) :
    k0_pay8 x0 x1 (ix2 r ch)
      = Cert.Spec.mixE (x0 (ix2 r (lane 3 ch))) (x0 (ix2 r (lane 7 ch))) (x1 (ix2 r (0 : Fin 3))) := by
  unfold k0_pay8
  refine (blendCol_apply _ _ _ r ch).trans ?_
  rw [group_apply x0 3 48 rfl, group_apply x0 7 112 rfl, pay4_apply]

/-- Groups 0, 4 and 2, 6 blended along x, then the two along y. -/
theorem pay9_apply (x0 : Vec F S4096x128 .f32) (x1 : Vec F S4096x3 .f32) (r : Fin 4096) (ch : Fin 16) :
    k0_pay9 x0 x1 (ix2 r ch)
      = Cert.Spec.mixE (Cert.Spec.mixE (x0 (ix2 r (lane 0 ch))) (x0 (ix2 r (lane 4 ch))) (x1 (ix2 r (0 : Fin 3))))
          (Cert.Spec.mixE (x0 (ix2 r (lane 2 ch))) (x0 (ix2 r (lane 6 ch))) (x1 (ix2 r (0 : Fin 3)))) (x1 (ix2 r (1 : Fin 3))) := by
  unfold k0_pay9
  refine (blendCol_apply _ _ _ r ch).trans ?_
  rw [blendCol_apply, blendCol_apply, group_apply x0 0 0 rfl, group_apply x0 4 64 rfl, group_apply x0 2 32 rfl, group_apply x0 6 96 rfl,
    pay4_apply, pay5_apply]

/-- The stored value: the x-then-y blends of the odd groups blended along y, then everything along z. -/
theorem pay1_apply (v5 v6 : FVec F S4096x1 .f32) (v28 v42 v49 : FVec F S4096x16 .f32) (r : Fin 4096) (ch : Fin 16) :
    k0_pay1 v5 v6 v28 v42 v49 (ix2 r ch)
      = Cert.Spec.mixE (v49 (ix2 r ch)) (Cert.Spec.mixE (v28 (ix2 r ch)) (v42 (ix2 r ch)) (v5 (ix2 r (0 : Fin 1)))) (v6 (ix2 r (0 : Fin 1))) := by
  unfold k0_pay1
  refine (blendCol_apply _ _ _ r ch).trans ?_
  rw [blendCol_apply]

/-- The output block at row `r`, channel `ch`: the blend of the row's eight lane groups' channel `ch` by the row's
    three offsets. -/
theorem out2_apply (x0 : Vec F S4096x128 .f32) (x1 : Vec F S4096x3 .f32) (r : Fin 4096) (ch : Fin 16) :
    out2 x0 x1 (ix2 r ch)
      = Cert.Spec.lerpE (fun k : Fin 8 => x0 (ix2 r (⟨16 * k.val + ch.val, by omega⟩ : Fin 128)))
          (x1 (ix2 r (0 : Fin 3))) (x1 (ix2 r (1 : Fin 3))) (x1 (ix2 r (2 : Fin 3))) := by
  unfold out2
  rw [View.canon_unit_zero origin2_eq]
  simp only [View.ld_unit_zero (S := S4096x128) origin2_eq, View.ld_unit_zero (S := S4096x3) origin2_eq]
  rw [pay1_apply, pay5_apply, pay6_apply, pay7_apply, pay8_apply, pay9_apply]
  rfl

/-! ## From the blocks to the padded output -/

/-- The three index maps, decided over the 489 points: every window's block at point `t` is row block `t`, column block 0. -/
theorem block_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Block `t` of an array of 128-lane rows, read at a row and a lane, is the array at row `4096·t + r`. -/
theorem blk0_read (X : S2002944x128.Idx → F .f32) (t : Fin cfg0.N) (r : Fin 4096) (l : Fin 128) (n : Fin 2002944)
    (hn : n.val = 4096 * t.val + r.val) :
    (((cfg0.win 0).blk t).view.read (Elt F) X : Vec F S4096x128 .f32) (ix2 r l) = X (ix2 n l) := by
  obtain ⟨e0, e1, -⟩ := block_index_facts t
  rw [View.read_apply]
  refine congrArg X (funext fun a => Fin.ext ?_)
  match a with
  | ⟨0, _⟩ => show win0_0.index t 0 * 4096 + 1 * r.val = n.val; rw [e0, hn]; omega
  | ⟨1, _⟩ => show win0_0.index t 1 * 128 + 1 * l.val = l.val; rw [e1]; omega

/-- Block `t` of an array of 3-offset rows, likewise. -/
theorem blk1_read (X : S2002944x3.Idx → F .f32) (t : Fin cfg0.N) (r : Fin 4096) (j : Fin 3) (n : Fin 2002944)
    (hn : n.val = 4096 * t.val + r.val) :
    (((cfg0.win 1).blk t).view.read (Elt F) X : Vec F S4096x3 .f32) (ix2 r j) = X (ix2 n j) := by
  obtain ⟨-, -, e0, e1, -⟩ := block_index_facts t
  rw [View.read_apply]
  refine congrArg X (funext fun a => Fin.ext ?_)
  match a with
  | ⟨0, _⟩ => show win0_1.index t 0 * 4096 + 1 * r.val = n.val; rw [e0, hn]; omega
  | ⟨1, _⟩ => show win0_1.index t 1 * 3 + 1 * j.val = j.val; rw [e1]; omega

/-- The lane block at point `t` is rows `4096·t …` of the first operand. -/
theorem iblk0_apply (c : Dev nD) (t : Fin cfg0.N) (r : Fin 4096) (l : Fin 128) (n : Fin 2002944) (hn : n.val = 4096 * t.val + r.val) :
    (iblk m c 0 t : Vec F S4096x128 .f32) (ix2 r l) = (V m c main_v97 : S2002944x128.Idx → F .f32) (ix2 n l) := by
  unfold iblk
  exact blk0_read (V m c main_v97) t r l n hn

/-- The offset block at point `t` is rows `4096·t …` of the second operand. -/
theorem iblk1_apply (c : Dev nD) (t : Fin cfg0.N) (r : Fin 4096) (j : Fin 3) (n : Fin 2002944) (hn : n.val = 4096 * t.val + r.val) :
    (iblk m c 1 t : Vec F S4096x3 .f32) (ix2 r j) = (V m c main_v94 : S2002944x3.Idx → F .f32) (ix2 n j) := by
  unfold iblk
  exact blk1_read (V m c main_v94) t r j n hn

/-- The padded output at row `n`, channel `ch`, from the two launch operands. -/
def GpadAt (A : S2002944x128.Idx → F .f32) (B : S2002944x3.Idx → F .f32) (n : Fin 2002944) (ch : Fin 16) : F .f32 :=
  Cert.Spec.lerpE (fun k : Fin 8 => A (ix2 n (⟨16 * k.val + ch.val, by omega⟩ : Fin 128)))
    (B (ix2 n (0 : Fin 3))) (B (ix2 n (1 : Fin 3))) (B (ix2 n (2 : Fin 3)))

/-- The padded output as one function of the two launch operands. -/
def Gpad (A : S2002944x128.Idx → F .f32) (B : S2002944x3.Idx → F .f32) : S2002944x16.Idx → F .f32 :=
  fun i => GpadAt A B ⟨(i 0).val, idx2_lt0 i⟩ ⟨(i 1).val, idx2_lt1 i⟩

/-- The body's result on two blocks that are rows `4096·q …` of two arrays is the padded output's rows there. -/
theorem out2_of_blocks (A : S2002944x128.Idx → F .f32) (B : S2002944x3.Idx → F .f32)
    (x0 : Vec F S4096x128 .f32) (x1 : Vec F S4096x3 .f32) (q : Nat)
    (h0 : ∀ (r : Fin 4096) (l : Fin 128) (n : Fin 2002944), n.val = 4096 * q + r.val → x0 (ix2 r l) = A (ix2 n l))
    (h1 : ∀ (r : Fin 4096) (j : Fin 3) (n : Fin 2002944), n.val = 4096 * q + r.val → x1 (ix2 r j) = B (ix2 n j))
    (r : Fin 4096) (ch : Fin 16) (n : Fin 2002944) (hn : n.val = 4096 * q + r.val) :
    out2 x0 x1 (ix2 r ch) = GpadAt A B n ch := by
  rw [out2_apply]
  unfold GpadAt
  simp only [h0 r _ n hn, h1 r _ n hn]

/-- What point `t` writes back is block `t` of the padded output. -/
theorem flushed2_eq (c : Dev nD) (t : Fin cfg0.N) :
    (dats m 0 c).flushed 2 t = ((cfg0.win 2).blk t).view.read (Elt F) (Gpad (V m c main_v97) (V m c main_v94)) := by
  show (cfg0.win 2).cut (grid0.coords t) ((dats m 0 c).after 2 t) = _
  rw [after0_2]
  obtain ⟨-, -, -, -, e0, e1⟩ := block_index_facts t
  have hN : cfg0.N = 489 := N_0
  have ht : t.val < 489 := by have := t.isLt; omega
  funext j
  have hj0 : (j 0).val < 4096 := (j 0).isLt
  have hj1 : (j 1).val < 16 := (j 1).isLt
  have ej : (cfg0.win 2).xinj (grid0.coords t) j = ix2 (⟨(j 0).val, hj0⟩ : Fin 4096) (⟨(j 1).val, hj1⟩ : Fin 16) := by
    funext a; apply Fin.ext
    match a with
    | ⟨0, _⟩ => rfl
    | ⟨1, _⟩ => rfl
  rw [View.read_apply]
  show out2 (iblk m c 0 t) (iblk m c 1 t) ((cfg0.win 2).xinj (grid0.coords t) j) = Gpad (V m c main_v97) (V m c main_v94) (((cfg0.win 2).blk t).view.emb j)
  rw [ej]
  refine (out2_of_blocks (V m c main_v97) (V m c main_v94) (iblk m c 0 t) (iblk m c 1 t) t.val
    (fun r l n hn => iblk0_apply m c t r l n hn) (fun r j n hn => iblk1_apply m c t r j n hn)
    ⟨(j 0).val, hj0⟩ ⟨(j 1).val, hj1⟩ ⟨4096 * t.val + (j 0).val, by omega⟩ rfl).trans ?_
  unfold Gpad
  refine congrArg₂ (GpadAt (V m c main_v97) (V m c main_v94)) (Fin.ext ?_) (Fin.ext ?_)
  · show 4096 * t.val + (j 0).val = win0_2.index t 0 * 4096 + 1 * (j 0).val; rw [e0]; omega
  · show (j 1).val = win0_2.index t 1 * 16 + 1 * (j 1).val; rw [e1]; omega

/-- An index of the padded output is in point `t`'s block iff each coordinate is in the block's range. -/
theorem mem_blk2 (t : Fin cfg0.N) (i : S2002944x16.Idx) :
    i ∈ ((cfg0.win 2).blk t).view.set ↔ ∀ a : Fin 2, win0_2.index t a * S4096x16.size a ≤ (i a).val ∧ (i a).val < win0_2.index t a * S4096x16.size a + S4096x16.size a := by
  show i ∈ ((View.whole main_v98).slice (win0_2.rect t)).set ↔ _
  rw [View.set_slice_whole, Rect.mem_set_unit]
  exact Iff.rfl

/-- Row `n` is in the block of point `n / 4096`: the 489 blocks cover the 2,002,944 rows. -/
theorem cover2 (i : S2002944x16.Idx) : ∃ t : Fin cfg0.N, (cfg0.win 2).flush t = true ∧ i ∈ ((cfg0.win 2).blk t).view.set := by
  have hi0 : (i 0).val < 2002944 := (i 0).isLt
  have hi1 : (i 1).val < 16 := (i 1).isLt
  have hN : cfg0.N = 489 := N_0
  have hq : (i 0).val / 4096 < cfg0.N := by rw [hN]; omega
  refine ⟨⟨(i 0).val / 4096, hq⟩, flush0_2 _, ?_⟩
  rw [mem_blk2]
  obtain ⟨-, -, -, -, e0, e1⟩ := block_index_facts ⟨(i 0).val / 4096, hq⟩
  intro a
  match a with
  | ⟨0, _⟩ =>
    show win0_2.index ⟨(i 0).val / 4096, hq⟩ 0 * 4096 ≤ (i 0).val ∧ (i 0).val < win0_2.index ⟨(i 0).val / 4096, hq⟩ 0 * 4096 + 4096
    rw [e0]; show (i 0).val / 4096 * 4096 ≤ (i 0).val ∧ (i 0).val < (i 0).val / 4096 * 4096 + 4096; omega
  | ⟨1, _⟩ =>
    show win0_2.index ⟨(i 0).val / 4096, hq⟩ 1 * 16 ≤ (i 1).val ∧ (i 1).val < win0_2.index ⟨(i 0).val / 4096, hq⟩ 1 * 16 + 16
    rw [e1]; omega

/-- After the launch the output array is `Gpad` of the operands as the launch found them. -/
theorem final2 (c : Dev nD) :
    ((dats m 0 c).arrAt 2 cfg0.N : S2002944x16.Idx → F .f32) = Gpad (V m c main_v97) (V m c main_v94) := by
  exact (dats m 0 c).arrAt_eq_of_cover 2 (Gpad (V m c main_v97) (V m c main_v94)) (fun t _ => flushed2_eq m c t) cover2

/-! ## The closing slice and the common value -/

/-- After the closing slice the result array is the first 2,000,000 rows of the padded output. -/
theorem tail_v99 (c : Dev nD) :
    (Pipeline.afterTail₀ cfgs (dats m) 0 (V0 m) [hostOps1] c main_v99 : S2000000x16.Idx → F .f32)
      = extractStridedSlice S2000000x16 ![0, 0] (Gpad (V m c main_v97) (V m c main_v94)) slices_S2002944x16_S2000000x16_0_0 := by
  have e : Pipeline.withArrays spec0 c (V0 m c) (fun w => (dats m 0 c).arrAt w cfg0.N) (Proc.devRef .tc (Pipeline.arrRef spec0 2))
      = Gpad (V m c main_v97) (V m c main_v94) :=
    (Pipeline.withArrays_arr spec0 launch0.win.arr_inj c (V0 m c) (fun w => (dats m 0 c).arrAt w cfg0.N) 2).trans (final2 m c)
  unfold Pipeline.afterTail₀
  show StableHlo.after hostOps1 _ (Proc.devRef .tc main_v99) = _
  after_results
  exact congrArg (fun X => extractStridedSlice S2000000x16 ![0, 0] X slices_S2002944x16_S2000000x16_0_0) e

/-- On an unpadded row the padded output of the two launch operands is the common value of the two argument arrays. -/
theorem GpadAt_spec (P : FVec F Cert.Spec.SP .f32) (T : FVec F Cert.Spec.SV .f32) (n : Fin 2000000) (ch : Fin 16) :
    GpadAt (Cert.Spec.corners P T) (Cert.Spec.frac3 P) (⟨n.val, by omega⟩ : Fin 2002944) ch = Cert.Spec.G P T (ix2 n ch) := by
  unfold GpadAt
  simp only [Cert.Spec.corners_apply, Cert.Spec.take8_apply,
    Cert.Spec.idx8_apply P (⟨n.val, by omega⟩ : Fin 2002944) n.isLt, Cert.Spec.frac3_apply P (⟨n.val, by omega⟩ : Fin 2002944) n.isLt]
  rfl

/-- Every weakly fair execution terminates with the result array at the common value of the two argument arrays, and
    the argument arrays as given. -/
theorem run_value :
    θ_run defs (onTc (τ := τ) (main (F := F))) ⟨m, fun _ => 0, ρ⟩ (fun r => ∀ c : Dev nD,
      (r.2.mem ((c.tc : Thread nD τ).loc main_v99) : S2000000x16.Idx → F .f32)
          = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · refine ((h c).2 main_v99 (Pipeline.mem_restRefs_of main_v99 (by decide) (by decide))).trans ?_
    refine (tail_v99 m c).trans ?_
    rw [V_main_v97, V_main_v94]
    funext i
    obtain ⟨n, ch, rfl⟩ : ∃ (n : Fin 2000000) (ch : Fin 16), i = ix2 n ch := ⟨i 0, i 1, eq_ix2 i⟩
    refine (slice2_axis0_apply 0 _ _ n ch (⟨n.val, by omega⟩ : Fin 2002944) (by simp)).trans ?_
    exact GpadAt_spec _ _ n ch
  · exact ((h c).2 main_arg0 (Pipeline.mem_restRefs_of main_arg0 (by decide) (by decide))).trans
      ((afterTail_of_arg m c main_arg0 (Or.inl rfl)).trans (V_main_arg0 m c))
  · exact ((h c).2 main_arg1 (Pipeline.mem_restRefs_of main_arg1 (by decide) (by decide))).trans
      ((afterTail_of_arg m c main_arg1 (Or.inr rfl)).trans (V_main_arg1 m c))

end Cert.KernelIdeal.Hand

end
-- ==== Proof.RefOps.lean ====
/-
  The reference program's @main as the LIST of its host operations, in execution order: the operations of @main's own
  lines, and at each call of @clip or @_take the callee's operations over that call's buffers (for @_take the one
  select of the nested @_where in its place). The list is cut at every call: a part per stretch of @main's own
  operations and a part per call; a window of @main is the concatenation of its parts, the whole the concatenation of the windows.
-/
import proofs.«429497_j74809740362345_4_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 13 operations: a stretch of @main's own operations (window 0). -/
abbrev opsM0_0 : List (HloOp τ sig (Elt F)) :=
  [ StableHlo.nullary main_cst (constant S_ .f32 0x3D4CCCCD#32),
    StableHlo.unary main_cst main_v0 (broadcastInDim S2000000x3 ![] bcast_S_S2000000x3 : (⟨S_, .f32⟩ : BufTy).Contents (Elt F) → (⟨S2000000x3, .f32⟩ : BufTy).Contents (Elt F)),
    StableHlo.binary main_arg0 main_v0 main_v1 (Host.divf : (⟨S2000000x3, .f32⟩ : BufTy).Contents (Elt F) → (⟨S2000000x3, .f32⟩ : BufTy).Contents (Elt F) → (⟨S2000000x3, .f32⟩ : BufTy).Contents (Elt F)),
    StableHlo.unary main_v1 main_v2 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v2 main_v3 rfl shapeCasts_S2000000x1_S2000000,
    StableHlo.unary main_v1 main_v4 ((extractStridedSlice S2000000x1 ![0, 1] · slices_S2000000x3_S2000000x1_0_1) : (⟨S2000000x3, .f32⟩ : BufTy).Contents (Elt F) → (⟨S2000000x1, .f32⟩ : BufTy).Contents (Elt F)),
    StableHlo.reshape main_v4 main_v5 rfl shapeCasts_S2000000x1_S2000000,
    StableHlo.unary main_v1 main_v6 ((extractStridedSlice S2000000x1 ![0, 2] · slices_S2000000x3_S2000000x1_0_2) : (⟨S2000000x3, .f32⟩ : BufTy).Contents (Elt F) → (⟨S2000000x1, .f32⟩ : BufTy).Contents (Elt F)),
    StableHlo.reshape main_v6 main_v7 rfl shapeCasts_S2000000x1_S2000000,
    StableHlo.unary main_v3 main_v8 (Host.floor : (⟨S2000000, .f32⟩ : BufTy).Contents (Elt F) → (⟨S2000000, .f32⟩ : BufTy).Contents (Elt F)),
    StableHlo.unary main_v8 main_v9 (fptosi 32 : (⟨S2000000, .f32⟩ : BufTy).Contents (Elt F) → (⟨S2000000, .i32⟩ : BufTy).Contents (Elt F)),
    StableHlo.nullary main_c (constantI S_ 32 0#32),
    StableHlo.nullary main_c_0 (constantI S_ 32 127#32) ]

/-- 6 operations: the operations of @clip inlined at %10 = func.call @clip over the record main_call0. -/
abbrev opsC0 : List (HloOp τ sig (Elt F)) :=
  [ StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S2000000, .i32⟩) (broadcastInDim S2000000 ![] bcast_S_S2000000),
    StableHlo.TRef.binary (.of main_call0_v1 : StableHlo.TRef sig ⟨S2000000, .i32⟩) (.of main_v9 : StableHlo.TRef sig ⟨S2000000, .i32⟩) (.of main_call0_v2 : StableHlo.TRef sig ⟨S2000000, .i32⟩) maxsi,
    StableHlo.TRef.unary (.of main_c_0 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S2000000, .i32⟩) (broadcastInDim S2000000 ![] bcast_S_S2000000),
    StableHlo.TRef.binary (.of main_call0_v4 : StableHlo.TRef sig ⟨S2000000, .i32⟩) (.of main_call0_v2 : StableHlo.TRef sig ⟨S2000000, .i32⟩) (.of main_v10 : StableHlo.TRef sig ⟨S2000000, .i32⟩) minsi ]

/-- 4 operations: a stretch of @main's own operations (window 0). -/
abbrev opsM0_1 : List (HloOp τ sig (Elt F)) :=
  [ StableHlo.unary main_v5 main_v11 (Host.floor : (⟨S2000000, .f32⟩ : BufTy).Contents (Elt F) → (⟨S2000000, .f32⟩ : BufTy).Contents (Elt F)),
    StableHlo.unary main_v11 main_v12 (fptosi 32 : (⟨S2000000, .f32⟩ : BufTy).Contents (Elt F) → (⟨S2000000, .i32⟩ : BufTy).Contents (Elt F)),
    StableHlo.nullary main_c_1 (constantI S_ 32 0#32),
    StableHlo.nullary main_c_2 (constantI S_ 32 127#32) ]

/-- 6 operations: the operations of @clip inlined at %13 = func.call @clip over the record main_call1. -/
abbrev opsC1 : List (HloOp τ sig (Elt F)) :=
  [ StableHlo.TRef.unary (.of main_c_1 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S2000000, .i32⟩) (broadcastInDim S2000000 ![] bcast_S_S2000000),
    StableHlo.TRef.binary (.of main_call1_v1 : StableHlo.TRef sig ⟨S2000000, .i32⟩) (.of main_v12 : StableHlo.TRef sig ⟨S2000000, .i32⟩) (.of main_call1_v2 : StableHlo.TRef sig ⟨S2000000, .i32⟩) maxsi,
    StableHlo.TRef.unary (.of main_c_2 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S2000000, .i32⟩) (broadcastInDim S2000000 ![] bcast_S_S2000000),
    StableHlo.TRef.binary (.of main_call1_v4 : StableHlo.TRef sig ⟨S2000000, .i32⟩) (.of main_call1_v2 : StableHlo.TRef sig ⟨S2000000, .i32⟩) (.of main_v13 : StableHlo.TRef sig ⟨S2000000, .i32⟩) minsi ]

/-- 4 operations: a stretch of @main's own operations (window 0). -/
abbrev opsM0_2 : List (HloOp τ sig (Elt F)) :=
  [ StableHlo.unary main_v7 main_v14 (Host.floor : (⟨S2000000, .f32⟩ : BufTy).Contents (Elt F) → (⟨S2000000, .f32⟩ : BufTy).Contents (Elt F)),
    StableHlo.unary main_v14 main_v15 (fptosi 32 : (⟨S2000000, .f32⟩ : BufTy).Contents (Elt F) → (⟨S2000000, .i32⟩ : BufTy).Contents (Elt F)),
    StableHlo.nullary main_c_3 (constantI S_ 32 0#32),
    StableHlo.nullary main_c_4 (constantI S_ 32 127#32) ]

/-- 6 operations: the operations of @clip inlined at %16 = func.call @clip over the record main_call2. -/
abbrev opsC2 : List (HloOp τ sig (Elt F)) :=
  [ StableHlo.TRef.unary (.of main_c_3 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S2000000, .i32⟩) (broadcastInDim S2000000 ![] bcast_S_S2000000),
    StableHlo.TRef.binary (.of main_call2_v1 : StableHlo.TRef sig ⟨S2000000, .i32⟩) (.of main_v15 : StableHlo.TRef sig ⟨S2000000, .i32⟩) (.of main_call2_v2 : StableHlo.TRef sig ⟨S2000000, .i32⟩) maxsi,
    StableHlo.TRef.unary (.of main_c_4 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S2000000, .i32⟩) (broadcastInDim S2000000 ![] bcast_S_S2000000),
    StableHlo.TRef.binary (.of main_call2_v4 : StableHlo.TRef sig ⟨S2000000, .i32⟩) (.of main_call2_v2 : StableHlo.TRef sig ⟨S2000000, .i32⟩) (.of main_v16 : StableHlo.TRef sig ⟨S2000000, .i32⟩) minsi ]

/-- 5 operations: a stretch of @main's own operations (window 0). -/
abbrev opsM0_3 : List (HloOp τ sig (Elt F)) :=
  [ StableHlo.nullary main_c_5 (constantI S_ 32 1#32),
    StableHlo.unary main_c_5 main_v17 (broadcastInDim S2000000 ![] bcast_S_S2000000 : (⟨S_, .i32⟩ : BufTy).Contents (Elt F) → (⟨S2000000, .i32⟩ : BufTy).Contents (Elt F)),
    StableHlo.binary main_v10 main_v17 main_v18 (addi : (⟨S2000000, .i32⟩ : BufTy).Contents (Elt F) → (⟨S2000000, .i32⟩ : BufTy).Contents (Elt F) → (⟨S2000000, .i32⟩ : BufTy).Contents (Elt F)),
    StableHlo.nullary main_c_6 (constantI S_ 32 0#32),
    StableHlo.nullary main_c_7 (constantI S_ 32 127#32) ]

/-- 6 operations: the operations of @clip inlined at %19 = func.call @clip over the record main_call3. -/
abbrev opsC3 : List (HloOp τ sig (Elt F)) :=
  [ StableHlo.TRef.unary (.of main_c_6 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S2000000, .i32⟩) (broadcastInDim S2000000 ![] bcast_S_S2000000),
    StableHlo.TRef.binary (.of main_call3_v1 : StableHlo.TRef sig ⟨S2000000, .i32⟩) (.of main_v18 : StableHlo.TRef sig ⟨S2000000, .i32⟩) (.of main_call3_v2 : StableHlo.TRef sig ⟨S2000000, .i32⟩) maxsi,
    StableHlo.TRef.unary (.of main_c_7 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S2000000, .i32⟩) (broadcastInDim S2000000 ![] bcast_S_S2000000),
    StableHlo.TRef.binary (.of main_call3_v4 : StableHlo.TRef sig ⟨S2000000, .i32⟩) (.of main_call3_v2 : StableHlo.TRef sig ⟨S2000000, .i32⟩) (.of main_v19 : StableHlo.TRef sig ⟨S2000000, .i32⟩) minsi ]

/-- 5 operations: a stretch of @main's own operations (window 0). -/
abbrev opsM0_4 : List (HloOp τ sig (Elt F)) :=
  [ StableHlo.nullary main_c_8 (constantI S_ 32 1#32),
    StableHlo.unary main_c_8 main_v20 (broadcastInDim S2000000 ![] bcast_S_S2000000 : (⟨S_, .i32⟩ : BufTy).Contents (Elt F) → (⟨S2000000, .i32⟩ : BufTy).Contents (Elt F)),
    StableHlo.binary main_v13 main_v20 main_v21 (addi : (⟨S2000000, .i32⟩ : BufTy).Contents (Elt F) → (⟨S2000000, .i32⟩ : BufTy).Contents (Elt F) → (⟨S2000000, .i32⟩ : BufTy).Contents (Elt F)),
    StableHlo.nullary main_c_9 (constantI S_ 32 0#32),
    StableHlo.nullary main_c_10 (constantI S_ 32 127#32) ]

/-- 6 operations: the operations of @clip inlined at %22 = func.call @clip over the record main_call4. -/
abbrev opsC4 : List (HloOp τ sig (Elt F)) :=
  [ StableHlo.TRef.unary (.of main_c_9 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S2000000, .i32⟩) (broadcastInDim S2000000 ![] bcast_S_S2000000),
    StableHlo.TRef.binary (.of main_call4_v1 : StableHlo.TRef sig ⟨S2000000, .i32⟩) (.of main_v21 : StableHlo.TRef sig ⟨S2000000, .i32⟩) (.of main_call4_v2 : StableHlo.TRef sig ⟨S2000000, .i32⟩) maxsi,
    StableHlo.TRef.unary (.of main_c_10 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S2000000, .i32⟩) (broadcastInDim S2000000 ![] bcast_S_S2000000),
    StableHlo.TRef.binary (.of main_call4_v4 : StableHlo.TRef sig ⟨S2000000, .i32⟩) (.of main_call4_v2 : StableHlo.TRef sig ⟨S2000000, .i32⟩) (.of main_v22 : StableHlo.TRef sig ⟨S2000000, .i32⟩) minsi ]

/-- 5 operations: a stretch of @main's own operations (window 0). -/
abbrev opsM0_5 : List (HloOp τ sig (Elt F)) :=
  [ StableHlo.nullary main_c_11 (constantI S_ 32 1#32),
    StableHlo.unary main_c_11 main_v23 (broadcastInDim S2000000 ![] bcast_S_S2000000 : (⟨S_, .i32⟩ : BufTy).Contents (Elt F) → (⟨S2000000, .i32⟩ : BufTy).Contents (Elt F)),
    StableHlo.binary main_v16 main_v23 main_v24 (addi : (⟨S2000000, .i32⟩ : BufTy).Contents (Elt F) → (⟨S2000000, .i32⟩ : BufTy).Contents (Elt F) → (⟨S2000000, .i32⟩ : BufTy).Contents (Elt F)),
    StableHlo.nullary main_c_12 (constantI S_ 32 0#32),
    StableHlo.nullary main_c_13 (constantI S_ 32 127#32) ]

/-- 6 operations: the operations of @clip inlined at %25 = func.call @clip over the record main_call5. -/
abbrev opsC5 : List (HloOp τ sig (Elt F)) :=
  [ StableHlo.TRef.unary (.of main_c_12 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S2000000, .i32⟩) (broadcastInDim S2000000 ![] bcast_S_S2000000),
    StableHlo.TRef.binary (.of main_call5_v1 : StableHlo.TRef sig ⟨S2000000, .i32⟩) (.of main_v24 : StableHlo.TRef sig ⟨S2000000, .i32⟩) (.of main_call5_v2 : StableHlo.TRef sig ⟨S2000000, .i32⟩) maxsi,
    StableHlo.TRef.unary (.of main_c_13 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S2000000, .i32⟩) (broadcastInDim S2000000 ![] bcast_S_S2000000),
    StableHlo.TRef.binary (.of main_call5_v4 : StableHlo.TRef sig ⟨S2000000, .i32⟩) (.of main_call5_v2 : StableHlo.TRef sig ⟨S2000000, .i32⟩) (.of main_v25 : StableHlo.TRef sig ⟨S2000000, .i32⟩) minsi ]

/-- 18 operations: a stretch of @main's own operations (window 0). -/
abbrev opsM0_6 : List (HloOp τ sig (Elt F)) :=
  [ StableHlo.unary main_v10 main_v26 (sitofp .f32 : (⟨S2000000, .i32⟩ : BufTy).Contents (Elt F) → (⟨S2000000, .f32⟩ : BufTy).Contents (Elt F)),
    StableHlo.binary main_v3 main_v26 main_v27 (subf : (⟨S2000000, .f32⟩ : BufTy).Contents (Elt F) → (⟨S2000000, .f32⟩ : BufTy).Contents (Elt F) → (⟨S2000000, .f32⟩ : BufTy).Contents (Elt F)),
    StableHlo.unary main_v27 main_v28 (broadcastInDim S2000000x1 ![0] bcast_S2000000_S2000000x1_0 : (⟨S2000000, .f32⟩ : BufTy).Contents (Elt F) → (⟨S2000000x1, .f32⟩ : BufTy).Contents (Elt F)),
    StableHlo.unary main_v13 main_v29 (sitofp .f32 : (⟨S2000000, .i32⟩ : BufTy).Contents (Elt F) → (⟨S2000000, .f32⟩ : BufTy).Contents (Elt F)),
    StableHlo.binary main_v5 main_v29 main_v30 (subf : (⟨S2000000, .f32⟩ : BufTy).Contents (Elt F) → (⟨S2000000, .f32⟩ : BufTy).Contents (Elt F) → (⟨S2000000, .f32⟩ : BufTy).Contents (Elt F)),
    StableHlo.unary main_v30 main_v31 (broadcastInDim S2000000x1 ![0] bcast_S2000000_S2000000x1_0 : (⟨S2000000, .f32⟩ : BufTy).Contents (Elt F) → (⟨S2000000x1, .f32⟩ : BufTy).Contents (Elt F)),
    StableHlo.unary main_v16 main_v32 (sitofp .f32 : (⟨S2000000, .i32⟩ : BufTy).Contents (Elt F) → (⟨S2000000, .f32⟩ : BufTy).Contents (Elt F)),
    StableHlo.binary main_v7 main_v32 main_v33 (subf : (⟨S2000000, .f32⟩ : BufTy).Contents (Elt F) → (⟨S2000000, .f32⟩ : BufTy).Contents (Elt F) → (⟨S2000000, .f32⟩ : BufTy).Contents (Elt F)),
    StableHlo.unary main_v33 main_v34 (broadcastInDim S2000000x1 ![0] bcast_S2000000_S2000000x1_0 : (⟨S2000000, .f32⟩ : BufTy).Contents (Elt F) → (⟨S2000000x1, .f32⟩ : BufTy).Contents (Elt F)),
    StableHlo.reshape main_arg1 main_v35 rfl shapeCasts_S128x128x128x16_S2097152x16,
    StableHlo.nullary main_c_14 (constantI S_ 32 128#32),
    StableHlo.unary main_c_14 main_v36 (broadcastInDim S2000000 ![] bcast_S_S2000000 : (⟨S_, .i32⟩ : BufTy).Contents (Elt F) → (⟨S2000000, .i32⟩ : BufTy).Contents (Elt F)),
    StableHlo.binary main_v10 main_v36 main_v37 (muli : (⟨S2000000, .i32⟩ : BufTy).Contents (Elt F) → (⟨S2000000, .i32⟩ : BufTy).Contents (Elt F) → (⟨S2000000, .i32⟩ : BufTy).Contents (Elt F)),
    StableHlo.binary main_v37 main_v13 main_v38 (addi : (⟨S2000000, .i32⟩ : BufTy).Contents (Elt F) → (⟨S2000000, .i32⟩ : BufTy).Contents (Elt F) → (⟨S2000000, .i32⟩ : BufTy).Contents (Elt F)),
    StableHlo.nullary main_c_15 (constantI S_ 32 128#32),
    StableHlo.unary main_c_15 main_v39 (broadcastInDim S2000000 ![] bcast_S_S2000000 : (⟨S_, .i32⟩ : BufTy).Contents (Elt F) → (⟨S2000000, .i32⟩ : BufTy).Contents (Elt F)),
    StableHlo.binary main_v38 main_v39 main_v40 (muli : (⟨S2000000, .i32⟩ : BufTy).Contents (Elt F) → (⟨S2000000, .i32⟩ : BufTy).Contents (Elt F) → (⟨S2000000, .i32⟩ : BufTy).Contents (Elt F)),
    StableHlo.binary main_v40 main_v16 main_v41 (addi : (⟨S2000000, .i32⟩ : BufTy).Contents (Elt F) → (⟨S2000000, .i32⟩ : BufTy).Contents (Elt F) → (⟨S2000000, .i32⟩ : BufTy).Contents (Elt F)) ]

/-- Window 0 of @main: 90 operations, its parts in order. -/
abbrev opsW0 : List (HloOp τ sig (Elt F)) :=
  opsM0_0 ++ opsC0 ++ opsM0_1 ++ opsC1 ++ opsM0_2 ++ opsC2 ++ opsM0_3 ++ opsC3 ++ opsM0_4 ++ opsC4 ++ opsM0_5 ++ opsC5 ++ opsM0_6

/-- 23 operations: the operations of @_take inlined at %42 = func.call @_take over the record main_call6. -/
abbrev opsC6 : List (HloOp τ sig (Elt F)) :=
  [ StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S2000000, .i32⟩) (broadcastInDim S2000000 ![] bcast_S_S2000000),
    StableHlo.TRef.binary (.of main_v41 : StableHlo.TRef sig ⟨S2000000, .i32⟩) (.of main_call6_v0 : StableHlo.TRef sig ⟨S2000000, .i32⟩) (.of main_call6_v1 : StableHlo.TRef sig ⟨S2000000, .i1⟩) (cmpi .slt),
    StableHlo.TRef.nullary (.of main_call6_c_0 : StableHlo.TRef sig ⟨S_, .i32⟩) (constantI S_ 32 2097152#32),
    StableHlo.TRef.unary (.of main_call6_c_0 : StableHlo.TRef sig ⟨S_, .i32⟩) (.of main_call6_v2 : StableHlo.TRef sig ⟨S2000000, .i32⟩) (broadcastInDim S2000000 ![] bcast_S_S2000000),
    StableHlo.TRef.binary (.of main_v41 : StableHlo.TRef sig ⟨S2000000, .i32⟩) (.of main_call6_v2 : StableHlo.TRef sig ⟨S2000000, .i32⟩) (.of main_call6_v3 : StableHlo.TRef sig ⟨S2000000, .i32⟩) addi,
    StableHlo.TRef.ternary (.of main_call6_v1 : StableHlo.TRef sig ⟨S2000000, .i1⟩) (.of main_call6_v3 : StableHlo.TRef sig ⟨S2000000, .i32⟩) (.of main_v41 : StableHlo.TRef sig ⟨S2000000, .i32⟩) (.of main_call6_v4 : StableHlo.TRef sig ⟨S2000000, .i32⟩) select,
    StableHlo.TRef.unary (.of main_call6_v4 : StableHlo.TRef sig ⟨S2000000, .i32⟩) (.of main_call6_v5 : StableHlo.TRef sig ⟨S2000000x1, .i32⟩) (broadcastInDim S2000000x1 ![0] bcast_S2000000_S2000000x1_0),
    StableHlo.TRef.nullary (.of main_call6_c_1 : StableHlo.TRef sig ⟨S1, .i32⟩) (constantI S1 32 2097151#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S2000000x1, .i32⟩) (broadcastInDim S2000000x1 ![] bcast_S_S2000000x1),
    StableHlo.TRef.binary (.of main_call6_v5 : StableHlo.TRef sig ⟨S2000000x1, .i32⟩) (.of main_call6_v6 : StableHlo.TRef sig ⟨S2000000x1, .i32⟩) (.of main_call6_v7 : StableHlo.TRef sig ⟨S2000000x1, .i1⟩) (cmpi .sge),
    StableHlo.TRef.unary (.of main_call6_c_1 : StableHlo.TRef sig ⟨S1, .i32⟩) (.of main_call6_v8 : StableHlo.TRef sig ⟨S1x1, .i32⟩) (broadcastInDim S1x1 ![1] bcast_S1_S1x1_1),
    StableHlo.TRef.unary (.of main_call6_v8 : StableHlo.TRef sig ⟨S1x1, .i32⟩) (.of main_call6_v9 : StableHlo.TRef sig ⟨S2000000x1, .i32⟩) (broadcastInDim S2000000x1 ![0, 1] bcast_S1x1_S2000000x1_0_1),
    StableHlo.TRef.binary (.of main_call6_v5 : StableHlo.TRef sig ⟨S2000000x1, .i32⟩) (.of main_call6_v9 : StableHlo.TRef sig ⟨S2000000x1, .i32⟩) (.of main_call6_v10 : StableHlo.TRef sig ⟨S2000000x1, .i1⟩) (cmpi .sle),
    StableHlo.TRef.binary (.of main_call6_v7 : StableHlo.TRef sig ⟨S2000000x1, .i1⟩) (.of main_call6_v10 : StableHlo.TRef sig ⟨S2000000x1, .i1⟩) (.of main_call6_v11 : StableHlo.TRef sig ⟨S2000000x1, .i1⟩) andi,
    StableHlo.TRef.nullary (.of main_call6_c_3 : StableHlo.TRef sig ⟨S_, .i1⟩) (constantI S_ 1 1#1),
    StableHlo.TRef.binary (.of main_call6_v11 : StableHlo.TRef sig ⟨S2000000x1, .i1⟩) (.of main_call6_c_3 : StableHlo.TRef sig ⟨S_, .i1⟩) (.of main_call6_v12 : StableHlo.TRef sig ⟨S2000000, .i1⟩) (fun x v => Host.reduce IntOp.andi x v reducesTo_S2000000x1_S2000000_d1 h_S_),
    StableHlo.TRef.binary (.of main_v35 : StableHlo.TRef sig ⟨S2097152x16, .f32⟩) (.of main_call6_v5 : StableHlo.TRef sig ⟨S2000000x1, .i32⟩) (.of main_call6_v13 : StableHlo.TRef sig ⟨S2000000x16, .f32⟩) (fun x i => Host.gather gather_S2097152x16_S2000000x1_S2000000x16_1_0_n_n_0_1_116 x i),
    StableHlo.TRef.unary (.of main_call6_v12 : StableHlo.TRef sig ⟨S2000000, .i1⟩) (.of main_call6_v14 : StableHlo.TRef sig ⟨S2000000x16, .i1⟩) (broadcastInDim S2000000x16 ![0] bcast_S2000000_S2000000x16_0),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v15 : StableHlo.TRef sig ⟨S2000000x16, .f32⟩) (broadcastInDim S2000000x16 ![] bcast_S_S2000000x16),
    StableHlo.TRef.ternary (.of main_call6_v14 : StableHlo.TRef sig ⟨S2000000x16, .i1⟩) (.of main_call6_v13 : StableHlo.TRef sig ⟨S2000000x16, .f32⟩) (.of main_call6_v15 : StableHlo.TRef sig ⟨S2000000x16, .f32⟩) (.of main_v42 : StableHlo.TRef sig ⟨S2000000x16, .f32⟩) select ]

/-- 8 operations: a stretch of @main's own operations (window 1). -/
abbrev opsM1_0 : List (HloOp τ sig (Elt F)) :=
  [ StableHlo.nullary main_c_16 (constantI S_ 32 128#32),
    StableHlo.unary main_c_16 main_v43 (broadcastInDim S2000000 ![] bcast_S_S2000000 : (⟨S_, .i32⟩ : BufTy).Contents (Elt F) → (⟨S2000000, .i32⟩ : BufTy).Contents (Elt F)),
    StableHlo.binary main_v10 main_v43 main_v44 (muli : (⟨S2000000, .i32⟩ : BufTy).Contents (Elt F) → (⟨S2000000, .i32⟩ : BufTy).Contents (Elt F) → (⟨S2000000, .i32⟩ : BufTy).Contents (Elt F)),
    StableHlo.binary main_v44 main_v13 main_v45 (addi : (⟨S2000000, .i32⟩ : BufTy).Contents (Elt F) → (⟨S2000000, .i32⟩ : BufTy).Contents (Elt F) → (⟨S2000000, .i32⟩ : BufTy).Contents (Elt F)),
    StableHlo.nullary main_c_17 (constantI S_ 32 128#32),
    StableHlo.unary main_c_17 main_v46 (broadcastInDim S2000000 ![] bcast_S_S2000000 : (⟨S_, .i32⟩ : BufTy).Contents (Elt F) → (⟨S2000000, .i32⟩ : BufTy).Contents (Elt F)),
    StableHlo.binary main_v45 main_v46 main_v47 (muli : (⟨S2000000, .i32⟩ : BufTy).Contents (Elt F) → (⟨S2000000, .i32⟩ : BufTy).Contents (Elt F) → (⟨S2000000, .i32⟩ : BufTy).Contents (Elt F)),
    StableHlo.binary main_v47 main_v25 main_v48 (addi : (⟨S2000000, .i32⟩ : BufTy).Contents (Elt F) → (⟨S2000000, .i32⟩ : BufTy).Contents (Elt F) → (⟨S2000000, .i32⟩ : BufTy).Contents (Elt F)) ]

/-- 23 operations: the operations of @_take inlined at %49 = func.call @_take over the record main_call7. -/
abbrev opsC7 : List (HloOp τ sig (Elt F)) :=
  [ StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S2000000, .i32⟩) (broadcastInDim S2000000 ![] bcast_S_S2000000),
    StableHlo.TRef.binary (.of main_v48 : StableHlo.TRef sig ⟨S2000000, .i32⟩) (.of main_call7_v0 : StableHlo.TRef sig ⟨S2000000, .i32⟩) (.of main_call7_v1 : StableHlo.TRef sig ⟨S2000000, .i1⟩) (cmpi .slt),
    StableHlo.TRef.nullary (.of main_call7_c_0 : StableHlo.TRef sig ⟨S_, .i32⟩) (constantI S_ 32 2097152#32),
    StableHlo.TRef.unary (.of main_call7_c_0 : StableHlo.TRef sig ⟨S_, .i32⟩) (.of main_call7_v2 : StableHlo.TRef sig ⟨S2000000, .i32⟩) (broadcastInDim S2000000 ![] bcast_S_S2000000),
    StableHlo.TRef.binary (.of main_v48 : StableHlo.TRef sig ⟨S2000000, .i32⟩) (.of main_call7_v2 : StableHlo.TRef sig ⟨S2000000, .i32⟩) (.of main_call7_v3 : StableHlo.TRef sig ⟨S2000000, .i32⟩) addi,
    StableHlo.TRef.ternary (.of main_call7_v1 : StableHlo.TRef sig ⟨S2000000, .i1⟩) (.of main_call7_v3 : StableHlo.TRef sig ⟨S2000000, .i32⟩) (.of main_v48 : StableHlo.TRef sig ⟨S2000000, .i32⟩) (.of main_call7_v4 : StableHlo.TRef sig ⟨S2000000, .i32⟩) select,
    StableHlo.TRef.unary (.of main_call7_v4 : StableHlo.TRef sig ⟨S2000000, .i32⟩) (.of main_call7_v5 : StableHlo.TRef sig ⟨S2000000x1, .i32⟩) (broadcastInDim S2000000x1 ![0] bcast_S2000000_S2000000x1_0),
    StableHlo.TRef.nullary (.of main_call7_c_1 : StableHlo.TRef sig ⟨S1, .i32⟩) (constantI S1 32 2097151#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S2000000x1, .i32⟩) (broadcastInDim S2000000x1 ![] bcast_S_S2000000x1),
    StableHlo.TRef.binary (.of main_call7_v5 : StableHlo.TRef sig ⟨S2000000x1, .i32⟩) (.of main_call7_v6 : StableHlo.TRef sig ⟨S2000000x1, .i32⟩) (.of main_call7_v7 : StableHlo.TRef sig ⟨S2000000x1, .i1⟩) (cmpi .sge),
    StableHlo.TRef.unary (.of main_call7_c_1 : StableHlo.TRef sig ⟨S1, .i32⟩) (.of main_call7_v8 : StableHlo.TRef sig ⟨S1x1, .i32⟩) (broadcastInDim S1x1 ![1] bcast_S1_S1x1_1),
    StableHlo.TRef.unary (.of main_call7_v8 : StableHlo.TRef sig ⟨S1x1, .i32⟩) (.of main_call7_v9 : StableHlo.TRef sig ⟨S2000000x1, .i32⟩) (broadcastInDim S2000000x1 ![0, 1] bcast_S1x1_S2000000x1_0_1),
    StableHlo.TRef.binary (.of main_call7_v5 : StableHlo.TRef sig ⟨S2000000x1, .i32⟩) (.of main_call7_v9 : StableHlo.TRef sig ⟨S2000000x1, .i32⟩) (.of main_call7_v10 : StableHlo.TRef sig ⟨S2000000x1, .i1⟩) (cmpi .sle),
    StableHlo.TRef.binary (.of main_call7_v7 : StableHlo.TRef sig ⟨S2000000x1, .i1⟩) (.of main_call7_v10 : StableHlo.TRef sig ⟨S2000000x1, .i1⟩) (.of main_call7_v11 : StableHlo.TRef sig ⟨S2000000x1, .i1⟩) andi,
    StableHlo.TRef.nullary (.of main_call7_c_3 : StableHlo.TRef sig ⟨S_, .i1⟩) (constantI S_ 1 1#1),
    StableHlo.TRef.binary (.of main_call7_v11 : StableHlo.TRef sig ⟨S2000000x1, .i1⟩) (.of main_call7_c_3 : StableHlo.TRef sig ⟨S_, .i1⟩) (.of main_call7_v12 : StableHlo.TRef sig ⟨S2000000, .i1⟩) (fun x v => Host.reduce IntOp.andi x v reducesTo_S2000000x1_S2000000_d1 h_S_),
    StableHlo.TRef.binary (.of main_v35 : StableHlo.TRef sig ⟨S2097152x16, .f32⟩) (.of main_call7_v5 : StableHlo.TRef sig ⟨S2000000x1, .i32⟩) (.of main_call7_v13 : StableHlo.TRef sig ⟨S2000000x16, .f32⟩) (fun x i => Host.gather gather_S2097152x16_S2000000x1_S2000000x16_1_0_n_n_0_1_116 x i),
    StableHlo.TRef.unary (.of main_call7_v12 : StableHlo.TRef sig ⟨S2000000, .i1⟩) (.of main_call7_v14 : StableHlo.TRef sig ⟨S2000000x16, .i1⟩) (broadcastInDim S2000000x16 ![0] bcast_S2000000_S2000000x16_0),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v15 : StableHlo.TRef sig ⟨S2000000x16, .f32⟩) (broadcastInDim S2000000x16 ![] bcast_S_S2000000x16),
    StableHlo.TRef.ternary (.of main_call7_v14 : StableHlo.TRef sig ⟨S2000000x16, .i1⟩) (.of main_call7_v13 : StableHlo.TRef sig ⟨S2000000x16, .f32⟩) (.of main_call7_v15 : StableHlo.TRef sig ⟨S2000000x16, .f32⟩) (.of main_v49 : StableHlo.TRef sig ⟨S2000000x16, .f32⟩) select ]

/-- 8 operations: a stretch of @main's own operations (window 1). -/
abbrev opsM1_1 : List (HloOp τ sig (Elt F)) :=
  [ StableHlo.nullary main_c_18 (constantI S_ 32 128#32),
    StableHlo.unary main_c_18 main_v50 (broadcastInDim S2000000 ![] bcast_S_S2000000 : (⟨S_, .i32⟩ : BufTy).Contents (Elt F) → (⟨S2000000, .i32⟩ : BufTy).Contents (Elt F)),
    StableHlo.binary main_v10 main_v50 main_v51 (muli : (⟨S2000000, .i32⟩ : BufTy).Contents (Elt F) → (⟨S2000000, .i32⟩ : BufTy).Contents (Elt F) → (⟨S2000000, .i32⟩ : BufTy).Contents (Elt F)),
    StableHlo.binary main_v51 main_v22 main_v52 (addi : (⟨S2000000, .i32⟩ : BufTy).Contents (Elt F) → (⟨S2000000, .i32⟩ : BufTy).Contents (Elt F) → (⟨S2000000, .i32⟩ : BufTy).Contents (Elt F)),
    StableHlo.nullary main_c_19 (constantI S_ 32 128#32),
    StableHlo.unary main_c_19 main_v53 (broadcastInDim S2000000 ![] bcast_S_S2000000 : (⟨S_, .i32⟩ : BufTy).Contents (Elt F) → (⟨S2000000, .i32⟩ : BufTy).Contents (Elt F)),
    StableHlo.binary main_v52 main_v53 main_v54 (muli : (⟨S2000000, .i32⟩ : BufTy).Contents (Elt F) → (⟨S2000000, .i32⟩ : BufTy).Contents (Elt F) → (⟨S2000000, .i32⟩ : BufTy).Contents (Elt F)),
    StableHlo.binary main_v54 main_v16 main_v55 (addi : (⟨S2000000, .i32⟩ : BufTy).Contents (Elt F) → (⟨S2000000, .i32⟩ : BufTy).Contents (Elt F) → (⟨S2000000, .i32⟩ : BufTy).Contents (Elt F)) ]

/-- 23 operations: the operations of @_take inlined at %56 = func.call @_take over the record main_call8. -/
abbrev opsC8 : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S2000000, .i32⟩) (broadcastInDim S2000000 ![] bcast_S_S2000000),
    StableHlo.TRef.binary (.of main_v55 : StableHlo.TRef sig ⟨S2000000, .i32⟩) (.of main_call8_v0 : StableHlo.TRef sig ⟨S2000000, .i32⟩) (.of main_call8_v1 : StableHlo.TRef sig ⟨S2000000, .i1⟩) (cmpi .slt),
    StableHlo.TRef.nullary (.of main_call8_c_0 : StableHlo.TRef sig ⟨S_, .i32⟩) (constantI S_ 32 2097152#32),
    StableHlo.TRef.unary (.of main_call8_c_0 : StableHlo.TRef sig ⟨S_, .i32⟩) (.of main_call8_v2 : StableHlo.TRef sig ⟨S2000000, .i32⟩) (broadcastInDim S2000000 ![] bcast_S_S2000000),
    StableHlo.TRef.binary (.of main_v55 : StableHlo.TRef sig ⟨S2000000, .i32⟩) (.of main_call8_v2 : StableHlo.TRef sig ⟨S2000000, .i32⟩) (.of main_call8_v3 : StableHlo.TRef sig ⟨S2000000, .i32⟩) addi,
    StableHlo.TRef.ternary (.of main_call8_v1 : StableHlo.TRef sig ⟨S2000000, .i1⟩) (.of main_call8_v3 : StableHlo.TRef sig ⟨S2000000, .i32⟩) (.of main_v55 : StableHlo.TRef sig ⟨S2000000, .i32⟩) (.of main_call8_v4 : StableHlo.TRef sig ⟨S2000000, .i32⟩) select,
    StableHlo.TRef.unary (.of main_call8_v4 : StableHlo.TRef sig ⟨S2000000, .i32⟩) (.of main_call8_v5 : StableHlo.TRef sig ⟨S2000000x1, .i32⟩) (broadcastInDim S2000000x1 ![0] bcast_S2000000_S2000000x1_0),
    StableHlo.TRef.nullary (.of main_call8_c_1 : StableHlo.TRef sig ⟨S1, .i32⟩) (constantI S1 32 2097151#32),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v6 : StableHlo.TRef sig ⟨S2000000x1, .i32⟩) (broadcastInDim S2000000x1 ![] bcast_S_S2000000x1),
    StableHlo.TRef.binary (.of main_call8_v5 : StableHlo.TRef sig ⟨S2000000x1, .i32⟩) (.of main_call8_v6 : StableHlo.TRef sig ⟨S2000000x1, .i32⟩) (.of main_call8_v7 : StableHlo.TRef sig ⟨S2000000x1, .i1⟩) (cmpi .sge),
    StableHlo.TRef.unary (.of main_call8_c_1 : StableHlo.TRef sig ⟨S1, .i32⟩) (.of main_call8_v8 : StableHlo.TRef sig ⟨S1x1, .i32⟩) (broadcastInDim S1x1 ![1] bcast_S1_S1x1_1),
    StableHlo.TRef.unary (.of main_call8_v8 : StableHlo.TRef sig ⟨S1x1, .i32⟩) (.of main_call8_v9 : StableHlo.TRef sig ⟨S2000000x1, .i32⟩) (broadcastInDim S2000000x1 ![0, 1] bcast_S1x1_S2000000x1_0_1),
    StableHlo.TRef.binary (.of main_call8_v5 : StableHlo.TRef sig ⟨S2000000x1, .i32⟩) (.of main_call8_v9 : StableHlo.TRef sig ⟨S2000000x1, .i32⟩) (.of main_call8_v10 : StableHlo.TRef sig ⟨S2000000x1, .i1⟩) (cmpi .sle),
    StableHlo.TRef.binary (.of main_call8_v7 : StableHlo.TRef sig ⟨S2000000x1, .i1⟩) (.of main_call8_v10 : StableHlo.TRef sig ⟨S2000000x1, .i1⟩) (.of main_call8_v11 : StableHlo.TRef sig ⟨S2000000x1, .i1⟩) andi,
    StableHlo.TRef.nullary (.of main_call8_c_3 : StableHlo.TRef sig ⟨S_, .i1⟩) (constantI S_ 1 1#1),
    StableHlo.TRef.binary (.of main_call8_v11 : StableHlo.TRef sig ⟨S2000000x1, .i1⟩) (.of main_call8_c_3 : StableHlo.TRef sig ⟨S_, .i1⟩) (.of main_call8_v12 : StableHlo.TRef sig ⟨S2000000, .i1⟩) (fun x v => Host.reduce IntOp.andi x v reducesTo_S2000000x1_S2000000_d1 h_S_),
    StableHlo.TRef.binary (.of main_v35 : StableHlo.TRef sig ⟨S2097152x16, .f32⟩) (.of main_call8_v5 : StableHlo.TRef sig ⟨S2000000x1, .i32⟩) (.of main_call8_v13 : StableHlo.TRef sig ⟨S2000000x16, .f32⟩) (fun x i => Host.gather gather_S2097152x16_S2000000x1_S2000000x16_1_0_n_n_0_1_116 x i),
    StableHlo.TRef.unary (.of main_call8_v12 : StableHlo.TRef sig ⟨S2000000, .i1⟩) (.of main_call8_v14 : StableHlo.TRef sig ⟨S2000000x16, .i1⟩) (broadcastInDim S2000000x16 ![0] bcast_S2000000_S2000000x16_0),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v15 : StableHlo.TRef sig ⟨S2000000x16, .f32⟩) (broadcastInDim S2000000x16 ![] bcast_S_S2000000x16),
    StableHlo.TRef.ternary (.of main_call8_v14 : StableHlo.TRef sig ⟨S2000000x16, .i1⟩) (.of main_call8_v13 : StableHlo.TRef sig ⟨S2000000x16, .f32⟩) (.of main_call8_v15 : StableHlo.TRef sig ⟨S2000000x16, .f32⟩) (.of main_v56 : StableHlo.TRef sig ⟨S2000000x16, .f32⟩) select ]

/-- 8 operations: a stretch of @main's own operations (window 1). -/
abbrev opsM1_2 : List (HloOp τ sig (Elt F)) :=
  [ StableHlo.nullary main_c_20 (constantI S_ 32 128#32),
    StableHlo.unary main_c_20 main_v57 (broadcastInDim S2000000 ![] bcast_S_S2000000 : (⟨S_, .i32⟩ : BufTy).Contents (Elt F) → (⟨S2000000, .i32⟩ : BufTy).Contents (Elt F)),
    StableHlo.binary main_v10 main_v57 main_v58 (muli : (⟨S2000000, .i32⟩ : BufTy).Contents (Elt F) → (⟨S2000000, .i32⟩ : BufTy).Contents (Elt F) → (⟨S2000000, .i32⟩ : BufTy).Contents (Elt F)),
    StableHlo.binary main_v58 main_v22 main_v59 (addi : (⟨S2000000, .i32⟩ : BufTy).Contents (Elt F) → (⟨S2000000, .i32⟩ : BufTy).Contents (Elt F) → (⟨S2000000, .i32⟩ : BufTy).Contents (Elt F)),
    StableHlo.nullary main_c_21 (constantI S_ 32 128#32),
    StableHlo.unary main_c_21 main_v60 (broadcastInDim S2000000 ![] bcast_S_S2000000 : (⟨S_, .i32⟩ : BufTy).Contents (Elt F) → (⟨S2000000, .i32⟩ : BufTy).Contents (Elt F)),
    StableHlo.binary main_v59 main_v60 main_v61 (muli : (⟨S2000000, .i32⟩ : BufTy).Contents (Elt F) → (⟨S2000000, .i32⟩ : BufTy).Contents (Elt F) → (⟨S2000000, .i32⟩ : BufTy).Contents (Elt F)),
    StableHlo.binary main_v61 main_v25 main_v62 (addi : (⟨S2000000, .i32⟩ : BufTy).Contents (Elt F) → (⟨S2000000, .i32⟩ : BufTy).Contents (Elt F) → (⟨S2000000, .i32⟩ : BufTy).Contents (Elt F)) ]

/-- 23 operations: the operations of @_take inlined at %63 = func.call @_take over the record main_call9. -/
abbrev opsC9 : List (HloOp τ sig (Elt F)) :=
  [ StableHlo.TRef.nullary (.of main_call9_c : StableHlo.TRef sig ⟨S_, .i32⟩) (constantI S_ 32 0#32),
    StableHlo.TRef.unary (.of main_call9_c : StableHlo.TRef sig ⟨S_, .i32⟩) (.of main_call9_v0 : StableHlo.TRef sig ⟨S2000000, .i32⟩) (broadcastInDim S2000000 ![] bcast_S_S2000000),
    StableHlo.TRef.binary (.of main_v62 : StableHlo.TRef sig ⟨S2000000, .i32⟩) (.of main_call9_v0 : StableHlo.TRef sig ⟨S2000000, .i32⟩) (.of main_call9_v1 : StableHlo.TRef sig ⟨S2000000, .i1⟩) (cmpi .slt),
    StableHlo.TRef.nullary (.of main_call9_c_0 : StableHlo.TRef sig ⟨S_, .i32⟩) (constantI S_ 32 2097152#32),
    StableHlo.TRef.unary (.of main_call9_c_0 : StableHlo.TRef sig ⟨S_, .i32⟩) (.of main_call9_v2 : StableHlo.TRef sig ⟨S2000000, .i32⟩) (broadcastInDim S2000000 ![] bcast_S_S2000000),
    StableHlo.TRef.binary (.of main_v62 : StableHlo.TRef sig ⟨S2000000, .i32⟩) (.of main_call9_v2 : StableHlo.TRef sig ⟨S2000000, .i32⟩) (.of main_call9_v3 : StableHlo.TRef sig ⟨S2000000, .i32⟩) addi,
    StableHlo.TRef.ternary (.of main_call9_v1 : StableHlo.TRef sig ⟨S2000000, .i1⟩) (.of main_call9_v3 : StableHlo.TRef sig ⟨S2000000, .i32⟩) (.of main_v62 : StableHlo.TRef sig ⟨S2000000, .i32⟩) (.of main_call9_v4 : StableHlo.TRef sig ⟨S2000000, .i32⟩) select,
    StableHlo.TRef.unary (.of main_call9_v4 : StableHlo.TRef sig ⟨S2000000, .i32⟩) (.of main_call9_v5 : StableHlo.TRef sig ⟨S2000000x1, .i32⟩) (broadcastInDim S2000000x1 ![0] bcast_S2000000_S2000000x1_0),
    StableHlo.TRef.nullary (.of main_call9_c_1 : StableHlo.TRef sig ⟨S1, .i32⟩) (constantI S1 32 2097151#32),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v6 : StableHlo.TRef sig ⟨S2000000x1, .i32⟩) (broadcastInDim S2000000x1 ![] bcast_S_S2000000x1),
    StableHlo.TRef.binary (.of main_call9_v5 : StableHlo.TRef sig ⟨S2000000x1, .i32⟩) (.of main_call9_v6 : StableHlo.TRef sig ⟨S2000000x1, .i32⟩) (.of main_call9_v7 : StableHlo.TRef sig ⟨S2000000x1, .i1⟩) (cmpi .sge),
    StableHlo.TRef.unary (.of main_call9_c_1 : StableHlo.TRef sig ⟨S1, .i32⟩) (.of main_call9_v8 : StableHlo.TRef sig ⟨S1x1, .i32⟩) (broadcastInDim S1x1 ![1] bcast_S1_S1x1_1),
    StableHlo.TRef.unary (.of main_call9_v8 : StableHlo.TRef sig ⟨S1x1, .i32⟩) (.of main_call9_v9 : StableHlo.TRef sig ⟨S2000000x1, .i32⟩) (broadcastInDim S2000000x1 ![0, 1] bcast_S1x1_S2000000x1_0_1),
    StableHlo.TRef.binary (.of main_call9_v5 : StableHlo.TRef sig ⟨S2000000x1, .i32⟩) (.of main_call9_v9 : StableHlo.TRef sig ⟨S2000000x1, .i32⟩) (.of main_call9_v10 : StableHlo.TRef sig ⟨S2000000x1, .i1⟩) (cmpi .sle),
    StableHlo.TRef.binary (.of main_call9_v7 : StableHlo.TRef sig ⟨S2000000x1, .i1⟩) (.of main_call9_v10 : StableHlo.TRef sig ⟨S2000000x1, .i1⟩) (.of main_call9_v11 : StableHlo.TRef sig ⟨S2000000x1, .i1⟩) andi,
    StableHlo.TRef.nullary (.of main_call9_c_3 : StableHlo.TRef sig ⟨S_, .i1⟩) (constantI S_ 1 1#1),
    StableHlo.TRef.binary (.of main_call9_v11 : StableHlo.TRef sig ⟨S2000000x1, .i1⟩) (.of main_call9_c_3 : StableHlo.TRef sig ⟨S_, .i1⟩) (.of main_call9_v12 : StableHlo.TRef sig ⟨S2000000, .i1⟩) (fun x v => Host.reduce IntOp.andi x v reducesTo_S2000000x1_S2000000_d1 h_S_),
    StableHlo.TRef.binary (.of main_v35 : StableHlo.TRef sig ⟨S2097152x16, .f32⟩) (.of main_call9_v5 : StableHlo.TRef sig ⟨S2000000x1, .i32⟩) (.of main_call9_v13 : StableHlo.TRef sig ⟨S2000000x16, .f32⟩) (fun x i => Host.gather gather_S2097152x16_S2000000x1_S2000000x16_1_0_n_n_0_1_116 x i),
    StableHlo.TRef.unary (.of main_call9_v12 : StableHlo.TRef sig ⟨S2000000, .i1⟩) (.of main_call9_v14 : StableHlo.TRef sig ⟨S2000000x16, .i1⟩) (broadcastInDim S2000000x16 ![0] bcast_S2000000_S2000000x16_0),
    StableHlo.TRef.nullary (.of main_call9_cst : StableHlo.TRef sig ⟨S_, .f32⟩) (constant S_ .f32 0x7FC00000#32),
    StableHlo.TRef.unary (.of main_call9_cst : StableHlo.TRef sig ⟨S_, .f32⟩) (.of main_call9_v15 : StableHlo.TRef sig ⟨S2000000x16, .f32⟩) (broadcastInDim S2000000x16 ![] bcast_S_S2000000x16),
    StableHlo.TRef.ternary (.of main_call9_v14 : StableHlo.TRef sig ⟨S2000000x16, .i1⟩) (.of main_call9_v13 : StableHlo.TRef sig ⟨S2000000x16, .f32⟩) (.of main_call9_v15 : StableHlo.TRef sig ⟨S2000000x16, .f32⟩) (.of main_v63 : StableHlo.TRef sig ⟨S2000000x16, .f32⟩) select ]

/-- 8 operations: a stretch of @main's own operations (window 1). -/
abbrev opsM1_3 : List (HloOp τ sig (Elt F)) :=
  [ StableHlo.nullary main_c_22 (constantI S_ 32 128#32),
    StableHlo.unary main_c_22 main_v64 (broadcastInDim S2000000 ![] bcast_S_S2000000 : (⟨S_, .i32⟩ : BufTy).Contents (Elt F) → (⟨S2000000, .i32⟩ : BufTy).Contents (Elt F)),
    StableHlo.binary main_v19 main_v64 main_v65 (muli : (⟨S2000000, .i32⟩ : BufTy).Contents (Elt F) → (⟨S2000000, .i32⟩ : BufTy).Contents (Elt F) → (⟨S2000000, .i32⟩ : BufTy).Contents (Elt F)),
    StableHlo.binary main_v65 main_v13 main_v66 (addi : (⟨S2000000, .i32⟩ : BufTy).Contents (Elt F) → (⟨S2000000, .i32⟩ : BufTy).Contents (Elt F) → (⟨S2000000, .i32⟩ : BufTy).Contents (Elt F)),
    StableHlo.nullary main_c_23 (constantI S_ 32 128#32),
    StableHlo.unary main_c_23 main_v67 (broadcastInDim S2000000 ![] bcast_S_S2000000 : (⟨S_, .i32⟩ : BufTy).Contents (Elt F) → (⟨S2000000, .i32⟩ : BufTy).Contents (Elt F)),
    StableHlo.binary main_v66 main_v67 main_v68 (muli : (⟨S2000000, .i32⟩ : BufTy).Contents (Elt F) → (⟨S2000000, .i32⟩ : BufTy).Contents (Elt F) → (⟨S2000000, .i32⟩ : BufTy).Contents (Elt F)),
    StableHlo.binary main_v68 main_v16 main_v69 (addi : (⟨S2000000, .i32⟩ : BufTy).Contents (Elt F) → (⟨S2000000, .i32⟩ : BufTy).Contents (Elt F) → (⟨S2000000, .i32⟩ : BufTy).Contents (Elt F)) ]

/-- 23 operations: the operations of @_take inlined at %70 = func.call @_take over the record main_call10. -/
abbrev opsC10 : List (HloOp τ sig (Elt F)) :=
  [ StableHlo.TRef.nullary (.of main_call10_c : StableHlo.TRef sig ⟨S_, .i32⟩) (constantI S_ 32 0#32),
    StableHlo.TRef.unary (.of main_call10_c : StableHlo.TRef sig ⟨S_, .i32⟩) (.of main_call10_v0 : StableHlo.TRef sig ⟨S2000000, .i32⟩) (broadcastInDim S2000000 ![] bcast_S_S2000000),
    StableHlo.TRef.binary (.of main_v69 : StableHlo.TRef sig ⟨S2000000, .i32⟩) (.of main_call10_v0 : StableHlo.TRef sig ⟨S2000000, .i32⟩) (.of main_call10_v1 : StableHlo.TRef sig ⟨S2000000, .i1⟩) (cmpi .slt),
    StableHlo.TRef.nullary (.of main_call10_c_0 : StableHlo.TRef sig ⟨S_, .i32⟩) (constantI S_ 32 2097152#32),
    StableHlo.TRef.unary (.of main_call10_c_0 : StableHlo.TRef sig ⟨S_, .i32⟩) (.of main_call10_v2 : StableHlo.TRef sig ⟨S2000000, .i32⟩) (broadcastInDim S2000000 ![] bcast_S_S2000000),
    StableHlo.TRef.binary (.of main_v69 : StableHlo.TRef sig ⟨S2000000, .i32⟩) (.of main_call10_v2 : StableHlo.TRef sig ⟨S2000000, .i32⟩) (.of main_call10_v3 : StableHlo.TRef sig ⟨S2000000, .i32⟩) addi,
    StableHlo.TRef.ternary (.of main_call10_v1 : StableHlo.TRef sig ⟨S2000000, .i1⟩) (.of main_call10_v3 : StableHlo.TRef sig ⟨S2000000, .i32⟩) (.of main_v69 : StableHlo.TRef sig ⟨S2000000, .i32⟩) (.of main_call10_v4 : StableHlo.TRef sig ⟨S2000000, .i32⟩) select,
    StableHlo.TRef.unary (.of main_call10_v4 : StableHlo.TRef sig ⟨S2000000, .i32⟩) (.of main_call10_v5 : StableHlo.TRef sig ⟨S2000000x1, .i32⟩) (broadcastInDim S2000000x1 ![0] bcast_S2000000_S2000000x1_0),
    StableHlo.TRef.nullary (.of main_call10_c_1 : StableHlo.TRef sig ⟨S1, .i32⟩) (constantI S1 32 2097151#32),
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v6 : StableHlo.TRef sig ⟨S2000000x1, .i32⟩) (broadcastInDim S2000000x1 ![] bcast_S_S2000000x1),
    StableHlo.TRef.binary (.of main_call10_v5 : StableHlo.TRef sig ⟨S2000000x1, .i32⟩) (.of main_call10_v6 : StableHlo.TRef sig ⟨S2000000x1, .i32⟩) (.of main_call10_v7 : StableHlo.TRef sig ⟨S2000000x1, .i1⟩) (cmpi .sge),
    StableHlo.TRef.unary (.of main_call10_c_1 : StableHlo.TRef sig ⟨S1, .i32⟩) (.of main_call10_v8 : StableHlo.TRef sig ⟨S1x1, .i32⟩) (broadcastInDim S1x1 ![1] bcast_S1_S1x1_1),
    StableHlo.TRef.unary (.of main_call10_v8 : StableHlo.TRef sig ⟨S1x1, .i32⟩) (.of main_call10_v9 : StableHlo.TRef sig ⟨S2000000x1, .i32⟩) (broadcastInDim S2000000x1 ![0, 1] bcast_S1x1_S2000000x1_0_1),
    StableHlo.TRef.binary (.of main_call10_v5 : StableHlo.TRef sig ⟨S2000000x1, .i32⟩) (.of main_call10_v9 : StableHlo.TRef sig ⟨S2000000x1, .i32⟩) (.of main_call10_v10 : StableHlo.TRef sig ⟨S2000000x1, .i1⟩) (cmpi .sle),
    StableHlo.TRef.binary (.of main_call10_v7 : StableHlo.TRef sig ⟨S2000000x1, .i1⟩) (.of main_call10_v10 : StableHlo.TRef sig ⟨S2000000x1, .i1⟩) (.of main_call10_v11 : StableHlo.TRef sig ⟨S2000000x1, .i1⟩) andi,
    StableHlo.TRef.nullary (.of main_call10_c_3 : StableHlo.TRef sig ⟨S_, .i1⟩) (constantI S_ 1 1#1),
    StableHlo.TRef.binary (.of main_call10_v11 : StableHlo.TRef sig ⟨S2000000x1, .i1⟩) (.of main_call10_c_3 : StableHlo.TRef sig ⟨S_, .i1⟩) (.of main_call10_v12 : StableHlo.TRef sig ⟨S2000000, .i1⟩) (fun x v => Host.reduce IntOp.andi x v reducesTo_S2000000x1_S2000000_d1 h_S_),
    StableHlo.TRef.binary (.of main_v35 : StableHlo.TRef sig ⟨S2097152x16, .f32⟩) (.of main_call10_v5 : StableHlo.TRef sig ⟨S2000000x1, .i32⟩) (.of main_call10_v13 : StableHlo.TRef sig ⟨S2000000x16, .f32⟩) (fun x i => Host.gather gather_S2097152x16_S2000000x1_S2000000x16_1_0_n_n_0_1_116 x i),
    StableHlo.TRef.unary (.of main_call10_v12 : StableHlo.TRef sig ⟨S2000000, .i1⟩) (.of main_call10_v14 : StableHlo.TRef sig ⟨S2000000x16, .i1⟩) (broadcastInDim S2000000x16 ![0] bcast_S2000000_S2000000x16_0),
    StableHlo.TRef.nullary (.of main_call10_cst : StableHlo.TRef sig ⟨S_, .f32⟩) (constant S_ .f32 0x7FC00000#32),
    StableHlo.TRef.unary (.of main_call10_cst : StableHlo.TRef sig ⟨S_, .f32⟩) (.of main_call10_v15 : StableHlo.TRef sig ⟨S2000000x16, .f32⟩) (broadcastInDim S2000000x16 ![] bcast_S_S2000000x16),
    StableHlo.TRef.ternary (.of main_call10_v14 : StableHlo.TRef sig ⟨S2000000x16, .i1⟩) (.of main_call10_v13 : StableHlo.TRef sig ⟨S2000000x16, .f32⟩) (.of main_call10_v15 : StableHlo.TRef sig ⟨S2000000x16, .f32⟩) (.of main_v70 : StableHlo.TRef sig ⟨S2000000x16, .f32⟩) select ]

/-- 8 operations: a stretch of @main's own operations (window 1). -/
abbrev opsM1_4 : List (HloOp τ sig (Elt F)) :=
  [ StableHlo.nullary main_c_24 (constantI S_ 32 128#32),
    StableHlo.unary main_c_24 main_v71 (broadcastInDim S2000000 ![] bcast_S_S2000000 : (⟨S_, .i32⟩ : BufTy).Contents (Elt F) → (⟨S2000000, .i32⟩ : BufTy).Contents (Elt F)),
    StableHlo.binary main_v19 main_v71 main_v72 (muli : (⟨S2000000, .i32⟩ : BufTy).Contents (Elt F) → (⟨S2000000, .i32⟩ : BufTy).Contents (Elt F) → (⟨S2000000, .i32⟩ : BufTy).Contents (Elt F)),
    StableHlo.binary main_v72 main_v13 main_v73 (addi : (⟨S2000000, .i32⟩ : BufTy).Contents (Elt F) → (⟨S2000000, .i32⟩ : BufTy).Contents (Elt F) → (⟨S2000000, .i32⟩ : BufTy).Contents (Elt F)),
    StableHlo.nullary main_c_25 (constantI S_ 32 128#32),
    StableHlo.unary main_c_25 main_v74 (broadcastInDim S2000000 ![] bcast_S_S2000000 : (⟨S_, .i32⟩ : BufTy).Contents (Elt F) → (⟨S2000000, .i32⟩ : BufTy).Contents (Elt F)),
    StableHlo.binary main_v73 main_v74 main_v75 (muli : (⟨S2000000, .i32⟩ : BufTy).Contents (Elt F) → (⟨S2000000, .i32⟩ : BufTy).Contents (Elt F) → (⟨S2000000, .i32⟩ : BufTy).Contents (Elt F)),
    StableHlo.binary main_v75 main_v25 main_v76 (addi : (⟨S2000000, .i32⟩ : BufTy).Contents (Elt F) → (⟨S2000000, .i32⟩ : BufTy).Contents (Elt F) → (⟨S2000000, .i32⟩ : BufTy).Contents (Elt F)) ]

/-- 23 operations: the operations of @_take inlined at %77 = func.call @_take over the record main_call11. -/
abbrev opsC11 : List (HloOp τ sig (Elt F)) :=
  [ StableHlo.TRef.nullary (.of main_call11_c : StableHlo.TRef sig ⟨S_, .i32⟩) (constantI S_ 32 0#32),
    StableHlo.TRef.unary (.of main_call11_c : StableHlo.TRef sig ⟨S_, .i32⟩) (.of main_call11_v0 : StableHlo.TRef sig ⟨S2000000, .i32⟩) (broadcastInDim S2000000 ![] bcast_S_S2000000),
    StableHlo.TRef.binary (.of main_v76 : StableHlo.TRef sig ⟨S2000000, .i32⟩) (.of main_call11_v0 : StableHlo.TRef sig ⟨S2000000, .i32⟩) (.of main_call11_v1 : StableHlo.TRef sig ⟨S2000000, .i1⟩) (cmpi .slt),
    StableHlo.TRef.nullary (.of main_call11_c_0 : StableHlo.TRef sig ⟨S_, .i32⟩) (constantI S_ 32 2097152#32),
    StableHlo.TRef.unary (.of main_call11_c_0 : StableHlo.TRef sig ⟨S_, .i32⟩) (.of main_call11_v2 : StableHlo.TRef sig ⟨S2000000, .i32⟩) (broadcastInDim S2000000 ![] bcast_S_S2000000),
    StableHlo.TRef.binary (.of main_v76 : StableHlo.TRef sig ⟨S2000000, .i32⟩) (.of main_call11_v2 : StableHlo.TRef sig ⟨S2000000, .i32⟩) (.of main_call11_v3 : StableHlo.TRef sig ⟨S2000000, .i32⟩) addi,
    StableHlo.TRef.ternary (.of main_call11_v1 : StableHlo.TRef sig ⟨S2000000, .i1⟩) (.of main_call11_v3 : StableHlo.TRef sig ⟨S2000000, .i32⟩) (.of main_v76 : StableHlo.TRef sig ⟨S2000000, .i32⟩) (.of main_call11_v4 : StableHlo.TRef sig ⟨S2000000, .i32⟩) select,
    StableHlo.TRef.unary (.of main_call11_v4 : StableHlo.TRef sig ⟨S2000000, .i32⟩) (.of main_call11_v5 : StableHlo.TRef sig ⟨S2000000x1, .i32⟩) (broadcastInDim S2000000x1 ![0] bcast_S2000000_S2000000x1_0),
    StableHlo.TRef.nullary (.of main_call11_c_1 : StableHlo.TRef sig ⟨S1, .i32⟩) (constantI S1 32 2097151#32),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v6 : StableHlo.TRef sig ⟨S2000000x1, .i32⟩) (broadcastInDim S2000000x1 ![] bcast_S_S2000000x1),
    StableHlo.TRef.binary (.of main_call11_v5 : StableHlo.TRef sig ⟨S2000000x1, .i32⟩) (.of main_call11_v6 : StableHlo.TRef sig ⟨S2000000x1, .i32⟩) (.of main_call11_v7 : StableHlo.TRef sig ⟨S2000000x1, .i1⟩) (cmpi .sge),
    StableHlo.TRef.unary (.of main_call11_c_1 : StableHlo.TRef sig ⟨S1, .i32⟩) (.of main_call11_v8 : StableHlo.TRef sig ⟨S1x1, .i32⟩) (broadcastInDim S1x1 ![1] bcast_S1_S1x1_1),
    StableHlo.TRef.unary (.of main_call11_v8 : StableHlo.TRef sig ⟨S1x1, .i32⟩) (.of main_call11_v9 : StableHlo.TRef sig ⟨S2000000x1, .i32⟩) (broadcastInDim S2000000x1 ![0, 1] bcast_S1x1_S2000000x1_0_1),
    StableHlo.TRef.binary (.of main_call11_v5 : StableHlo.TRef sig ⟨S2000000x1, .i32⟩) (.of main_call11_v9 : StableHlo.TRef sig ⟨S2000000x1, .i32⟩) (.of main_call11_v10 : StableHlo.TRef sig ⟨S2000000x1, .i1⟩) (cmpi .sle),
    StableHlo.TRef.binary (.of main_call11_v7 : StableHlo.TRef sig ⟨S2000000x1, .i1⟩) (.of main_call11_v10 : StableHlo.TRef sig ⟨S2000000x1, .i1⟩) (.of main_call11_v11 : StableHlo.TRef sig ⟨S2000000x1, .i1⟩) andi,
    StableHlo.TRef.nullary (.of main_call11_c_3 : StableHlo.TRef sig ⟨S_, .i1⟩) (constantI S_ 1 1#1),
    StableHlo.TRef.binary (.of main_call11_v11 : StableHlo.TRef sig ⟨S2000000x1, .i1⟩) (.of main_call11_c_3 : StableHlo.TRef sig ⟨S_, .i1⟩) (.of main_call11_v12 : StableHlo.TRef sig ⟨S2000000, .i1⟩) (fun x v => Host.reduce IntOp.andi x v reducesTo_S2000000x1_S2000000_d1 h_S_),
    StableHlo.TRef.binary (.of main_v35 : StableHlo.TRef sig ⟨S2097152x16, .f32⟩) (.of main_call11_v5 : StableHlo.TRef sig ⟨S2000000x1, .i32⟩) (.of main_call11_v13 : StableHlo.TRef sig ⟨S2000000x16, .f32⟩) (fun x i => Host.gather gather_S2097152x16_S2000000x1_S2000000x16_1_0_n_n_0_1_116 x i),
    StableHlo.TRef.unary (.of main_call11_v12 : StableHlo.TRef sig ⟨S2000000, .i1⟩) (.of main_call11_v14 : StableHlo.TRef sig ⟨S2000000x16, .i1⟩) (broadcastInDim S2000000x16 ![0] bcast_S2000000_S2000000x16_0),
    StableHlo.TRef.nullary (.of main_call11_cst : StableHlo.TRef sig ⟨S_, .f32⟩) (constant S_ .f32 0x7FC00000#32),
    StableHlo.TRef.unary (.of main_call11_cst : StableHlo.TRef sig ⟨S_, .f32⟩) (.of main_call11_v15 : StableHlo.TRef sig ⟨S2000000x16, .f32⟩) (broadcastInDim S2000000x16 ![] bcast_S_S2000000x16),
    StableHlo.TRef.ternary (.of main_call11_v14 : StableHlo.TRef sig ⟨S2000000x16, .i1⟩) (.of main_call11_v13 : StableHlo.TRef sig ⟨S2000000x16, .f32⟩) (.of main_call11_v15 : StableHlo.TRef sig ⟨S2000000x16, .f32⟩) (.of main_v77 : StableHlo.TRef sig ⟨S2000000x16, .f32⟩) select ]

/-- 8 operations: a stretch of @main's own operations (window 1). -/
abbrev opsM1_5 : List (HloOp τ sig (Elt F)) :=
  [ StableHlo.nullary main_c_26 (constantI S_ 32 128#32),
    StableHlo.unary main_c_26 main_v78 (broadcastInDim S2000000 ![] bcast_S_S2000000 : (⟨S_, .i32⟩ : BufTy).Contents (Elt F) → (⟨S2000000, .i32⟩ : BufTy).Contents (Elt F)),
    StableHlo.binary main_v19 main_v78 main_v79 (muli : (⟨S2000000, .i32⟩ : BufTy).Contents (Elt F) → (⟨S2000000, .i32⟩ : BufTy).Contents (Elt F) → (⟨S2000000, .i32⟩ : BufTy).Contents (Elt F)),
    StableHlo.binary main_v79 main_v22 main_v80 (addi : (⟨S2000000, .i32⟩ : BufTy).Contents (Elt F) → (⟨S2000000, .i32⟩ : BufTy).Contents (Elt F) → (⟨S2000000, .i32⟩ : BufTy).Contents (Elt F)),
    StableHlo.nullary main_c_27 (constantI S_ 32 128#32),
    StableHlo.unary main_c_27 main_v81 (broadcastInDim S2000000 ![] bcast_S_S2000000 : (⟨S_, .i32⟩ : BufTy).Contents (Elt F) → (⟨S2000000, .i32⟩ : BufTy).Contents (Elt F)),
    StableHlo.binary main_v80 main_v81 main_v82 (muli : (⟨S2000000, .i32⟩ : BufTy).Contents (Elt F) → (⟨S2000000, .i32⟩ : BufTy).Contents (Elt F) → (⟨S2000000, .i32⟩ : BufTy).Contents (Elt F)),
    StableHlo.binary main_v82 main_v16 main_v83 (addi : (⟨S2000000, .i32⟩ : BufTy).Contents (Elt F) → (⟨S2000000, .i32⟩ : BufTy).Contents (Elt F) → (⟨S2000000, .i32⟩ : BufTy).Contents (Elt F)) ]

/-- 23 operations: the operations of @_take inlined at %84 = func.call @_take over the record main_call12. -/
abbrev opsC12 : List (HloOp τ sig (Elt F)) :=
  [ StableHlo.TRef.nullary (.of main_call12_c : StableHlo.TRef sig ⟨S_, .i32⟩) (constantI S_ 32 0#32),
    StableHlo.TRef.unary (.of main_call12_c : StableHlo.TRef sig ⟨S_, .i32⟩) (.of main_call12_v0 : StableHlo.TRef sig ⟨S2000000, .i32⟩) (broadcastInDim S2000000 ![] bcast_S_S2000000),
    StableHlo.TRef.binary (.of main_v83 : StableHlo.TRef sig ⟨S2000000, .i32⟩) (.of main_call12_v0 : StableHlo.TRef sig ⟨S2000000, .i32⟩) (.of main_call12_v1 : StableHlo.TRef sig ⟨S2000000, .i1⟩) (cmpi .slt),
    StableHlo.TRef.nullary (.of main_call12_c_0 : StableHlo.TRef sig ⟨S_, .i32⟩) (constantI S_ 32 2097152#32),
    StableHlo.TRef.unary (.of main_call12_c_0 : StableHlo.TRef sig ⟨S_, .i32⟩) (.of main_call12_v2 : StableHlo.TRef sig ⟨S2000000, .i32⟩) (broadcastInDim S2000000 ![] bcast_S_S2000000),
    StableHlo.TRef.binary (.of main_v83 : StableHlo.TRef sig ⟨S2000000, .i32⟩) (.of main_call12_v2 : StableHlo.TRef sig ⟨S2000000, .i32⟩) (.of main_call12_v3 : StableHlo.TRef sig ⟨S2000000, .i32⟩) addi,
    StableHlo.TRef.ternary (.of main_call12_v1 : StableHlo.TRef sig ⟨S2000000, .i1⟩) (.of main_call12_v3 : StableHlo.TRef sig ⟨S2000000, .i32⟩) (.of main_v83 : StableHlo.TRef sig ⟨S2000000, .i32⟩) (.of main_call12_v4 : StableHlo.TRef sig ⟨S2000000, .i32⟩) select,
    StableHlo.TRef.unary (.of main_call12_v4 : StableHlo.TRef sig ⟨S2000000, .i32⟩) (.of main_call12_v5 : StableHlo.TRef sig ⟨S2000000x1, .i32⟩) (broadcastInDim S2000000x1 ![0] bcast_S2000000_S2000000x1_0),
    StableHlo.TRef.nullary (.of main_call12_c_1 : StableHlo.TRef sig ⟨S1, .i32⟩) (constantI S1 32 2097151#32),
    StableHlo.TRef.nullary (.of main_call12_c_2 : StableHlo.TRef sig ⟨S_, .i32⟩) (constantI S_ 32 0#32),
    StableHlo.TRef.unary (.of main_call12_c_2 : StableHlo.TRef sig ⟨S_, .i32⟩) (.of main_call12_v6 : StableHlo.TRef sig ⟨S2000000x1, .i32⟩) (broadcastInDim S2000000x1 ![] bcast_S_S2000000x1),
    StableHlo.TRef.binary (.of main_call12_v5 : StableHlo.TRef sig ⟨S2000000x1, .i32⟩) (.of main_call12_v6 : StableHlo.TRef sig ⟨S2000000x1, .i32⟩) (.of main_call12_v7 : StableHlo.TRef sig ⟨S2000000x1, .i1⟩) (cmpi .sge),
    StableHlo.TRef.unary (.of main_call12_c_1 : StableHlo.TRef sig ⟨S1, .i32⟩) (.of main_call12_v8 : StableHlo.TRef sig ⟨S1x1, .i32⟩) (broadcastInDim S1x1 ![1] bcast_S1_S1x1_1),
    StableHlo.TRef.unary (.of main_call12_v8 : StableHlo.TRef sig ⟨S1x1, .i32⟩) (.of main_call12_v9 : StableHlo.TRef sig ⟨S2000000x1, .i32⟩) (broadcastInDim S2000000x1 ![0, 1] bcast_S1x1_S2000000x1_0_1),
    StableHlo.TRef.binary (.of main_call12_v5 : StableHlo.TRef sig ⟨S2000000x1, .i32⟩) (.of main_call12_v9 : StableHlo.TRef sig ⟨S2000000x1, .i32⟩) (.of main_call12_v10 : StableHlo.TRef sig ⟨S2000000x1, .i1⟩) (cmpi .sle),
    StableHlo.TRef.binary (.of main_call12_v7 : StableHlo.TRef sig ⟨S2000000x1, .i1⟩) (.of main_call12_v10 : StableHlo.TRef sig ⟨S2000000x1, .i1⟩) (.of main_call12_v11 : StableHlo.TRef sig ⟨S2000000x1, .i1⟩) andi,
    StableHlo.TRef.nullary (.of main_call12_c_3 : StableHlo.TRef sig ⟨S_, .i1⟩) (constantI S_ 1 1#1),
    StableHlo.TRef.binary (.of main_call12_v11 : StableHlo.TRef sig ⟨S2000000x1, .i1⟩) (.of main_call12_c_3 : StableHlo.TRef sig ⟨S_, .i1⟩) (.of main_call12_v12 : StableHlo.TRef sig ⟨S2000000, .i1⟩) (fun x v => Host.reduce IntOp.andi x v reducesTo_S2000000x1_S2000000_d1 h_S_),
    StableHlo.TRef.binary (.of main_v35 : StableHlo.TRef sig ⟨S2097152x16, .f32⟩) (.of main_call12_v5 : StableHlo.TRef sig ⟨S2000000x1, .i32⟩) (.of main_call12_v13 : StableHlo.TRef sig ⟨S2000000x16, .f32⟩) (fun x i => Host.gather gather_S2097152x16_S2000000x1_S2000000x16_1_0_n_n_0_1_116 x i),
    StableHlo.TRef.unary (.of main_call12_v12 : StableHlo.TRef sig ⟨S2000000, .i1⟩) (.of main_call12_v14 : StableHlo.TRef sig ⟨S2000000x16, .i1⟩) (broadcastInDim S2000000x16 ![0] bcast_S2000000_S2000000x16_0),
    StableHlo.TRef.nullary (.of main_call12_cst : StableHlo.TRef sig ⟨S_, .f32⟩) (constant S_ .f32 0x7FC00000#32),
    StableHlo.TRef.unary (.of main_call12_cst : StableHlo.TRef sig ⟨S_, .f32⟩) (.of main_call12_v15 : StableHlo.TRef sig ⟨S2000000x16, .f32⟩) (broadcastInDim S2000000x16 ![] bcast_S_S2000000x16),
    StableHlo.TRef.ternary (.of main_call12_v14 : StableHlo.TRef sig ⟨S2000000x16, .i1⟩) (.of main_call12_v13 : StableHlo.TRef sig ⟨S2000000x16, .f32⟩) (.of main_call12_v15 : StableHlo.TRef sig ⟨S2000000x16, .f32⟩) (.of main_v84 : StableHlo.TRef sig ⟨S2000000x16, .f32⟩) select ]

/-- 5 operations: a stretch of @main's own operations (window 1). -/
abbrev opsM1_6 : List (HloOp τ sig (Elt F)) :=
  [ StableHlo.nullary main_c_28 (constantI S_ 32 128#32),
    StableHlo.unary main_c_28 main_v85 (broadcastInDim S2000000 ![] bcast_S_S2000000 : (⟨S_, .i32⟩ : BufTy).Contents (Elt F) → (⟨S2000000, .i32⟩ : BufTy).Contents (Elt F)),
    StableHlo.binary main_v19 main_v85 main_v86 (muli : (⟨S2000000, .i32⟩ : BufTy).Contents (Elt F) → (⟨S2000000, .i32⟩ : BufTy).Contents (Elt F) → (⟨S2000000, .i32⟩ : BufTy).Contents (Elt F)),
    StableHlo.binary main_v86 main_v22 main_v87 (addi : (⟨S2000000, .i32⟩ : BufTy).Contents (Elt F) → (⟨S2000000, .i32⟩ : BufTy).Contents (Elt F) → (⟨S2000000, .i32⟩ : BufTy).Contents (Elt F)),
    StableHlo.nullary main_c_29 (constantI S_ 32 128#32) ]

/-- Window 1 of @main: 214 operations, its parts in order. -/
abbrev opsW1 : List (HloOp τ sig (Elt F)) :=
  opsC6 ++ opsM1_0 ++ opsC7 ++ opsM1_1 ++ opsC8 ++ opsM1_2 ++ opsC9 ++ opsM1_3 ++ opsC10 ++ opsM1_4 ++ opsC11 ++ opsM1_5 ++ opsC12 ++ opsM1_6

/-- 3 operations: a stretch of @main's own operations (window 2). -/
abbrev opsM2_0 : List (HloOp τ sig (Elt F)) :=
  [ StableHlo.unary main_c_29 main_v88 (broadcastInDim S2000000 ![] bcast_S_S2000000 : (⟨S_, .i32⟩ : BufTy).Contents (Elt F) → (⟨S2000000, .i32⟩ : BufTy).Contents (Elt F)),
    StableHlo.binary main_v87 main_v88 main_v89 (muli : (⟨S2000000, .i32⟩ : BufTy).Contents (Elt F) → (⟨S2000000, .i32⟩ : BufTy).Contents (Elt F) → (⟨S2000000, .i32⟩ : BufTy).Contents (Elt F)),
    StableHlo.binary main_v89 main_v25 main_v90 (addi : (⟨S2000000, .i32⟩ : BufTy).Contents (Elt F) → (⟨S2000000, .i32⟩ : BufTy).Contents (Elt F) → (⟨S2000000, .i32⟩ : BufTy).Contents (Elt F)) ]

/-- 23 operations: the operations of @_take inlined at %91 = func.call @_take over the record main_call13. -/
abbrev opsC13 : List (HloOp τ sig (Elt F)) :=
  [ StableHlo.TRef.nullary (.of main_call13_c : StableHlo.TRef sig ⟨S_, .i32⟩) (constantI S_ 32 0#32),
    StableHlo.TRef.unary (.of main_call13_c : StableHlo.TRef sig ⟨S_, .i32⟩) (.of main_call13_v0 : StableHlo.TRef sig ⟨S2000000, .i32⟩) (broadcastInDim S2000000 ![] bcast_S_S2000000),
    StableHlo.TRef.binary (.of main_v90 : StableHlo.TRef sig ⟨S2000000, .i32⟩) (.of main_call13_v0 : StableHlo.TRef sig ⟨S2000000, .i32⟩) (.of main_call13_v1 : StableHlo.TRef sig ⟨S2000000, .i1⟩) (cmpi .slt),
    StableHlo.TRef.nullary (.of main_call13_c_0 : StableHlo.TRef sig ⟨S_, .i32⟩) (constantI S_ 32 2097152#32),
    StableHlo.TRef.unary (.of main_call13_c_0 : StableHlo.TRef sig ⟨S_, .i32⟩) (.of main_call13_v2 : StableHlo.TRef sig ⟨S2000000, .i32⟩) (broadcastInDim S2000000 ![] bcast_S_S2000000),
    StableHlo.TRef.binary (.of main_v90 : StableHlo.TRef sig ⟨S2000000, .i32⟩) (.of main_call13_v2 : StableHlo.TRef sig ⟨S2000000, .i32⟩) (.of main_call13_v3 : StableHlo.TRef sig ⟨S2000000, .i32⟩) addi,
    StableHlo.TRef.ternary (.of main_call13_v1 : StableHlo.TRef sig ⟨S2000000, .i1⟩) (.of main_call13_v3 : StableHlo.TRef sig ⟨S2000000, .i32⟩) (.of main_v90 : StableHlo.TRef sig ⟨S2000000, .i32⟩) (.of main_call13_v4 : StableHlo.TRef sig ⟨S2000000, .i32⟩) select,
    StableHlo.TRef.unary (.of main_call13_v4 : StableHlo.TRef sig ⟨S2000000, .i32⟩) (.of main_call13_v5 : StableHlo.TRef sig ⟨S2000000x1, .i32⟩) (broadcastInDim S2000000x1 ![0] bcast_S2000000_S2000000x1_0),
    StableHlo.TRef.nullary (.of main_call13_c_1 : StableHlo.TRef sig ⟨S1, .i32⟩) (constantI S1 32 2097151#32),
    StableHlo.TRef.nullary (.of main_call13_c_2 : StableHlo.TRef sig ⟨S_, .i32⟩) (constantI S_ 32 0#32),
    StableHlo.TRef.unary (.of main_call13_c_2 : StableHlo.TRef sig ⟨S_, .i32⟩) (.of main_call13_v6 : StableHlo.TRef sig ⟨S2000000x1, .i32⟩) (broadcastInDim S2000000x1 ![] bcast_S_S2000000x1),
    StableHlo.TRef.binary (.of main_call13_v5 : StableHlo.TRef sig ⟨S2000000x1, .i32⟩) (.of main_call13_v6 : StableHlo.TRef sig ⟨S2000000x1, .i32⟩) (.of main_call13_v7 : StableHlo.TRef sig ⟨S2000000x1, .i1⟩) (cmpi .sge),
    StableHlo.TRef.unary (.of main_call13_c_1 : StableHlo.TRef sig ⟨S1, .i32⟩) (.of main_call13_v8 : StableHlo.TRef sig ⟨S1x1, .i32⟩) (broadcastInDim S1x1 ![1] bcast_S1_S1x1_1),
    StableHlo.TRef.unary (.of main_call13_v8 : StableHlo.TRef sig ⟨S1x1, .i32⟩) (.of main_call13_v9 : StableHlo.TRef sig ⟨S2000000x1, .i32⟩) (broadcastInDim S2000000x1 ![0, 1] bcast_S1x1_S2000000x1_0_1),
    StableHlo.TRef.binary (.of main_call13_v5 : StableHlo.TRef sig ⟨S2000000x1, .i32⟩) (.of main_call13_v9 : StableHlo.TRef sig ⟨S2000000x1, .i32⟩) (.of main_call13_v10 : StableHlo.TRef sig ⟨S2000000x1, .i1⟩) (cmpi .sle),
    StableHlo.TRef.binary (.of main_call13_v7 : StableHlo.TRef sig ⟨S2000000x1, .i1⟩) (.of main_call13_v10 : StableHlo.TRef sig ⟨S2000000x1, .i1⟩) (.of main_call13_v11 : StableHlo.TRef sig ⟨S2000000x1, .i1⟩) andi,
    StableHlo.TRef.nullary (.of main_call13_c_3 : StableHlo.TRef sig ⟨S_, .i1⟩) (constantI S_ 1 1#1),
    StableHlo.TRef.binary (.of main_call13_v11 : StableHlo.TRef sig ⟨S2000000x1, .i1⟩) (.of main_call13_c_3 : StableHlo.TRef sig ⟨S_, .i1⟩) (.of main_call13_v12 : StableHlo.TRef sig ⟨S2000000, .i1⟩) (fun x v => Host.reduce IntOp.andi x v reducesTo_S2000000x1_S2000000_d1 h_S_),
    StableHlo.TRef.binary (.of main_v35 : StableHlo.TRef sig ⟨S2097152x16, .f32⟩) (.of main_call13_v5 : StableHlo.TRef sig ⟨S2000000x1, .i32⟩) (.of main_call13_v13 : StableHlo.TRef sig ⟨S2000000x16, .f32⟩) (fun x i => Host.gather gather_S2097152x16_S2000000x1_S2000000x16_1_0_n_n_0_1_116 x i),
    StableHlo.TRef.unary (.of main_call13_v12 : StableHlo.TRef sig ⟨S2000000, .i1⟩) (.of main_call13_v14 : StableHlo.TRef sig ⟨S2000000x16, .i1⟩) (broadcastInDim S2000000x16 ![0] bcast_S2000000_S2000000x16_0),
    StableHlo.TRef.nullary (.of main_call13_cst : StableHlo.TRef sig ⟨S_, .f32⟩) (constant S_ .f32 0x7FC00000#32),
    StableHlo.TRef.unary (.of main_call13_cst : StableHlo.TRef sig ⟨S_, .f32⟩) (.of main_call13_v15 : StableHlo.TRef sig ⟨S2000000x16, .f32⟩) (broadcastInDim S2000000x16 ![] bcast_S_S2000000x16),
    StableHlo.TRef.ternary (.of main_call13_v14 : StableHlo.TRef sig ⟨S2000000x16, .i1⟩) (.of main_call13_v13 : StableHlo.TRef sig ⟨S2000000x16, .f32⟩) (.of main_call13_v15 : StableHlo.TRef sig ⟨S2000000x16, .f32⟩) (.of main_v91 : StableHlo.TRef sig ⟨S2000000x16, .f32⟩) select ]

/-- 56 operations: a stretch of @main's own operations (window 2). -/
abbrev opsM2_1 : List (HloOp τ sig (Elt F)) :=
  [ StableHlo.nullary main_cst_30 (constant S_ .f32 0x3F800000#32),
    StableHlo.unary main_cst_30 main_v92 (broadcastInDim S2000000x1 ![] bcast_S_S2000000x1 : (⟨S_, .f32⟩ : BufTy).Contents (Elt F) → (⟨S2000000x1, .f32⟩ : BufTy).Contents (Elt F)),
    StableHlo.binary main_v92 main_v28 main_v93 (subf : (⟨S2000000x1, .f32⟩ : BufTy).Contents (Elt F) → (⟨S2000000x1, .f32⟩ : BufTy).Contents (Elt F) → (⟨S2000000x1, .f32⟩ : BufTy).Contents (Elt F)),
    StableHlo.unary main_v93 main_v94 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v42 main_v94 main_v95 (mulf : (⟨S2000000x16, .f32⟩ : BufTy).Contents (Elt F) → (⟨S2000000x16, .f32⟩ : BufTy).Contents (Elt F) → (⟨S2000000x16, .f32⟩ : BufTy).Contents (Elt F)),
    StableHlo.unary main_v28 main_v96 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v70 main_v96 main_v97 (mulf : (⟨S2000000x16, .f32⟩ : BufTy).Contents (Elt F) → (⟨S2000000x16, .f32⟩ : BufTy).Contents (Elt F) → (⟨S2000000x16, .f32⟩ : BufTy).Contents (Elt F)),
    StableHlo.binary main_v95 main_v97 main_v98 (addf : (⟨S2000000x16, .f32⟩ : BufTy).Contents (Elt F) → (⟨S2000000x16, .f32⟩ : BufTy).Contents (Elt F) → (⟨S2000000x16, .f32⟩ : BufTy).Contents (Elt F)),
    StableHlo.nullary main_cst_31 (constant S_ .f32 0x3F800000#32),
    StableHlo.unary main_cst_31 main_v99 (broadcastInDim S2000000x1 ![] bcast_S_S2000000x1 : (⟨S_, .f32⟩ : BufTy).Contents (Elt F) → (⟨S2000000x1, .f32⟩ : BufTy).Contents (Elt F)),
    StableHlo.binary main_v99 main_v28 main_v100 (subf : (⟨S2000000x1, .f32⟩ : BufTy).Contents (Elt F) → (⟨S2000000x1, .f32⟩ : BufTy).Contents (Elt F) → (⟨S2000000x1, .f32⟩ : BufTy).Contents (Elt F)),
    StableHlo.unary main_v100 main_v101 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v49 main_v101 main_v102 (mulf : (⟨S2000000x16, .f32⟩ : BufTy).Contents (Elt F) → (⟨S2000000x16, .f32⟩ : BufTy).Contents (Elt F) → (⟨S2000000x16, .f32⟩ : BufTy).Contents (Elt F)),
    StableHlo.unary main_v28 main_v103 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v77 main_v103 main_v104 (mulf : (⟨S2000000x16, .f32⟩ : BufTy).Contents (Elt F) → (⟨S2000000x16, .f32⟩ : BufTy).Contents (Elt F) → (⟨S2000000x16, .f32⟩ : BufTy).Contents (Elt F)),
    StableHlo.binary main_v102 main_v104 main_v105 (addf : (⟨S2000000x16, .f32⟩ : BufTy).Contents (Elt F) → (⟨S2000000x16, .f32⟩ : BufTy).Contents (Elt F) → (⟨S2000000x16, .f32⟩ : BufTy).Contents (Elt F)),
    StableHlo.nullary main_cst_32 (constant S_ .f32 0x3F800000#32),
    StableHlo.unary main_cst_32 main_v106 (broadcastInDim S2000000x1 ![] bcast_S_S2000000x1 : (⟨S_, .f32⟩ : BufTy).Contents (Elt F) → (⟨S2000000x1, .f32⟩ : BufTy).Contents (Elt F)),
    StableHlo.binary main_v106 main_v28 main_v107 (subf : (⟨S2000000x1, .f32⟩ : BufTy).Contents (Elt F) → (⟨S2000000x1, .f32⟩ : BufTy).Contents (Elt F) → (⟨S2000000x1, .f32⟩ : BufTy).Contents (Elt F)),
    StableHlo.unary main_v107 main_v108 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v56 main_v108 main_v109 (mulf : (⟨S2000000x16, .f32⟩ : BufTy).Contents (Elt F) → (⟨S2000000x16, .f32⟩ : BufTy).Contents (Elt F) → (⟨S2000000x16, .f32⟩ : BufTy).Contents (Elt F)),
    StableHlo.unary main_v28 main_v110 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v84 main_v110 main_v111 (mulf : (⟨S2000000x16, .f32⟩ : BufTy).Contents (Elt F) → (⟨S2000000x16, .f32⟩ : BufTy).Contents (Elt F) → (⟨S2000000x16, .f32⟩ : BufTy).Contents (Elt F)),
    StableHlo.binary main_v109 main_v111 main_v112 (addf : (⟨S2000000x16, .f32⟩ : BufTy).Contents (Elt F) → (⟨S2000000x16, .f32⟩ : BufTy).Contents (Elt F) → (⟨S2000000x16, .f32⟩ : BufTy).Contents (Elt F)),
    StableHlo.nullary main_cst_33 (constant S_ .f32 0x3F800000#32),
    StableHlo.unary main_cst_33 main_v113 (broadcastInDim S2000000x1 ![] bcast_S_S2000000x1 : (⟨S_, .f32⟩ : BufTy).Contents (Elt F) → (⟨S2000000x1, .f32⟩ : BufTy).Contents (Elt F)),
    StableHlo.binary main_v113 main_v28 main_v114 (subf : (⟨S2000000x1, .f32⟩ : BufTy).Contents (Elt F) → (⟨S2000000x1, .f32⟩ : BufTy).Contents (Elt F) → (⟨S2000000x1, .f32⟩ : BufTy).Contents (Elt F)),
    StableHlo.unary main_v114 main_v115 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v63 main_v115 main_v116 (mulf : (⟨S2000000x16, .f32⟩ : BufTy).Contents (Elt F) → (⟨S2000000x16, .f32⟩ : BufTy).Contents (Elt F) → (⟨S2000000x16, .f32⟩ : BufTy).Contents (Elt F)),
    StableHlo.unary main_v28 main_v117 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v91 main_v117 main_v118 (mulf : (⟨S2000000x16, .f32⟩ : BufTy).Contents (Elt F) → (⟨S2000000x16, .f32⟩ : BufTy).Contents (Elt F) → (⟨S2000000x16, .f32⟩ : BufTy).Contents (Elt F)),
    StableHlo.binary main_v116 main_v118 main_v119 (addf : (⟨S2000000x16, .f32⟩ : BufTy).Contents (Elt F) → (⟨S2000000x16, .f32⟩ : BufTy).Contents (Elt F) → (⟨S2000000x16, .f32⟩ : BufTy).Contents (Elt F)),
    StableHlo.nullary main_cst_34 (constant S_ .f32 0x3F800000#32),
    StableHlo.unary main_cst_34 main_v120 (broadcastInDim S2000000x1 ![] bcast_S_S2000000x1 : (⟨S_, .f32⟩ : BufTy).Contents (Elt F) → (⟨S2000000x1, .f32⟩ : BufTy).Contents (Elt F)),
    StableHlo.binary main_v120 main_v31 main_v121 (subf : (⟨S2000000x1, .f32⟩ : BufTy).Contents (Elt F) → (⟨S2000000x1, .f32⟩ : BufTy).Contents (Elt F) → (⟨S2000000x1, .f32⟩ : BufTy).Contents (Elt F)),
    StableHlo.unary main_v121 main_v122 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v98 main_v122 main_v123 (mulf : (⟨S2000000x16, .f32⟩ : BufTy).Contents (Elt F) → (⟨S2000000x16, .f32⟩ : BufTy).Contents (Elt F) → (⟨S2000000x16, .f32⟩ : BufTy).Contents (Elt F)),
    StableHlo.unary main_v31 main_v124 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v112 main_v124 main_v125 (mulf : (⟨S2000000x16, .f32⟩ : BufTy).Contents (Elt F) → (⟨S2000000x16, .f32⟩ : BufTy).Contents (Elt F) → (⟨S2000000x16, .f32⟩ : BufTy).Contents (Elt F)),
    StableHlo.binary main_v123 main_v125 main_v126 (addf : (⟨S2000000x16, .f32⟩ : BufTy).Contents (Elt F) → (⟨S2000000x16, .f32⟩ : BufTy).Contents (Elt F) → (⟨S2000000x16, .f32⟩ : BufTy).Contents (Elt F)),
    StableHlo.nullary main_cst_35 (constant S_ .f32 0x3F800000#32),
    StableHlo.unary main_cst_35 main_v127 (broadcastInDim S2000000x1 ![] bcast_S_S2000000x1 : (⟨S_, .f32⟩ : BufTy).Contents (Elt F) → (⟨S2000000x1, .f32⟩ : BufTy).Contents (Elt F)),
    StableHlo.binary main_v127 main_v31 main_v128 (subf : (⟨S2000000x1, .f32⟩ : BufTy).Contents (Elt F) → (⟨S2000000x1, .f32⟩ : BufTy).Contents (Elt F) → (⟨S2000000x1, .f32⟩ : BufTy).Contents (Elt F)),
    StableHlo.unary main_v128 main_v129 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v105 main_v129 main_v130 (mulf : (⟨S2000000x16, .f32⟩ : BufTy).Contents (Elt F) → (⟨S2000000x16, .f32⟩ : BufTy).Contents (Elt F) → (⟨S2000000x16, .f32⟩ : BufTy).Contents (Elt F)),
    StableHlo.unary main_v31 main_v131 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v119 main_v131 main_v132 (mulf : (⟨S2000000x16, .f32⟩ : BufTy).Contents (Elt F) → (⟨S2000000x16, .f32⟩ : BufTy).Contents (Elt F) → (⟨S2000000x16, .f32⟩ : BufTy).Contents (Elt F)),
    StableHlo.binary main_v130 main_v132 main_v133 (addf : (⟨S2000000x16, .f32⟩ : BufTy).Contents (Elt F) → (⟨S2000000x16, .f32⟩ : BufTy).Contents (Elt F) → (⟨S2000000x16, .f32⟩ : BufTy).Contents (Elt F)),
    StableHlo.nullary main_cst_36 (constant S_ .f32 0x3F800000#32),
    StableHlo.unary main_cst_36 main_v134 (broadcastInDim S2000000x1 ![] bcast_S_S2000000x1 : (⟨S_, .f32⟩ : BufTy).Contents (Elt F) → (⟨S2000000x1, .f32⟩ : BufTy).Contents (Elt F)),
    StableHlo.binary main_v134 main_v34 main_v135 (subf : (⟨S2000000x1, .f32⟩ : BufTy).Contents (Elt F) → (⟨S2000000x1, .f32⟩ : BufTy).Contents (Elt F) → (⟨S2000000x1, .f32⟩ : BufTy).Contents (Elt F)),
    StableHlo.unary main_v135 main_v136 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v126 main_v136 main_v137 (mulf : (⟨S2000000x16, .f32⟩ : BufTy).Contents (Elt F) → (⟨S2000000x16, .f32⟩ : BufTy).Contents (Elt F) → (⟨S2000000x16, .f32⟩ : BufTy).Contents (Elt F)),
    StableHlo.unary main_v34 main_v138 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v133 main_v138 main_v139 (mulf : (⟨S2000000x16, .f32⟩ : BufTy).Contents (Elt F) → (⟨S2000000x16, .f32⟩ : BufTy).Contents (Elt F) → (⟨S2000000x16, .f32⟩ : BufTy).Contents (Elt F)),
    StableHlo.binary main_v137 main_v139 main_v140 (addf : (⟨S2000000x16, .f32⟩ : BufTy).Contents (Elt F) → (⟨S2000000x16, .f32⟩ : BufTy).Contents (Elt F) → (⟨S2000000x16, .f32⟩ : BufTy).Contents (Elt F)) ]

/-- Window 2 of @main: 82 operations, its parts in order. -/
abbrev opsW2 : List (HloOp τ sig (Elt F)) :=
  opsM2_0 ++ opsC13 ++ opsM2_1

/-- Every host operation of @main, in execution order (386 operations): the windows in order. -/
abbrev ops : List (HloOp τ sig (Elt F)) :=
  opsW0 ++ opsW1 ++ opsW2

end Cert.ReferenceIdeal.Hand

end
-- ==== Proof.RefRun.lean ====
/-
  The run of the reference program read back from the list of its operations (RefOps): @main IS the straight line
  of that list (each window of @main peeled against its parts, a part per stretch of @main's own operations and per
  call, then the windows joined), every operation touches TensorCore buffers only and determines its result, no
  buffer or semaphore of the signature is scoped; hence every weakly fair execution terminates with each buffer at
  the fold of the operations' results over the launch contents.
-/
import proofs.«429497_j74809740362345_4_alg».proof.Proof.RefOps
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Each operation of the part touches TensorCore references only. -/
theorem opsM0_0_sub : (opsM0_0 : List (HloOp τ sig (Elt F))).Forall fun op => op.bufs ⊆ tcRefs τ sig :=
  ⟨nullary_bufs_sub .., unary_bufs_sub .., binary_bufs_sub .., unary_bufs_sub .., reshape_bufs_sub .., unary_bufs_sub .., reshape_bufs_sub .., unary_bufs_sub .., reshape_bufs_sub .., unary_bufs_sub .., unary_bufs_sub .., nullary_bufs_sub .., nullary_bufs_sub ..⟩
/-- Each operation of the part determines its result (none allocates). -/
theorem opsM0_0_fresh : (opsM0_0 : List (HloOp τ sig (Elt F))).Forall fun op => op.fresh = ∅ :=
  ⟨rfl, rfl, rfl, rfl, rfl, rfl, rfl, rfl, rfl, rfl, rfl, rfl, rfl⟩

/-- Each operation of the part touches TensorCore references only. -/
theorem opsC0_sub : (opsC0 : List (HloOp τ sig (Elt F))).Forall fun op => op.bufs ⊆ tcRefs τ sig :=
  ⟨unary_bufs_sub .., unary_bufs_sub .., binary_bufs_sub .., unary_bufs_sub .., unary_bufs_sub .., binary_bufs_sub ..⟩
/-- Each operation of the part determines its result (none allocates). -/
theorem opsC0_fresh : (opsC0 : List (HloOp τ sig (Elt F))).Forall fun op => op.fresh = ∅ :=
  ⟨rfl, rfl, rfl, rfl, rfl, rfl⟩

/-- Each operation of the part touches TensorCore references only. -/
theorem opsM0_1_sub : (opsM0_1 : List (HloOp τ sig (Elt F))).Forall fun op => op.bufs ⊆ tcRefs τ sig :=
  ⟨unary_bufs_sub .., unary_bufs_sub .., nullary_bufs_sub .., nullary_bufs_sub ..⟩
/-- Each operation of the part determines its result (none allocates). -/
theorem opsM0_1_fresh : (opsM0_1 : List (HloOp τ sig (Elt F))).Forall fun op => op.fresh = ∅ :=
  ⟨rfl, rfl, rfl, rfl⟩

/-- Each operation of the part touches TensorCore references only. -/
theorem opsC1_sub : (opsC1 : List (HloOp τ sig (Elt F))).Forall fun op => op.bufs ⊆ tcRefs τ sig :=
  ⟨unary_bufs_sub .., unary_bufs_sub .., binary_bufs_sub .., unary_bufs_sub .., unary_bufs_sub .., binary_bufs_sub ..⟩
/-- Each operation of the part determines its result (none allocates). -/
theorem opsC1_fresh : (opsC1 : List (HloOp τ sig (Elt F))).Forall fun op => op.fresh = ∅ :=
  ⟨rfl, rfl, rfl, rfl, rfl, rfl⟩

/-- Each operation of the part touches TensorCore references only. -/
theorem opsM0_2_sub : (opsM0_2 : List (HloOp τ sig (Elt F))).Forall fun op => op.bufs ⊆ tcRefs τ sig :=
  ⟨unary_bufs_sub .., unary_bufs_sub .., nullary_bufs_sub .., nullary_bufs_sub ..⟩
/-- Each operation of the part determines its result (none allocates). -/
theorem opsM0_2_fresh : (opsM0_2 : List (HloOp τ sig (Elt F))).Forall fun op => op.fresh = ∅ :=
  ⟨rfl, rfl, rfl, rfl⟩

/-- Each operation of the part touches TensorCore references only. -/
theorem opsC2_sub : (opsC2 : List (HloOp τ sig (Elt F))).Forall fun op => op.bufs ⊆ tcRefs τ sig :=
  ⟨unary_bufs_sub .., unary_bufs_sub .., binary_bufs_sub .., unary_bufs_sub .., unary_bufs_sub .., binary_bufs_sub ..⟩
/-- Each operation of the part determines its result (none allocates). -/
theorem opsC2_fresh : (opsC2 : List (HloOp τ sig (Elt F))).Forall fun op => op.fresh = ∅ :=
  ⟨rfl, rfl, rfl, rfl, rfl, rfl⟩

/-- Each operation of the part touches TensorCore references only. -/
theorem opsM0_3_sub : (opsM0_3 : List (HloOp τ sig (Elt F))).Forall fun op => op.bufs ⊆ tcRefs τ sig :=
  ⟨nullary_bufs_sub .., unary_bufs_sub .., binary_bufs_sub .., nullary_bufs_sub .., nullary_bufs_sub ..⟩
/-- Each operation of the part determines its result (none allocates). -/
theorem opsM0_3_fresh : (opsM0_3 : List (HloOp τ sig (Elt F))).Forall fun op => op.fresh = ∅ :=
  ⟨rfl, rfl, rfl, rfl, rfl⟩

/-- Each operation of the part touches TensorCore references only. -/
theorem opsC3_sub : (opsC3 : List (HloOp τ sig (Elt F))).Forall fun op => op.bufs ⊆ tcRefs τ sig :=
  ⟨unary_bufs_sub .., unary_bufs_sub .., binary_bufs_sub .., unary_bufs_sub .., unary_bufs_sub .., binary_bufs_sub ..⟩
/-- Each operation of the part determines its result (none allocates). -/
theorem opsC3_fresh : (opsC3 : List (HloOp τ sig (Elt F))).Forall fun op => op.fresh = ∅ :=
  ⟨rfl, rfl, rfl, rfl, rfl, rfl⟩

/-- Each operation of the part touches TensorCore references only. -/
theorem opsM0_4_sub : (opsM0_4 : List (HloOp τ sig (Elt F))).Forall fun op => op.bufs ⊆ tcRefs τ sig :=
  ⟨nullary_bufs_sub .., unary_bufs_sub .., binary_bufs_sub .., nullary_bufs_sub .., nullary_bufs_sub ..⟩
/-- Each operation of the part determines its result (none allocates). -/
theorem opsM0_4_fresh : (opsM0_4 : List (HloOp τ sig (Elt F))).Forall fun op => op.fresh = ∅ :=
  ⟨rfl, rfl, rfl, rfl, rfl⟩

/-- Each operation of the part touches TensorCore references only. -/
theorem opsC4_sub : (opsC4 : List (HloOp τ sig (Elt F))).Forall fun op => op.bufs ⊆ tcRefs τ sig :=
  ⟨unary_bufs_sub .., unary_bufs_sub .., binary_bufs_sub .., unary_bufs_sub .., unary_bufs_sub .., binary_bufs_sub ..⟩
/-- Each operation of the part determines its result (none allocates). -/
theorem opsC4_fresh : (opsC4 : List (HloOp τ sig (Elt F))).Forall fun op => op.fresh = ∅ :=
  ⟨rfl, rfl, rfl, rfl, rfl, rfl⟩

/-- Each operation of the part touches TensorCore references only. -/
theorem opsM0_5_sub : (opsM0_5 : List (HloOp τ sig (Elt F))).Forall fun op => op.bufs ⊆ tcRefs τ sig :=
  ⟨nullary_bufs_sub .., unary_bufs_sub .., binary_bufs_sub .., nullary_bufs_sub .., nullary_bufs_sub ..⟩
/-- Each operation of the part determines its result (none allocates). -/
theorem opsM0_5_fresh : (opsM0_5 : List (HloOp τ sig (Elt F))).Forall fun op => op.fresh = ∅ :=
  ⟨rfl, rfl, rfl, rfl, rfl⟩

/-- Each operation of the part touches TensorCore references only. -/
theorem opsC5_sub : (opsC5 : List (HloOp τ sig (Elt F))).Forall fun op => op.bufs ⊆ tcRefs τ sig :=
  ⟨unary_bufs_sub .., unary_bufs_sub .., binary_bufs_sub .., unary_bufs_sub .., unary_bufs_sub .., binary_bufs_sub ..⟩
/-- Each operation of the part determines its result (none allocates). -/
theorem opsC5_fresh : (opsC5 : List (HloOp τ sig (Elt F))).Forall fun op => op.fresh = ∅ :=
  ⟨rfl, rfl, rfl, rfl, rfl, rfl⟩

/-- Each operation of the part touches TensorCore references only. -/
theorem opsM0_6_sub : (opsM0_6 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., binary_bufs_sub .., nullary_bufs_sub .., unary_bufs_sub .., binary_bufs_sub .., binary_bufs_sub ..⟩
/-- Each operation of the part determines its result (none allocates). -/
theorem opsM0_6_fresh : (opsM0_6 : List (HloOp τ sig (Elt F))).Forall fun op => op.fresh = ∅ :=
  ⟨rfl, rfl, rfl, rfl, rfl, rfl, rfl, rfl, rfl, rfl, rfl, rfl, rfl, rfl, rfl, rfl, rfl, rfl⟩

/-- Each operation of the part touches TensorCore references only. -/
theorem opsC6_sub : (opsC6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Each operation of the part determines its result (none allocates). -/
theorem opsC6_fresh : (opsC6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of the part touches TensorCore references only. -/
theorem opsM1_0_sub : (opsM1_0 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub ..⟩
/-- Each operation of the part determines its result (none allocates). -/
theorem opsM1_0_fresh : (opsM1_0 : List (HloOp τ sig (Elt F))).Forall fun op => op.fresh = ∅ :=
  ⟨rfl, rfl, rfl, rfl, rfl, rfl, rfl, rfl⟩

/-- Each operation of the part touches TensorCore references only. -/
theorem opsC7_sub : (opsC7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Each operation of the part determines its result (none allocates). -/
theorem opsC7_fresh : (opsC7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of the part touches TensorCore references only. -/
theorem opsM1_1_sub : (opsM1_1 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub ..⟩
/-- Each operation of the part determines its result (none allocates). -/
theorem opsM1_1_fresh : (opsM1_1 : List (HloOp τ sig (Elt F))).Forall fun op => op.fresh = ∅ :=
  ⟨rfl, rfl, rfl, rfl, rfl, rfl, rfl, rfl⟩

/-- Each operation of the part touches TensorCore references only. -/
theorem opsC8_sub : (opsC8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Each operation of the part determines its result (none allocates). -/
theorem opsC8_fresh : (opsC8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of the part touches TensorCore references only. -/
theorem opsM1_2_sub : (opsM1_2 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub ..⟩
/-- Each operation of the part determines its result (none allocates). -/
theorem opsM1_2_fresh : (opsM1_2 : List (HloOp τ sig (Elt F))).Forall fun op => op.fresh = ∅ :=
  ⟨rfl, rfl, rfl, rfl, rfl, rfl, rfl, rfl⟩

/-- Each operation of the part touches TensorCore references only. -/
theorem opsC9_sub : (opsC9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Each operation of the part determines its result (none allocates). -/
theorem opsC9_fresh : (opsC9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of the part touches TensorCore references only. -/
theorem opsM1_3_sub : (opsM1_3 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub ..⟩
/-- Each operation of the part determines its result (none allocates). -/
theorem opsM1_3_fresh : (opsM1_3 : List (HloOp τ sig (Elt F))).Forall fun op => op.fresh = ∅ :=
  ⟨rfl, rfl, rfl, rfl, rfl, rfl, rfl, rfl⟩

/-- Each operation of the part touches TensorCore references only. -/
theorem opsC10_sub : (opsC10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Each operation of the part determines its result (none allocates). -/
theorem opsC10_fresh : (opsC10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of the part touches TensorCore references only. -/
theorem opsM1_4_sub : (opsM1_4 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub ..⟩
/-- Each operation of the part determines its result (none allocates). -/
theorem opsM1_4_fresh : (opsM1_4 : List (HloOp τ sig (Elt F))).Forall fun op => op.fresh = ∅ :=
  ⟨rfl, rfl, rfl, rfl, rfl, rfl, rfl, rfl⟩

/-- Each operation of the part touches TensorCore references only. -/
theorem opsC11_sub : (opsC11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Each operation of the part determines its result (none allocates). -/
theorem opsC11_fresh : (opsC11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of the part touches TensorCore references only. -/
theorem opsM1_5_sub : (opsM1_5 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub ..⟩
/-- Each operation of the part determines its result (none allocates). -/
theorem opsM1_5_fresh : (opsM1_5 : List (HloOp τ sig (Elt F))).Forall fun op => op.fresh = ∅ :=
  ⟨rfl, rfl, rfl, rfl, rfl, rfl, rfl, rfl⟩

/-- Each operation of the part touches TensorCore references only. -/
theorem opsC12_sub : (opsC12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Each operation of the part determines its result (none allocates). -/
theorem opsC12_fresh : (opsC12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of the part touches TensorCore references only. -/
theorem opsM1_6_sub : (opsM1_6 : List (HloOp τ sig (Elt F))).Forall fun op => op.bufs ⊆ tcRefs τ sig :=
  ⟨nullary_bufs_sub .., unary_bufs_sub .., binary_bufs_sub .., binary_bufs_sub .., nullary_bufs_sub ..⟩
/-- Each operation of the part determines its result (none allocates). -/
theorem opsM1_6_fresh : (opsM1_6 : List (HloOp τ sig (Elt F))).Forall fun op => op.fresh = ∅ :=
  ⟨rfl, rfl, rfl, rfl, rfl⟩

/-- Each operation of the part touches TensorCore references only. -/
theorem opsM2_0_sub : (opsM2_0 : List (HloOp τ sig (Elt F))).Forall fun op => op.bufs ⊆ tcRefs τ sig :=
  ⟨unary_bufs_sub .., binary_bufs_sub .., binary_bufs_sub ..⟩
/-- Each operation of the part determines its result (none allocates). -/
theorem opsM2_0_fresh : (opsM2_0 : List (HloOp τ sig (Elt F))).Forall fun op => op.fresh = ∅ :=
  ⟨rfl, rfl, rfl⟩

/-- Each operation of the part touches TensorCore references only. -/
theorem opsC13_sub : (opsC13 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Each operation of the part determines its result (none allocates). -/
theorem opsC13_fresh : (opsC13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of the part touches TensorCore references only. -/
theorem opsM2_1_sub : (opsM2_1 : List (HloOp τ sig (Elt F))).Forall fun op => op.bufs ⊆ tcRefs τ sig :=
  ⟨nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub ..⟩
/-- Each operation of the part determines its result (none allocates). -/
theorem opsM2_1_fresh : (opsM2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsW0_sub : (opsW0 : List (HloOp τ sig (Elt F))).Forall fun op => op.bufs ⊆ tcRefs τ sig :=
  List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨opsM0_0_sub, opsC0_sub⟩, opsM0_1_sub⟩, opsC1_sub⟩, opsM0_2_sub⟩, opsC2_sub⟩, opsM0_3_sub⟩, opsC3_sub⟩, opsM0_4_sub⟩, opsC4_sub⟩, opsM0_5_sub⟩, opsC5_sub⟩, opsM0_6_sub⟩
theorem opsW0_fresh : (opsW0 : List (HloOp τ sig (Elt F))).Forall fun op => op.fresh = ∅ :=
  List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨opsM0_0_fresh, opsC0_fresh⟩, opsM0_1_fresh⟩, opsC1_fresh⟩, opsM0_2_fresh⟩, opsC2_fresh⟩, opsM0_3_fresh⟩, opsC3_fresh⟩, opsM0_4_fresh⟩, opsC4_fresh⟩, opsM0_5_fresh⟩, opsC5_fresh⟩, opsM0_6_fresh⟩

theorem opsW1_sub : (opsW1 : List (HloOp τ sig (Elt F))).Forall fun op => op.bufs ⊆ tcRefs τ sig :=
  List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨opsC6_sub, opsM1_0_sub⟩, opsC7_sub⟩, opsM1_1_sub⟩, opsC8_sub⟩, opsM1_2_sub⟩, opsC9_sub⟩, opsM1_3_sub⟩, opsC10_sub⟩, opsM1_4_sub⟩, opsC11_sub⟩, opsM1_5_sub⟩, opsC12_sub⟩, opsM1_6_sub⟩
theorem opsW1_fresh : (opsW1 : List (HloOp τ sig (Elt F))).Forall fun op => op.fresh = ∅ :=
  List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2 ⟨opsC6_fresh, opsM1_0_fresh⟩, opsC7_fresh⟩, opsM1_1_fresh⟩, opsC8_fresh⟩, opsM1_2_fresh⟩, opsC9_fresh⟩, opsM1_3_fresh⟩, opsC10_fresh⟩, opsM1_4_fresh⟩, opsC11_fresh⟩, opsM1_5_fresh⟩, opsC12_fresh⟩, opsM1_6_fresh⟩

theorem opsW2_sub : (opsW2 : List (HloOp τ sig (Elt F))).Forall fun op => op.bufs ⊆ tcRefs τ sig :=
  List.forall_append.2 ⟨List.forall_append.2 ⟨opsM2_0_sub, opsC13_sub⟩, opsM2_1_sub⟩
theorem opsW2_fresh : (opsW2 : List (HloOp τ sig (Elt F))).Forall fun op => op.fresh = ∅ :=
  List.forall_append.2 ⟨List.forall_append.2 ⟨opsM2_0_fresh, opsC13_fresh⟩, opsM2_1_fresh⟩

theorem ops_sub : (ops : List (HloOp τ sig (Elt F))).Forall fun op => op.bufs ⊆ tcRefs τ sig :=
  List.forall_append.2 ⟨List.forall_append.2 ⟨opsW0_sub, opsW1_sub⟩, opsW2_sub⟩
theorem ops_fresh : (ops : List (HloOp τ sig (Elt F))).Forall fun op => op.fresh = ∅ :=
  List.forall_append.2 ⟨List.forall_append.2 ⟨opsW0_fresh, opsW1_fresh⟩, opsW2_fresh⟩

/-- Window 0 of @main is its parts run in order: each call's body unfolds to the part listed for it, each
    stretch of @main's own lines is its part; the two sides agree by definitional unfolding. -/
theorem main_part0_eq (c : Dev nD) : main_part0 (F := F) c = (Pipeline.chainK
  [ seq opsM0_0, seq opsC0, seq opsM0_1, seq opsC1, seq opsM0_2, seq opsC2, seq opsM0_3, seq opsC3, seq opsM0_4, seq opsC4, seq opsM0_5, seq opsC5 ]
  (seq opsM0_6) : Prog (TpuEff nD τ sig (Elt F) (Pipeline.Sig Λ₀ (Fin 0) fun p => (pcfgs (F := F) p).Adm) .tc) PUnit) := by
  chain_rfl

/-- Window 1 of @main is its parts run in order: each call's body unfolds to the part listed for it, each
    stretch of @main's own lines is its part; the two sides agree by definitional unfolding. -/
theorem main_part1_eq (c : Dev nD) : main_part1 (F := F) c = (Pipeline.chainK
  [ seq opsC6, seq opsM1_0, seq opsC7, seq opsM1_1, seq opsC8, seq opsM1_2, seq opsC9, seq opsM1_3, seq opsC10, seq opsM1_4, seq opsC11, seq opsM1_5, seq opsC12 ]
  (seq opsM1_6) : Prog (TpuEff nD τ sig (Elt F) (Pipeline.Sig Λ₀ (Fin 0) fun p => (pcfgs (F := F) p).Adm) .tc) PUnit) := by
  chain_rfl

/-- Window 2 of @main is its parts run in order: each call's body unfolds to the part listed for it, each
    stretch of @main's own lines is its part; the two sides agree by definitional unfolding. -/
theorem main_part2_eq (c : Dev nD) : main_part2 (F := F) c = (Pipeline.chainK
  [ seq opsM2_0, seq opsC13 ]
  (seq opsM2_1) : Prog (TpuEff nD τ sig (Elt F) (Pipeline.Sig Λ₀ (Fin 0) fun p => (pcfgs (F := F) p).Adm) .tc) PUnit) := by
  chain_rfl

/-- The last window is the return alone. -/
theorem main_part3_eq (c : Dev nD) : main_part3 (F := F) c = (pure ⟨⟩ : Prog (TpuEff nD τ sig (Elt F) (Pipeline.Sig Λ₀ (Fin 0) fun p => (pcfgs (F := F) p).Adm) .tc) PUnit) := rfl

/-- A window's parts run in order are the window's list run as one. -/
theorem opsW0_seq : (Pipeline.chainK [ seq opsM0_0, seq opsC0, seq opsM0_1, seq opsC1, seq opsM0_2, seq opsC2, seq opsM0_3, seq opsC3, seq opsM0_4, seq opsC4, seq opsM0_5, seq opsC5 ] (seq opsM0_6) : Prog (TpuEff nD τ sig (Elt F) (Pipeline.Sig Λ₀ (Fin 0) fun p => (pcfgs (F := F) p).Adm) .tc) PUnit) = seq opsW0 := by
  simp only [opsW0, Pipeline.chainK, seq_append, bind_assoc]

theorem opsW1_seq : (Pipeline.chainK [ seq opsC6, seq opsM1_0, seq opsC7, seq opsM1_1, seq opsC8, seq opsM1_2, seq opsC9, seq opsM1_3, seq opsC10, seq opsM1_4, seq opsC11, seq opsM1_5, seq opsC12 ] (seq opsM1_6) : Prog (TpuEff nD τ sig (Elt F) (Pipeline.Sig Λ₀ (Fin 0) fun p => (pcfgs (F := F) p).Adm) .tc) PUnit) = seq opsW1 := by
  simp only [opsW1, Pipeline.chainK, seq_append, bind_assoc]

theorem opsW2_seq : (Pipeline.chainK [ seq opsM2_0, seq opsC13 ] (seq opsM2_1) : Prog (TpuEff nD τ sig (Elt F) (Pipeline.Sig Λ₀ (Fin 0) fun p => (pcfgs (F := F) p).Adm) .tc) PUnit) = seq opsW2 := by
  simp only [opsW2, Pipeline.chainK, seq_append, bind_assoc]

/-- @main is the straight line of its operations. -/
theorem main_eq (c : Dev nD) : main (F := F) c = seq ops := by
  have h : main (F := F) c = (main_part0 c >>= fun _ => main_part1 c >>= fun _ => main_part2 c >>= fun _ => main_part3 c) := rfl
  rw [h, main_part0_eq, main_part1_eq, main_part2_eq, main_part3_eq, opsW0_seq, opsW1_seq, opsW2_seq]
  simp only [ops, seq_append, bind_assoc, bind_pure_unit]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    on the TensorCores terminates, and every final state has each TensorCore buffer at the fold of the operations'
    results over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

end Cert.ReferenceIdeal.Hand

end
-- ==== Proof.RefValue.lean ====
/-
  The value of the reference program's result array: folding its 386 operations' results over the two argument
  arrays gives the specification's whole-array blend of the eight taken arrays; no operation writes an argument.
-/
import proofs.«429497_j74809740362345_4_alg».proof.Proof.RefOps
import proofs.«429497_j74809740362345_4_alg».proof.Proof.Spec
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

open Cert.Spec (col lo hi fr lin L flat colOf take1 mix blend refResult hk0 hk1 hk2 SN SN1 SP SO SF SV S0)

local macro "‹‹" r:term "››" : term => `(Proc.devRef .tc $r)

/-! ## Folding a line of operations part by part -/

/-- The contents after two lines of operations run one after the other: the second line's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- One step of the fold, read at a buffer. -/
theorem after_cons_at (op : HloOp τ sig (Elt F)) (l : List (HloOp τ sig (Elt F))) (V : Valuation τ sig (Elt F))
    (b : DevRef τ sig) : after (op :: l) V b = after l (op.result V) b := rfl

/-- The empty line leaves every buffer. -/
theorem after_nil_at (V : Valuation τ sig (Elt F)) (b : DevRef τ sig) : after [] V b = V b := rfl

/-- The clip of an integer vector to a range whose two bounds are given as scalars: the larger of the lower bound and
    the value, then the smaller of the upper bound and that. -/
def clipB (b0 b127 : IVec S0 32) (x : IVec SN 32) : IVec SN 32 :=
  minsi (broadcastInDim SN ![] (by decide) (id b127)) (maxsi (broadcastInDim SN ![] (by decide) (id b0)) x)

/-- The successor of a vector of integers. -/
def succI (x : IVec SN 32) : IVec SN 32 := addi x (broadcastInDim SN ![] (by decide) (constantI S0 32 1#32))

/-- The offset of a column from its clipped floor, as a one-column matrix. -/
def frOf (c : FVec F SN .f32) (l : IVec SN 32) : FVec F SN1 .f32 := colOf (subf c (sitofp (F := F) .f32 l))

/-- Contents moved to a buffer's own type and back are the contents. -/
theorem ofBuf_toBuf {T : BufTy} (x : TRef sig T) (v : T.Contents (Elt F)) : x.ofBuf (x.toBuf v) = v := by
  obtain ⟨r, rfl, h1, h2⟩ := x
  rfl

/-- What a part of the line leaves in a buffer it writes, from the contents before the part: the operations' results
    composed, every intermediate value read back at the type it was written at, and the composed term is the stated one. -/
local macro "part_result" : tactic =>
  `(tactic| (after_results_simp <;> (try simp only [ofBuf_toBuf]) <;> (try simp only [TRef.ofBuf, TRef.toBuf, cast_eq]) <;> rfl))

/-! ## The grid coordinates' columns, their clipped floors and successors -/

theorem sM0_0_v3 (V : Valuation τ sig (Elt F)) :
    after opsM0_0 V (no_index ‹‹main_v3››) = col 0 hk0 (V ‹‹main_arg0››) := by part_result
theorem sM0_0_v5 (V : Valuation τ sig (Elt F)) :
    after opsM0_0 V (no_index ‹‹main_v5››) = col 1 hk1 (V ‹‹main_arg0››) := by part_result
theorem sM0_0_v7 (V : Valuation τ sig (Elt F)) :
    after opsM0_0 V (no_index ‹‹main_v7››) = col 2 hk2 (V ‹‹main_arg0››) := by part_result
theorem sM0_0_v9 (V : Valuation τ sig (Elt F)) :
    after opsM0_0 V (no_index ‹‹main_v9››) = fptosi 32 (Host.floor (col 0 hk0 (V ‹‹main_arg0››))) := by part_result
theorem sM0_0_c (V : Valuation τ sig (Elt F)) :
    after opsM0_0 V (no_index ‹‹main_c››) = constantI S0 32 0#32 := by part_result
theorem sM0_0_c_0 (V : Valuation τ sig (Elt F)) :
    after opsM0_0 V (no_index ‹‹main_c_0››) = constantI S0 32 127#32 := by part_result
theorem sC0 (V : Valuation τ sig (Elt F)) :
    after opsC0 V (no_index ‹‹main_v10››) = clipB (V ‹‹main_c››) (V ‹‹main_c_0››) (V ‹‹main_v9››) := by part_result

theorem sM0_1_v12 (V : Valuation τ sig (Elt F)) :
    after opsM0_1 V (no_index ‹‹main_v12››) = fptosi 32 (Host.floor (V ‹‹main_v5››)) := by part_result
theorem sM0_1_c_1 (V : Valuation τ sig (Elt F)) :
    after opsM0_1 V (no_index ‹‹main_c_1››) = constantI S0 32 0#32 := by part_result
theorem sM0_1_c_2 (V : Valuation τ sig (Elt F)) :
    after opsM0_1 V (no_index ‹‹main_c_2››) = constantI S0 32 127#32 := by part_result
theorem sC1 (V : Valuation τ sig (Elt F)) :
    after opsC1 V (no_index ‹‹main_v13››) = clipB (V ‹‹main_c_1››) (V ‹‹main_c_2››) (V ‹‹main_v12››) := by part_result

theorem sM0_2_v15 (V : Valuation τ sig (Elt F)) :
    after opsM0_2 V (no_index ‹‹main_v15››) = fptosi 32 (Host.floor (V ‹‹main_v7››)) := by part_result
theorem sM0_2_c_3 (V : Valuation τ sig (Elt F)) :
    after opsM0_2 V (no_index ‹‹main_c_3››) = constantI S0 32 0#32 := by part_result
theorem sM0_2_c_4 (V : Valuation τ sig (Elt F)) :
    after opsM0_2 V (no_index ‹‹main_c_4››) = constantI S0 32 127#32 := by part_result
theorem sC2 (V : Valuation τ sig (Elt F)) :
    after opsC2 V (no_index ‹‹main_v16››) = clipB (V ‹‹main_c_3››) (V ‹‹main_c_4››) (V ‹‹main_v15››) := by part_result

theorem sM0_3_v18 (V : Valuation τ sig (Elt F)) :
    after opsM0_3 V (no_index ‹‹main_v18››) = succI (V ‹‹main_v10››) := by part_result
theorem sM0_3_c_6 (V : Valuation τ sig (Elt F)) :
    after opsM0_3 V (no_index ‹‹main_c_6››) = constantI S0 32 0#32 := by part_result
theorem sM0_3_c_7 (V : Valuation τ sig (Elt F)) :
    after opsM0_3 V (no_index ‹‹main_c_7››) = constantI S0 32 127#32 := by part_result
theorem sC3 (V : Valuation τ sig (Elt F)) :
    after opsC3 V (no_index ‹‹main_v19››) = clipB (V ‹‹main_c_6››) (V ‹‹main_c_7››) (V ‹‹main_v18››) := by part_result

theorem sM0_4_v21 (V : Valuation τ sig (Elt F)) :
    after opsM0_4 V (no_index ‹‹main_v21››) = succI (V ‹‹main_v13››) := by part_result
theorem sM0_4_c_9 (V : Valuation τ sig (Elt F)) :
    after opsM0_4 V (no_index ‹‹main_c_9››) = constantI S0 32 0#32 := by part_result
theorem sM0_4_c_10 (V : Valuation τ sig (Elt F)) :
    after opsM0_4 V (no_index ‹‹main_c_10››) = constantI S0 32 127#32 := by part_result
theorem sC4 (V : Valuation τ sig (Elt F)) :
    after opsC4 V (no_index ‹‹main_v22››) = clipB (V ‹‹main_c_9››) (V ‹‹main_c_10››) (V ‹‹main_v21››) := by part_result

theorem sM0_5_v24 (V : Valuation τ sig (Elt F)) :
    after opsM0_5 V (no_index ‹‹main_v24››) = succI (V ‹‹main_v16››) := by part_result
theorem sM0_5_c_12 (V : Valuation τ sig (Elt F)) :
    after opsM0_5 V (no_index ‹‹main_c_12››) = constantI S0 32 0#32 := by part_result
theorem sM0_5_c_13 (V : Valuation τ sig (Elt F)) :
    after opsM0_5 V (no_index ‹‹main_c_13››) = constantI S0 32 127#32 := by part_result
theorem sC5 (V : Valuation τ sig (Elt F)) :
    after opsC5 V (no_index ‹‹main_v25››) = clipB (V ‹‹main_c_12››) (V ‹‹main_c_13››) (V ‹‹main_v24››) := by part_result

/-! ## The offsets, the flattened table and the first corner's rows -/

theorem sM0_6_v28 (V : Valuation τ sig (Elt F)) :
    after opsM0_6 V (no_index ‹‹main_v28››) = frOf (V ‹‹main_v3››) (V ‹‹main_v10››) := by part_result
theorem sM0_6_v31 (V : Valuation τ sig (Elt F)) :
    after opsM0_6 V (no_index ‹‹main_v31››) = frOf (V ‹‹main_v5››) (V ‹‹main_v13››) := by part_result
theorem sM0_6_v34 (V : Valuation τ sig (Elt F)) :
    after opsM0_6 V (no_index ‹‹main_v34››) = frOf (V ‹‹main_v7››) (V ‹‹main_v16››) := by part_result
theorem sM0_6_v35 (V : Valuation τ sig (Elt F)) :
    after opsM0_6 V (no_index ‹‹main_v35››) = flat (V ‹‹main_arg1››) := by part_result
theorem sM0_6_v41 (V : Valuation τ sig (Elt F)) :
    after opsM0_6 V (no_index ‹‹main_v41››) = lin (V ‹‹main_v10››) (V ‹‹main_v13››) (V ‹‹main_v16››) := by part_result

/-! ## The eight corners: each corner's rows, then the rows taken from the table -/

theorem sC6 (V : Valuation τ sig (Elt F)) :
    after opsC6 V (no_index ‹‹main_v42››) = take1 (V ‹‹main_v35››) (V ‹‹main_v41››) := by part_result

theorem sM1_0 (V : Valuation τ sig (Elt F)) :
    after opsM1_0 V (no_index ‹‹main_v48››) = lin (V ‹‹main_v10››) (V ‹‹main_v13››) (V ‹‹main_v25››) := by part_result
theorem sC7 (V : Valuation τ sig (Elt F)) :
    after opsC7 V (no_index ‹‹main_v49››) = take1 (V ‹‹main_v35››) (V ‹‹main_v48››) := by part_result

theorem sM1_1 (V : Valuation τ sig (Elt F)) :
    after opsM1_1 V (no_index ‹‹main_v55››) = lin (V ‹‹main_v10››) (V ‹‹main_v22››) (V ‹‹main_v16››) := by part_result
theorem sC8 (V : Valuation τ sig (Elt F)) :
    after opsC8 V (no_index ‹‹main_v56››) = take1 (V ‹‹main_v35››) (V ‹‹main_v55››) := by part_result

theorem sM1_2 (V : Valuation τ sig (Elt F)) :
    after opsM1_2 V (no_index ‹‹main_v62››) = lin (V ‹‹main_v10››) (V ‹‹main_v22››) (V ‹‹main_v25››) := by part_result
theorem sC9 (V : Valuation τ sig (Elt F)) :
    after opsC9 V (no_index ‹‹main_v63››) = take1 (V ‹‹main_v35››) (V ‹‹main_v62››) := by part_result

theorem sM1_3 (V : Valuation τ sig (Elt F)) :
    after opsM1_3 V (no_index ‹‹main_v69››) = lin (V ‹‹main_v19››) (V ‹‹main_v13››) (V ‹‹main_v16››) := by part_result
theorem sC10 (V : Valuation τ sig (Elt F)) :
    after opsC10 V (no_index ‹‹main_v70››) = take1 (V ‹‹main_v35››) (V ‹‹main_v69››) := by part_result

theorem sM1_4 (V : Valuation τ sig (Elt F)) :
    after opsM1_4 V (no_index ‹‹main_v76››) = lin (V ‹‹main_v19››) (V ‹‹main_v13››) (V ‹‹main_v25››) := by part_result
theorem sC11 (V : Valuation τ sig (Elt F)) :
    after opsC11 V (no_index ‹‹main_v77››) = take1 (V ‹‹main_v35››) (V ‹‹main_v76››) := by part_result

theorem sM1_5 (V : Valuation τ sig (Elt F)) :
    after opsM1_5 V (no_index ‹‹main_v83››) = lin (V ‹‹main_v19››) (V ‹‹main_v22››) (V ‹‹main_v16››) := by part_result
theorem sC12 (V : Valuation τ sig (Elt F)) :
    after opsC12 V (no_index ‹‹main_v84››) = take1 (V ‹‹main_v35››) (V ‹‹main_v83››) := by part_result

/-- The last corner's rows are computed across two parts: the first leaves `a·128 + b` and the constant 128. -/
theorem sM1_6_v87 (V : Valuation τ sig (Elt F)) :
    after opsM1_6 V (no_index ‹‹main_v87››)
      = addi (muli (V ‹‹main_v19››) (broadcastInDim SN ![] (by decide) (constantI S0 32 128#32))) (V ‹‹main_v22››) := by part_result
theorem sM1_6_c_29 (V : Valuation τ sig (Elt F)) :
    after opsM1_6 V (no_index ‹‹main_c_29››) = constantI S0 32 128#32 := by part_result
theorem sM2_0 (V : Valuation τ sig (Elt F)) :
    after opsM2_0 V (no_index ‹‹main_v90››)
      = addi (muli (V ‹‹main_v87››) (broadcastInDim SN ![] (by decide) (V ‹‹main_c_29››))) (V ‹‹main_v25››) := by part_result
theorem sC13 (V : Valuation τ sig (Elt F)) :
    after opsC13 V (no_index ‹‹main_v91››) = take1 (V ‹‹main_v35››) (V ‹‹main_v90››) := by part_result

/-! ## The blend: seven blends of two arrays by a column, eight operations each -/

/-- The eight operations of blend 0, whose result is %98. -/
abbrev opsMix0 : List (HloOp τ sig (Elt F)) :=
  [ StableHlo.nullary main_cst_30 (constant S_ .f32 0x3F800000#32),
    StableHlo.unary main_cst_30 main_v92 (broadcastInDim S2000000x1 ![] bcast_S_S2000000x1 : (⟨S_, .f32⟩ : BufTy).Contents (Elt F) → (⟨S2000000x1, .f32⟩ : BufTy).Contents (Elt F)),
    StableHlo.binary main_v92 main_v28 main_v93 (subf : (⟨S2000000x1, .f32⟩ : BufTy).Contents (Elt F) → (⟨S2000000x1, .f32⟩ : BufTy).Contents (Elt F) → (⟨S2000000x1, .f32⟩ : BufTy).Contents (Elt F)),
    StableHlo.unary main_v93 main_v94 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v42 main_v94 main_v95 (mulf : (⟨S2000000x16, .f32⟩ : BufTy).Contents (Elt F) → (⟨S2000000x16, .f32⟩ : BufTy).Contents (Elt F) → (⟨S2000000x16, .f32⟩ : BufTy).Contents (Elt F)),
    StableHlo.unary main_v28 main_v96 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v70 main_v96 main_v97 (mulf : (⟨S2000000x16, .f32⟩ : BufTy).Contents (Elt F) → (⟨S2000000x16, .f32⟩ : BufTy).Contents (Elt F) → (⟨S2000000x16, .f32⟩ : BufTy).Contents (Elt F)),
    StableHlo.binary main_v95 main_v97 main_v98 (addf : (⟨S2000000x16, .f32⟩ : BufTy).Contents (Elt F) → (⟨S2000000x16, .f32⟩ : BufTy).Contents (Elt F) → (⟨S2000000x16, .f32⟩ : BufTy).Contents (Elt F)) ]

/-- The eight operations of blend 1, whose result is %105. -/
abbrev opsMix1 : List (HloOp τ sig (Elt F)) :=
  [ StableHlo.nullary main_cst_31 (constant S_ .f32 0x3F800000#32),
    StableHlo.unary main_cst_31 main_v99 (broadcastInDim S2000000x1 ![] bcast_S_S2000000x1 : (⟨S_, .f32⟩ : BufTy).Contents (Elt F) → (⟨S2000000x1, .f32⟩ : BufTy).Contents (Elt F)),
    StableHlo.binary main_v99 main_v28 main_v100 (subf : (⟨S2000000x1, .f32⟩ : BufTy).Contents (Elt F) → (⟨S2000000x1, .f32⟩ : BufTy).Contents (Elt F) → (⟨S2000000x1, .f32⟩ : BufTy).Contents (Elt F)),
    StableHlo.unary main_v100 main_v101 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v49 main_v101 main_v102 (mulf : (⟨S2000000x16, .f32⟩ : BufTy).Contents (Elt F) → (⟨S2000000x16, .f32⟩ : BufTy).Contents (Elt F) → (⟨S2000000x16, .f32⟩ : BufTy).Contents (Elt F)),
    StableHlo.unary main_v28 main_v103 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v77 main_v103 main_v104 (mulf : (⟨S2000000x16, .f32⟩ : BufTy).Contents (Elt F) → (⟨S2000000x16, .f32⟩ : BufTy).Contents (Elt F) → (⟨S2000000x16, .f32⟩ : BufTy).Contents (Elt F)),
    StableHlo.binary main_v102 main_v104 main_v105 (addf : (⟨S2000000x16, .f32⟩ : BufTy).Contents (Elt F) → (⟨S2000000x16, .f32⟩ : BufTy).Contents (Elt F) → (⟨S2000000x16, .f32⟩ : BufTy).Contents (Elt F)) ]

/-- The eight operations of blend 2, whose result is %112. -/
abbrev opsMix2 : List (HloOp τ sig (Elt F)) :=
  [ StableHlo.nullary main_cst_32 (constant S_ .f32 0x3F800000#32),
    StableHlo.unary main_cst_32 main_v106 (broadcastInDim S2000000x1 ![] bcast_S_S2000000x1 : (⟨S_, .f32⟩ : BufTy).Contents (Elt F) → (⟨S2000000x1, .f32⟩ : BufTy).Contents (Elt F)),
    StableHlo.binary main_v106 main_v28 main_v107 (subf : (⟨S2000000x1, .f32⟩ : BufTy).Contents (Elt F) → (⟨S2000000x1, .f32⟩ : BufTy).Contents (Elt F) → (⟨S2000000x1, .f32⟩ : BufTy).Contents (Elt F)),
    StableHlo.unary main_v107 main_v108 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v56 main_v108 main_v109 (mulf : (⟨S2000000x16, .f32⟩ : BufTy).Contents (Elt F) → (⟨S2000000x16, .f32⟩ : BufTy).Contents (Elt F) → (⟨S2000000x16, .f32⟩ : BufTy).Contents (Elt F)),
    StableHlo.unary main_v28 main_v110 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v84 main_v110 main_v111 (mulf : (⟨S2000000x16, .f32⟩ : BufTy).Contents (Elt F) → (⟨S2000000x16, .f32⟩ : BufTy).Contents (Elt F) → (⟨S2000000x16, .f32⟩ : BufTy).Contents (Elt F)),
    StableHlo.binary main_v109 main_v111 main_v112 (addf : (⟨S2000000x16, .f32⟩ : BufTy).Contents (Elt F) → (⟨S2000000x16, .f32⟩ : BufTy).Contents (Elt F) → (⟨S2000000x16, .f32⟩ : BufTy).Contents (Elt F)) ]

/-- The eight operations of blend 3, whose result is %119. -/
abbrev opsMix3 : List (HloOp τ sig (Elt F)) :=
  [ StableHlo.nullary main_cst_33 (constant S_ .f32 0x3F800000#32),
    StableHlo.unary main_cst_33 main_v113 (broadcastInDim S2000000x1 ![] bcast_S_S2000000x1 : (⟨S_, .f32⟩ : BufTy).Contents (Elt F) → (⟨S2000000x1, .f32⟩ : BufTy).Contents (Elt F)),
    StableHlo.binary main_v113 main_v28 main_v114 (subf : (⟨S2000000x1, .f32⟩ : BufTy).Contents (Elt F) → (⟨S2000000x1, .f32⟩ : BufTy).Contents (Elt F) → (⟨S2000000x1, .f32⟩ : BufTy).Contents (Elt F)),
    StableHlo.unary main_v114 main_v115 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v63 main_v115 main_v116 (mulf : (⟨S2000000x16, .f32⟩ : BufTy).Contents (Elt F) → (⟨S2000000x16, .f32⟩ : BufTy).Contents (Elt F) → (⟨S2000000x16, .f32⟩ : BufTy).Contents (Elt F)),
    StableHlo.unary main_v28 main_v117 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v91 main_v117 main_v118 (mulf : (⟨S2000000x16, .f32⟩ : BufTy).Contents (Elt F) → (⟨S2000000x16, .f32⟩ : BufTy).Contents (Elt F) → (⟨S2000000x16, .f32⟩ : BufTy).Contents (Elt F)),
    StableHlo.binary main_v116 main_v118 main_v119 (addf : (⟨S2000000x16, .f32⟩ : BufTy).Contents (Elt F) → (⟨S2000000x16, .f32⟩ : BufTy).Contents (Elt F) → (⟨S2000000x16, .f32⟩ : BufTy).Contents (Elt F)) ]

/-- The eight operations of blend 4, whose result is %126. -/
abbrev opsMix4 : List (HloOp τ sig (Elt F)) :=
  [ StableHlo.nullary main_cst_34 (constant S_ .f32 0x3F800000#32),
    StableHlo.unary main_cst_34 main_v120 (broadcastInDim S2000000x1 ![] bcast_S_S2000000x1 : (⟨S_, .f32⟩ : BufTy).Contents (Elt F) → (⟨S2000000x1, .f32⟩ : BufTy).Contents (Elt F)),
    StableHlo.binary main_v120 main_v31 main_v121 (subf : (⟨S2000000x1, .f32⟩ : BufTy).Contents (Elt F) → (⟨S2000000x1, .f32⟩ : BufTy).Contents (Elt F) → (⟨S2000000x1, .f32⟩ : BufTy).Contents (Elt F)),
    StableHlo.unary main_v121 main_v122 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v98 main_v122 main_v123 (mulf : (⟨S2000000x16, .f32⟩ : BufTy).Contents (Elt F) → (⟨S2000000x16, .f32⟩ : BufTy).Contents (Elt F) → (⟨S2000000x16, .f32⟩ : BufTy).Contents (Elt F)),
    StableHlo.unary main_v31 main_v124 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v112 main_v124 main_v125 (mulf : (⟨S2000000x16, .f32⟩ : BufTy).Contents (Elt F) → (⟨S2000000x16, .f32⟩ : BufTy).Contents (Elt F) → (⟨S2000000x16, .f32⟩ : BufTy).Contents (Elt F)),
    StableHlo.binary main_v123 main_v125 main_v126 (addf : (⟨S2000000x16, .f32⟩ : BufTy).Contents (Elt F) → (⟨S2000000x16, .f32⟩ : BufTy).Contents (Elt F) → (⟨S2000000x16, .f32⟩ : BufTy).Contents (Elt F)) ]

/-- The eight operations of blend 5, whose result is %133. -/
abbrev opsMix5 : List (HloOp τ sig (Elt F)) :=
  [ StableHlo.nullary main_cst_35 (constant S_ .f32 0x3F800000#32),
    StableHlo.unary main_cst_35 main_v127 (broadcastInDim S2000000x1 ![] bcast_S_S2000000x1 : (⟨S_, .f32⟩ : BufTy).Contents (Elt F) → (⟨S2000000x1, .f32⟩ : BufTy).Contents (Elt F)),
    StableHlo.binary main_v127 main_v31 main_v128 (subf : (⟨S2000000x1, .f32⟩ : BufTy).Contents (Elt F) → (⟨S2000000x1, .f32⟩ : BufTy).Contents (Elt F) → (⟨S2000000x1, .f32⟩ : BufTy).Contents (Elt F)),
    StableHlo.unary main_v128 main_v129 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v105 main_v129 main_v130 (mulf : (⟨S2000000x16, .f32⟩ : BufTy).Contents (Elt F) → (⟨S2000000x16, .f32⟩ : BufTy).Contents (Elt F) → (⟨S2000000x16, .f32⟩ : BufTy).Contents (Elt F)),
    StableHlo.unary main_v31 main_v131 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v119 main_v131 main_v132 (mulf : (⟨S2000000x16, .f32⟩ : BufTy).Contents (Elt F) → (⟨S2000000x16, .f32⟩ : BufTy).Contents (Elt F) → (⟨S2000000x16, .f32⟩ : BufTy).Contents (Elt F)),
    StableHlo.binary main_v130 main_v132 main_v133 (addf : (⟨S2000000x16, .f32⟩ : BufTy).Contents (Elt F) → (⟨S2000000x16, .f32⟩ : BufTy).Contents (Elt F) → (⟨S2000000x16, .f32⟩ : BufTy).Contents (Elt F)) ]

/-- The eight operations of blend 6, whose result is %140. -/
abbrev opsMix6 : List (HloOp τ sig (Elt F)) :=
  [ StableHlo.nullary main_cst_36 (constant S_ .f32 0x3F800000#32),
    StableHlo.unary main_cst_36 main_v134 (broadcastInDim S2000000x1 ![] bcast_S_S2000000x1 : (⟨S_, .f32⟩ : BufTy).Contents (Elt F) → (⟨S2000000x1, .f32⟩ : BufTy).Contents (Elt F)),
    StableHlo.binary main_v134 main_v34 main_v135 (subf : (⟨S2000000x1, .f32⟩ : BufTy).Contents (Elt F) → (⟨S2000000x1, .f32⟩ : BufTy).Contents (Elt F) → (⟨S2000000x1, .f32⟩ : BufTy).Contents (Elt F)),
    StableHlo.unary main_v135 main_v136 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v126 main_v136 main_v137 (mulf : (⟨S2000000x16, .f32⟩ : BufTy).Contents (Elt F) → (⟨S2000000x16, .f32⟩ : BufTy).Contents (Elt F) → (⟨S2000000x16, .f32⟩ : BufTy).Contents (Elt F)),
    StableHlo.unary main_v34 main_v138 (broadcastInDim S2000000x16 ![0, 1] bcast_S2000000x1_S2000000x16_0_1 : (⟨S2000000x1, .f32⟩ : BufTy).Contents (Elt F) → (⟨S2000000x16, .f32⟩ : BufTy).Contents (Elt F)),
    StableHlo.binary main_v133 main_v138 main_v139 (mulf : (⟨S2000000x16, .f32⟩ : BufTy).Contents (Elt F) → (⟨S2000000x16, .f32⟩ : BufTy).Contents (Elt F) → (⟨S2000000x16, .f32⟩ : BufTy).Contents (Elt F)),
    StableHlo.binary main_v137 main_v139 main_v140 (addf : (⟨S2000000x16, .f32⟩ : BufTy).Contents (Elt F) → (⟨S2000000x16, .f32⟩ : BufTy).Contents (Elt F) → (⟨S2000000x16, .f32⟩ : BufTy).Contents (Elt F)) ]

/-- The last part is its seven blends one after the other. -/
theorem opsM2_1_cut : (opsM2_1 : List (HloOp τ sig (Elt F)))
    = opsMix0 ++ opsMix1 ++ opsMix2 ++ opsMix3 ++ opsMix4 ++ opsMix5 ++ opsMix6 := rfl

theorem sMix0 (V : Valuation τ sig (Elt F)) :
    after opsMix0 V (no_index ‹‹main_v98››) = mix (V ‹‹main_v42››) (V ‹‹main_v70››) (V ‹‹main_v28››) := by part_result
theorem sMix1 (V : Valuation τ sig (Elt F)) :
    after opsMix1 V (no_index ‹‹main_v105››) = mix (V ‹‹main_v49››) (V ‹‹main_v77››) (V ‹‹main_v28››) := by part_result
theorem sMix2 (V : Valuation τ sig (Elt F)) :
    after opsMix2 V (no_index ‹‹main_v112››) = mix (V ‹‹main_v56››) (V ‹‹main_v84››) (V ‹‹main_v28››) := by part_result
theorem sMix3 (V : Valuation τ sig (Elt F)) :
    after opsMix3 V (no_index ‹‹main_v119››) = mix (V ‹‹main_v63››) (V ‹‹main_v91››) (V ‹‹main_v28››) := by part_result
theorem sMix4 (V : Valuation τ sig (Elt F)) :
    after opsMix4 V (no_index ‹‹main_v126››) = mix (V ‹‹main_v98››) (V ‹‹main_v112››) (V ‹‹main_v31››) := by part_result
theorem sMix5 (V : Valuation τ sig (Elt F)) :
    after opsMix5 V (no_index ‹‹main_v133››) = mix (V ‹‹main_v105››) (V ‹‹main_v119››) (V ‹‹main_v31››) := by part_result
theorem sMix6 (V : Valuation τ sig (Elt F)) :
    after opsMix6 V (no_index ‹‹main_v140››) = mix (V ‹‹main_v126››) (V ‹‹main_v133››) (V ‹‹main_v34››) := by part_result

/-! ## The whole line -/

/-- The line as the fold of its parts, one after the other. -/
theorem after_ops (W : Valuation τ sig (Elt F)) :
    after ops W = after opsMix6 (after opsMix5 (after opsMix4 (after opsMix3 (after opsMix2 (after opsMix1 (after opsMix0
      (after opsC13 (after opsM2_0 (after opsM1_6 (after opsC12 (after opsM1_5 (after opsC11
      (after opsM1_4 (after opsC10 (after opsM1_3 (after opsC9 (after opsM1_2 (after opsC8 (after opsM1_1 (after opsC7
      (after opsM1_0 (after opsC6 (after opsM0_6 (after opsC5 (after opsM0_5 (after opsC4 (after opsM0_4 (after opsC3
      (after opsM0_3 (after opsC2 (after opsM0_2 (after opsC1 (after opsM0_1 (after opsC0 (after opsM0_0
        W))))))))))))))))))))))))))))))))))) := by
  simp only [ops, opsW0, opsW1, opsW2, opsM2_1_cut, after_app]

/-- A buffer's contents after the whole line: each part's result where the part writes it, and through every other
    operation what was there. -/
local macro "line_results" : tactic =>
  `(tactic| (simp (disch := decide) only [↓sM0_0_v3, ↓sM0_0_v5, ↓sM0_0_v7, ↓sM0_0_v9, ↓sM0_0_c, ↓sM0_0_c_0, ↓sC0,
      ↓sM0_1_v12, ↓sM0_1_c_1, ↓sM0_1_c_2, ↓sC1, ↓sM0_2_v15, ↓sM0_2_c_3, ↓sM0_2_c_4, ↓sC2,
      ↓sM0_3_v18, ↓sM0_3_c_6, ↓sM0_3_c_7, ↓sC3, ↓sM0_4_v21, ↓sM0_4_c_9, ↓sM0_4_c_10, ↓sC4,
      ↓sM0_5_v24, ↓sM0_5_c_12, ↓sM0_5_c_13, ↓sC5, ↓sM0_6_v28, ↓sM0_6_v31, ↓sM0_6_v34, ↓sM0_6_v35, ↓sM0_6_v41,
      ↓sC6, ↓sM1_0, ↓sC7, ↓sM1_1, ↓sC8, ↓sM1_2, ↓sC9, ↓sM1_3, ↓sC10, ↓sM1_4, ↓sC11, ↓sM1_5, ↓sC12,
      ↓sM1_6_v87, ↓sM1_6_c_29, ↓sM2_0, ↓sC13, ↓sMix0, ↓sMix1, ↓sMix2, ↓sMix3, ↓sMix4, ↓sMix5, ↓sMix6,
      after_cons_at, after_nil_at,
      nullary_result_ne', unary_result_ne', binary_result_ne', ternary_result_ne', reshape_result_ne']))

set_option maxHeartbeats 4000000 in
/-- The result buffer after all operations is the whole-array blend of the argument arrays. -/
theorem result_eq (W : Valuation τ sig (Elt F)) :
    (after ops W (Proc.devRef .tc main_v140) : S2000000x16.Idx → F .f32)
      = Cert.Spec.refResult (W (Proc.devRef .tc main_arg0)) (W (Proc.devRef .tc main_arg1)) := by
  rw [after_ops]
  line_results
  rfl

/-- No operation writes the points. -/
theorem kept_arg0 (W : Valuation τ sig (Elt F)) :
    after ops W (Proc.devRef .tc main_arg0) = W (Proc.devRef .tc main_arg0) := by
  rw [after_ops]
  line_results

/-- Nor the table. -/
theorem kept_arg1 (W : Valuation τ sig (Elt F)) :
    after ops W (Proc.devRef .tc main_arg1) = W (Proc.devRef .tc main_arg1) := by
  rw [after_ops]
  line_results

end Cert.ReferenceIdeal.Hand

end
-- ==== Proof.lean ====
/-
  Trilinear sampling of a 128³ × 16 table at 2,000,000 points: the tiled kernel program against the plain reference.

  Both programs compute, for a point with grid coordinates `g = points / 0.05`, the clipped floors `lo`, their
  clipped successors `hi` and the offsets `g − lo` on the three axes, take the eight rows `(a·128 + b)·128 + c`
  (`a, b, c` each `lo` or `hi`) of the flattened table, and blend them along x, then y, then z by `u·(1 − d) + v·d`.
  The kernel program takes all eight rows in one gather into 128 lanes per point, pads to 489 blocks of 4096 points,
  blends block by block on the grid, and slices the padding off; the reference takes eight arrays and blends them
  whole. At every point and channel the two are the SAME expression of the same taken values and offsets — no
  algebraic law and no finiteness is used — which is the common value `Cert.Spec.G`.

  The three frames: each program runs to the end and writes neither argument array (the kernel program's frame is
  proved once, generic in the float instance, and laid out for the word-level and the idealized program; the
  reference's is its run with the result dropped). `preserves`: the idealization rewrote nothing.
-/
import proofs.«429497_j74809740362345_4_alg».proof.Defs
import proofs.«429497_j74809740362345_4_alg».proof.Proof.Gen.Kernel
import proofs.«429497_j74809740362345_4_alg».proof.Proof.Gen.KernelIdeal
import proofs.«429497_j74809740362345_4_alg».proof.Proof.Gen.ReferenceIdeal
import proofs.«429497_j74809740362345_4_alg».proof.Proof.Gen.Pre_finite_inputs
import proofs.«429497_j74809740362345_4_alg».proof.Proof.KernelFrame
import proofs.«429497_j74809740362345_4_alg».proof.Proof.KernelIdealFrame
import proofs.«429497_j74809740362345_4_alg».proof.Proof.KernelValue
import proofs.«429497_j74809740362345_4_alg».proof.Proof.RefRun
import proofs.«429497_j74809740362345_4_alg».proof.Proof.RefValue
import proofs.«429497_j74809740362345_4_alg».proof.Proof.IndexLemmas
import Idealize.ShloMosaic.Adequacy
import Idealize.ShloMosaic.Init

noncomputable section

namespace Cert.Proof

open Idealize.ShloMosaic Idealize.ShloMosaic.TcCoe Idealize.SL.Sem

/-- The word-level kernel program runs to the end and keeps its arguments. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference runs to the end, and none of its operations writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.Hand.kept_arg0 _),
      (h c Cert.ReferenceIdeal.main_arg1).trans (Cert.ReferenceIdeal.Hand.kept_arg1 _)⟩)
    (Cert.ReferenceIdeal.Hand.run_raw (F := Ideal) m ρ)

/-- From agreeing arguments both idealized programs end with the common value `G` of the arguments. -/
theorem algebraic : Cert.algebraic_KernelIdeal_ReferenceIdeal := by
  intro m ρ m' ρ' _ hagree
  refine ⟨fun c => Cert.Spec.G (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value (F := Ideal) m ρ, ?_⟩
  refine (θ_run Cert.ReferenceIdeal.defs _ _).mono
    (fun _ h c => ⟨?_, (h c Cert.ReferenceIdeal.main_arg0).trans (Cert.ReferenceIdeal.Hand.kept_arg0 _),
      (h c Cert.ReferenceIdeal.main_arg1).trans (Cert.ReferenceIdeal.Hand.kept_arg1 _)⟩)
    (Cert.ReferenceIdeal.Hand.run_raw (F := Ideal) m' ρ')
  refine (h c Cert.ReferenceIdeal.main_v140).trans ?_
  refine (Cert.ReferenceIdeal.Hand.result_eq (F := Ideal) _).trans ?_
  rw [Cert.Spec.refResult_eq_G]
  exact congrArg₂ (Cert.Spec.G (F := Ideal)) (hagree c).1 (hagree c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
